-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x3x8192 : Shape := ⟨3, ![4, 3, 8192]⟩
abbrev S4x512x3 : Shape := ⟨3, ![4, 512, 3]⟩
abbrev S4x512x1 : Shape := ⟨3, ![4, 512, 1]⟩
abbrev S4x3x512 : Shape := ⟨3, ![4, 3, 512]⟩
abbrev S4x1x512 : Shape := ⟨3, ![4, 1, 512]⟩
abbrev S4x512x512 : Shape := ⟨3, ![4, 512, 512]⟩
abbrev S4x512 : Shape := ⟨2, ![4, 512]⟩

abbrev nBuf : Space → Nat
  | .hbm => 33
  | .vmem => 22
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x1x8192, .f32⟩
  | .hbm, ⟨10, _⟩ => ⟨S4x3x8192, .f32⟩
  | .hbm, ⟨11, _⟩ => ⟨S4x8192x1, .f32⟩
  | .hbm, ⟨12, _⟩ => ⟨S4x8192, .f32⟩
  | .hbm, ⟨13, _⟩ => ⟨S4x8192x3, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x3, .f32⟩
  | .hbm, ⟨18, _⟩ => ⟨S_, .f32⟩
  | .hbm, ⟨19, _⟩ => ⟨S4x8192, .f32⟩
  | .hbm, ⟨20, _⟩ => ⟨S4x1x8192, .f32⟩
  | .hbm, ⟨21, _⟩ => ⟨S4x3x8192, .f32⟩
  | .hbm, ⟨22, _⟩ => ⟨S4x8192x1, .f32⟩
  | .hbm, ⟨23, _⟩ => ⟨S4x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x512x1, .f32⟩
  | .local _ .vmem, ⟨3, _⟩ => ⟨S4x512x1, .f32⟩
  | .local _ .vmem, ⟨4, _⟩ => ⟨S4x3x512, .f32⟩
  | .local _ .vmem, ⟨5, _⟩ => ⟨S4x3x512, .f32⟩
  | .local _ .vmem, ⟨6, _⟩ => ⟨S4x1x512, .f32⟩
  | .local _ .vmem, ⟨7, _⟩ => ⟨S4x1x512, .f32⟩
  | .local _ .vmem, ⟨8, _⟩ => ⟨S4x512x1, .f32⟩
  | .local _ .vmem, ⟨9, _⟩ => ⟨S4x512x1, .f32⟩
  | .local _ .vmem, ⟨10, _⟩ => ⟨S4x512x1, .f32⟩
  | .local _ .vmem, ⟨11, _⟩ => ⟨S4x512x3, .f32⟩
  | .local _ .vmem, ⟨12, _⟩ => ⟨S4x512x3, .f32⟩
  | .local _ .vmem, ⟨13, _⟩ => ⟨S4x512x1, .f32⟩
  | .local _ .vmem, ⟨14, _⟩ => ⟨S4x512x1, .f32⟩
  | .local _ .vmem, ⟨15, _⟩ => ⟨S4x3x512, .f32⟩
  | .local _ .vmem, ⟨16, _⟩ => ⟨S4x3x512, .f32⟩
  | .local _ .vmem, ⟨17, _⟩ => ⟨S4x1x512, .f32⟩
  | .local _ .vmem, ⟨18, _⟩ => ⟨S4x1x512, .f32⟩
  | .local _ .vmem, ⟨19, _⟩ => ⟨S4x512x1, .f32⟩
  | .local _ .vmem, ⟨20, _⟩ => ⟨S4x512x1, .f32⟩
  | .local _ .vmem, ⟨21, _⟩ => ⟨S4x512x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_29 : BitVec 32 := 0#32
  let v42 : BitVec 1 := Scalar.cmpi .ne v41 c0_i32_29
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_29 : BitVec 32 := 0#32
  let v42 : BitVec 1 := Scalar.cmpi .ne v41 c0_i32_29
  v42

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4x3x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S4x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  transposes_S4x8192x3_S4x3x8192_0_2_1 : S4x8192x3.Transposes [0, 2, 1] S4x3x8192
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  inb_S4x512x3_S4x512x1_0_0_0 : ∀ a, (![0, 0, 0] : Fin 3 → Nat) a + S4x512x1.size a ≤ S4x512x3.size a
  inb_S4x3x512_S4x1x512_0_0_0 : ∀ a, (![0, 0, 0] : Fin 3 → Nat) a + S4x1x512.size a ≤ S4x3x512.size a
  h_S4x1x512 : 0 < S4x1x512.numel
  shapeCasts_S4x1x512_S4x1x512 : S4x1x512.ShapeCasts S4x1x512
  broadcasts_S4x512x1_S4x512x512 : S4x512x1.Broadcasts S4x512x512
  broadcasts_S4x1x512_S4x512x512 : S4x1x512.Broadcasts S4x512x512
  inb_S4x512x3_S4x512x1_0_0_1 : ∀ a, (![0, 0, 1] : Fin 3 → Nat) a + S4x512x1.size a ≤ S4x512x3.size a
  inb_S4x3x512_S4x1x512_0_1_0 : ∀ a, (![0, 1, 0] : Fin 3 → Nat) a + S4x1x512.size a ≤ S4x3x512.size a
  inb_S4x512x3_S4x512x1_0_0_2 : ∀ a, (![0, 0, 2] : Fin 3 → Nat) a + S4x512x1.size a ≤ S4x512x3.size a
  inb_S4x3x512_S4x1x512_0_2_0 : ∀ a, (![0, 2, 0] : Fin 3 → Nat) a + S4x1x512.size a ≤ S4x3x512.size a
  inb_S4x1x512_S4x1x512_0_0_0 : ∀ a, (![0, 0, 0] : Fin 3 → Nat) a + S4x1x512.size a ≤ S4x1x512.size a
  reduces_S4x512x512_S4x512 : S4x512x512.Reduces [2] S4x512
  shapeCasts_S4x512_S4x512x1 : S4x512.ShapeCasts S4x512x1
  shapeCasts_S4x8192x1_S4x8192 : S4x8192x1.ShapeCasts S4x8192
  reducesTo_S4x8192_S_d0_1 : S4x8192.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x1.size a ≤ S4x8192x1.size a
  hwx0_1 : ∀ i : grid0.Coords, EltTy.bits .f32 = 32 ∨ (Rect.block (s := S4x8192x1) S4x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x3x512.size a ≤ S4x3x8192.size a
  hwx0_2 : ∀ i : grid0.Coords, EltTy.bits .f32 = 32 ∨ (Rect.block (s := S4x3x8192) S4x3x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x512.size a ≤ S4x1x8192.size a
  hwx0_3 : ∀ i : grid0.Coords, EltTy.bits .f32 = 32 ∨ (Rect.block (s := S4x1x8192) S4x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x1.size a ≤ S4x8192x1.size a
  hwx0_4 : ∀ i : grid0.Coords, EltTy.bits .f32 = 32 ∨ (Rect.block (s := S4x8192x1) S4x512x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x1.size a ≤ S4x8192x1.size a
  hwx1_1 : ∀ i : grid1.Coords, EltTy.bits .f32 = 32 ∨ (Rect.block (s := S4x8192x1) S4x512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x3x512.size a ≤ S4x3x8192.size a
  hwx1_2 : ∀ i : grid1.Coords, EltTy.bits .f32 = 32 ∨ (Rect.block (s := S4x3x8192) S4x3x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x1x512.size a ≤ S4x1x8192.size a
  hwx1_3 : ∀ i : grid1.Coords, EltTy.bits .f32 = 32 ∨ (Rect.block (s := S4x1x8192) S4x1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x512x1.size a ≤ S4x8192x1.size a
  hwx1_4 : ∀ i : grid1.Coords, EltTy.bits .f32 = 32 ∨ (Rect.block (s := S4x8192x1) S4x512x1.size (cc1_transform_4 i) (hinb1_4 i)).WholeWords (EltTy.packing .f32)

variable [Facts₀]

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4x3x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S4x512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4x512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4x3x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S4x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S4x512x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Kernel.R0Base.lean ====
/-
  Region 0 (the first tiled call: queries from the first cloud, keys from the second), the ground its body proofs
  stand on, at any float instance: each window's block at a grid point read off the array the region is entered with;
  the two conditions of the body (first key block of a row of blocks: the running minimum is reset; last key block:
  the running minimum is written out) in closed form over the 16 × 16 grid; where the output window is idle; the
  staging and scratch memrefs; and the class invariant split into the carried scratch, the core's other scoped
  buffers, and the generator register.
-/
import proofs.«121401_j2044404433131_1_alg».proof.Proof.Gen.Kernel.Launch
import proofs.«121401_j2044404433131_1_alg».proof.Proof.Gen.Kernel.Skeleton
import proofs.«121401_j2044404433131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose block
    index does not move between two points keeps its buffer): for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions -/

/-- "This is the first key block of its row of blocks" (grid coordinate 1 is 0): the body resets the running minimum. -/
abbrev cond0_0 (i : grid0.Coords) : Prop := (Scalar.cmpi .ne (Scalar.extui (Scalar.cmpi .eq (BitVec.ofNat 32 (i 1).val) 0#32)) 0#32) = 1#1
/-- It holds exactly at the points ≡ 0 (mod 16): decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last key block" (grid coordinate 1 is 15): the body writes the running minimum out. -/
abbrev cond0_1 (i : grid0.Coords) : Prop := k0_cond2 i = 1#1
/-- It holds exactly at the points ≡ 15 (mod 16): decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last key block the body stores nothing into the output window: it is idle there, -/
theorem idleAt0_4 : ∀ t : Fin cfg0.N, ¬cond0_1 (grid0.coords t) → cfg0.idle 4 (grid0.coords t) = true := by decide +kernel
/-- and its block is not written back there. -/
theorem noFlush0_4 : ∀ t : Fin cfg0.N, ¬cond0_1 (grid0.coords t) → (cfg0.win 4).flush t = false := by decide +kernel
/-- At the last key block it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S4x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x3x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x512x1 .f32 := win0_4.stage (cfg0.slots t 4)
abbrev hs0_4 (t : Fin cfg0.N) : (ms0_4 t).IsWhole := hstage0_4 ((cfg0.slots t 4).cast nbuf0_4)
/-- The scratch that carries the running minimum from one key block to the next. -/
abbrev scM0 : Memref sig .tc .vmem S4x512x1 .f32 := Memref.whole cc0_scratch0
/-- The scratch and one staging buffer of the output window as views, through which their contents are stated. -/
abbrev VS0 : View sig .tc .vmem S4x512x1 .f32 := scM0.view
abbrev VO0 : View sig .tc .vmem S4x512x1 .f32 := (Memref.whole cc0_stg4_0 : Memref sig .tc .vmem S4x512x1 .f32).view

/-! ## The class invariant, split -/

/-- The scoped buffers of the core that are no staging buffer of this call, split at the call's own scratch: the
    scratch whole at some contents, the remainder unopened. -/
theorem scopedRest0_own (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The scoped buffers this call neither stages through nor carries (the other call's staging buffers and scratch), each
    at some contents. They ride through this region untouched. -/
def otherScoped0 (c : Dev nD) : sProp 𝕄 :=
  Pipeline.scopedRestBut (Ix := Unit) (Name := ℕ) (U := UR sig nD τ) (Lvl := ℕ) (Val := Elt F) spec0 c [cc0_scratch0]

/-- The class invariant (every scoped buffer that is no staging buffer of this call at some contents, and the generator
    register at some state) with the carried scratch split off as an owned memref. -/
theorem PhiA0_eq (c : Dev nD) :
    (Pipeline.ΦA spec0 c : sProp 𝕄)
      = iprop(iprop((∃ d, owns (c : Thread nD τ) scM0 fullShare d) ∗ otherScoped0 c) ∗ (∃ r, prngReg c r)) := by
  unfold Pipeline.ΦA otherScoped0; rw [scopedRest0_own]; simp only [scM0, owns_whole]; try rfl

end Cert.Kernel.Hand

end
-- ==== Proof.Kernel.R0RunA.lean ====
/-
  Region 0's body at a point that is the FIRST key block of its row of blocks and not the last: the running minimum is reset to +∞ and then folded with this block's row minima; nothing is stored into the output window. The body run on whole memrefs holding the four input blocks, with the pieces it leaves in the scratch as the witness.
-/
import proofs.«121401_j2044404433131_1_alg».proof.Proof.Kernel.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (last first) in this case, WITH the proof that on whole memrefs —
    the four inputs' at their blocks, the output's at contents handed back untouched, the scratch at anything — the body
    runs to the continuation holding the inputs and the output as they were and the scratch with those pieces written. -/
noncomputable def kernelRun0_A (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond0_0 i) (hc1 : ¬cond0_1 i)
    (x0 : Vec F S4x512x3 .f32) (x1 : Vec F S4x512x1 .f32) (x2 : Vec F S4x3x512 .f32) (x3 : Vec F S4x1x512 .f32) :
    Σ' (L4 : List (View.Piece (Elt F) S4x512x1 .f32)), { LS0 : List (View.Piece (Elt F) S4x512x1 .f32) //
      ∀ (xi4 : Vec F S4x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__chamfer_min_kernel i arg2 harg2 arg3 harg3 arg4 harg4 arg5 harg5 arg6 harg6 arg7 harg7) K } := by
  refine ⟨[], ?_, fun xi4 E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.Kernel.R0RunB.lean ====
/-
  Region 0's body at a point that is neither the first nor the last key block of its row of blocks: the running minimum the point before left is folded with this block's row minima; nothing is stored into the output window.
-/
import proofs.«121401_j2044404433131_1_alg».proof.Proof.Kernel.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch in this case, WITH the proof that on whole memrefs — the inputs' at
    their blocks, the output's at contents handed back untouched, the scratch at what the point before left (`xs0`) — the
    body runs to the continuation holding the inputs and the output as they were and the scratch with those pieces written. -/
noncomputable def kernelRun0_B (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : ¬cond0_1 i)
    (x0 : Vec F S4x512x3 .f32) (x1 : Vec F S4x512x1 .f32) (x2 : Vec F S4x3x512 .f32) (x3 : Vec F S4x1x512 .f32) (xs0 : Vec F S4x512x1 .f32) :
    Σ' (L4 : List (View.Piece (Elt F) S4x512x1 .f32)), { LS0 : List (View.Piece (Elt F) S4x512x1 .f32) //
      ∀ (xi4 : Vec F S4x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__chamfer_min_kernel i arg2 harg2 arg3 harg3 arg4 harg4 arg5 harg5 arg6 harg6 arg7 harg7) K } := by
  refine ⟨[], ?_, fun xi4 E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.Kernel.R0RunC.lean ====
/-
  Region 0's body at a point that is the LAST key block of its row of blocks: the running minimum the point before left is folded with this block's row minima and the result is stored into the output window.
-/
import proofs.«121401_j2044404433131_1_alg».proof.Proof.Kernel.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer and in the scratch in this case, WITH the proof that
    on whole memrefs — the inputs' at their blocks, the output's at anything, the scratch at what the point before left
    (`xs0`) — the body runs to the continuation holding the inputs as they were and the output's buffer and the scratch
    with those pieces written. -/
noncomputable def kernelRun0_C (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : cond0_1 i)
    (x0 : Vec F S4x512x3 .f32) (x1 : Vec F S4x512x1 .f32) (x2 : Vec F S4x3x512 .f32) (x3 : Vec F S4x1x512 .f32) (xs0 : Vec F S4x512x1 .f32) :
    Σ' (L4 : List (View.Piece (Elt F) S4x512x1 .f32)), { LS0 : List (View.Piece (Elt F) S4x512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__chamfer_min_kernel i arg2 harg2 arg3 harg3 arg4 harg4 arg5 harg5 arg6 harg6 arg7 harg7) K } := by
  refine ⟨?_, ?_, fun E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.Kernel.R0Dat.lean ====
/-
  Region 0: what its body leaves, case by case and point by point, and the proof data of the pipeline.

  The scratch carries the running minimum of a row of blocks across the 16 key blocks of that row: at a point it holds
  what the case of that point leaves, computed from the point's four input blocks and (except at the first key block,
  where it is reset) from what the point before left. The output window's buffer is stored only at the last key block,
  with the scratch's contents there. The region invariant is the class's before the first point; afterwards it holds the
  scratch at what the point before left, beside the other call's scoped buffers and the generator register.
-/
import proofs.«121401_j2044404433131_1_alg».proof.Proof.Kernel.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's pieces cover the buffer they are written to -/

theorem scover0_A (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond0_0 i) (hc1 : ¬cond0_1 i)
    (x0 : Vec F S4x512x3 .f32) (x1 : Vec F S4x512x1 .f32) (x2 : Vec F S4x3x512 .f32) (x3 : Vec F S4x1x512 .f32) (y : S4x512x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S4x512x1.size (by sl_kernel_rfl) y

theorem scover0_B (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : ¬cond0_1 i)
    (x0 : Vec F S4x512x3 .f32) (x1 : Vec F S4x512x1 .f32) (x2 : Vec F S4x3x512 .f32) (x3 : Vec F S4x1x512 .f32) (xs0 : Vec F S4x512x1 .f32) (y : S4x512x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S4x512x1.size (by sl_kernel_rfl) y

theorem scover0_C (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : cond0_1 i)
    (x0 : Vec F S4x512x3 .f32) (x1 : Vec F S4x512x1 .f32) (x2 : Vec F S4x3x512 .f32) (x3 : Vec F S4x1x512 .f32) (xs0 : Vec F S4x512x1 .f32) (y : S4x512x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S4x512x1.size (by sl_kernel_rfl) y

theorem cover0_C (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : cond0_1 i)
    (x0 : Vec F S4x512x3 .f32) (x1 : Vec F S4x512x1 .f32) (x2 : Vec F S4x3x512 .f32) (x3 : Vec F S4x1x512 .f32) (xs0 : Vec F S4x512x1 .f32) (y : S4x512x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S4x512x1.size (by sl_kernel_rfl) y

/-! ## What each case leaves: its pieces read back -/

/-- The scratch after a first key block. -/
def sout0_A (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond0_0 i) (hc1 : ¬cond0_1 i)
    (x0 : Vec F S4x512x3 .f32) (x1 : Vec F S4x512x1 .f32) (x2 : Vec F S4x3x512 .f32) (x3 : Vec F S4x1x512 .f32) : Vec F S4x512x1 .f32 :=
  VS0.read (Elt F) (VS0.writes (Elt F) VS0.junk (kernelRun0_A c i arg2 harg2 arg3 harg3 arg4 harg4 arg5 harg5 arg6 harg6 arg7 harg7 hc0 hc1 x0 x1 x2 x3).2.1)

/-- The scratch after a middle key block, over what the point before left (`xs0`). -/
def sout0_B (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : ¬cond0_1 i)
    (x0 : Vec F S4x512x3 .f32) (x1 : Vec F S4x512x1 .f32) (x2 : Vec F S4x3x512 .f32) (x3 : Vec F S4x1x512 .f32) (xs0 : Vec F S4x512x1 .f32) : Vec F S4x512x1 .f32 :=
  VS0.read (Elt F) (VS0.writes (Elt F) VS0.junk (kernelRun0_B c i arg2 harg2 arg3 harg3 arg4 harg4 arg5 harg5 arg6 harg6 arg7 harg7 hc0 hc1 x0 x1 x2 x3 xs0).2.1)

/-- The scratch after a last key block, over what the point before left. -/
def sout0_C (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : cond0_1 i)
    (x0 : Vec F S4x512x3 .f32) (x1 : Vec F S4x512x1 .f32) (x2 : Vec F S4x3x512 .f32) (x3 : Vec F S4x1x512 .f32) (xs0 : Vec F S4x512x1 .f32) : Vec F S4x512x1 .f32 :=
  VS0.read (Elt F) (VS0.writes (Elt F) VS0.junk (kernelRun0_C c i arg2 harg2 arg3 harg3 arg4 harg4 arg5 harg5 arg6 harg6 arg7 harg7 hc0 hc1 x0 x1 x2 x3 xs0).2.1)

/-- The output window's buffer after a last key block. -/
def out0_C (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : cond0_1 i)
    (x0 : Vec F S4x512x3 .f32) (x1 : Vec F S4x512x1 .f32) (x2 : Vec F S4x3x512 .f32) (x3 : Vec F S4x1x512 .f32) (xs0 : Vec F S4x512x1 .f32) : Vec F S4x512x1 .f32 :=
  VO0.read (Elt F) (VO0.writes (Elt F) VO0.junk (kernelRun0_C c i arg2 harg2 arg3 harg3 arg4 harg4 arg5 harg5 arg6 harg6 arg7 harg7 hc0 hc1 x0 x1 x2 x3 xs0).1)

/-- Where the output window is idle its buffer's contents are consulted by nothing: a placeholder. -/
def idleOut0 : Vec F S4x512x1 .f32 := VO0.read (Elt F) VO0.junk

section
variable (V : (c : Dev nD) → (b : Ref sig .tc) → Buf (Elt F) ((c : Thread nD τ).loc b))

/-! ## The accumulation over the grid -/

/-- What the output window's buffer and the scratch hold after the body at position `n` (a pair: output, scratch): the
    case the closed forms select at `n`, run at the point's memrefs and input blocks, over what position `n - 1` left in
    the scratch. First and last key block at once is no case of a 16-block row. -/
def outsAt0 (c : Dev nD) : (n : ℕ) → n < cfg0.N → Vec F S4x512x1 .f32 × Vec F S4x512x1 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 16 = 0 then
      if h1 : (n + 1) % 16 = 15 then
        False.elim (by omega)
      else
        (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- At a first key block. -/
theorem outsAt0_A (c : Dev nD) (t : Fin cfg0.N) (h0 : t.val % 16 = 0) (h1 : ¬t.val % 16 = 15) :
    outsAt0 V c t.val t.isLt = (idleOut0, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- At a middle key block: over what the point before left. -/
theorem outsAt0_B (c : Dev nD) (t : Fin cfg0.N) (h0 : ¬t.val % 16 = 0) (h1 : ¬t.val % 16 = 15) :
    outsAt0 V c t.val t.isLt = (idleOut0, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last key block: over what the point before left. -/
theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: the class's before the first point; afterwards the scratch at what position `n - 1` left, the other
    call's scoped buffers, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ otherScoped0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ otherScoped0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ otherScoped0 c) ∗ (∃ r, prngReg c r)) := by
  cases n with
  | zero => exact absurd rfl hz
  | succ n => rfl

/-! ## The pipeline's proof data -/

/-- The arrays as the region finds them; after the body at a point each input's buffer at its block, the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end

end Cert.Kernel.Hand

end
-- ==== Proof.Kernel.R0Body.lean ====
/-
  Region 0: the body obligation of its pipeline, at a generic grid point, and the two entailments that let the class
  invariant in and out of the one that carries the scratch.

  At a point the inputs' staging buffers hold their blocks; the closed forms say which case the point is in; the
  invariant hands the body the scratch at what the point before left (at anything at the very first point) and takes it
  back at this point's contents; where the output window is idle its buffer is handed back as found.
-/
import proofs.«121401_j2044404433131_1_alg».proof.Proof.Kernel.R0Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point, by cases on where the point stands in its row of key blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  by_cases h0 : t.val % 16 = 0
  · by_cases h1 : t.val % 16 = 15
    · exfalso; omega
    · -- a first key block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 16 = 15
    · -- a last key block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · -- a middle key block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 256 := N_0; omega)

end

end Cert.Kernel.Hand

end
-- ==== Proof.Kernel.R1Base.lean ====
/-
  Region 1 (the second tiled call: queries from the second cloud, keys from the first), the ground its body proofs
  stand on, at any float instance: each window's block at a grid point read off the array the region is entered with;
  the two conditions of the body (first key block of a row of blocks: the running minimum is reset; last key block:
  the running minimum is written out) in closed form over the 16 × 16 grid; where the output window is idle; the
  staging and scratch memrefs; and the class invariant split into the carried scratch, the core's other scoped
  buffers, and the generator register.
-/
import proofs.«121401_j2044404433131_1_alg».proof.Proof.Gen.Kernel.Launch
import proofs.«121401_j2044404433131_1_alg».proof.Proof.Gen.Kernel.Skeleton
import proofs.«121401_j2044404433131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose block
    index does not move between two points keeps its buffer): for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions -/

/-- "This is the first key block of its row of blocks" (grid coordinate 1 is 0): the body resets the running minimum. -/
abbrev cond1_0 (i : grid1.Coords) : Prop := (Scalar.cmpi .ne (Scalar.extui (Scalar.cmpi .eq (BitVec.ofNat 32 (i 1).val) 0#32)) 0#32) = 1#1
/-- It holds exactly at the points ≡ 0 (mod 16): decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key block" (grid coordinate 1 is 15): the body writes the running minimum out. -/
abbrev cond1_1 (i : grid1.Coords) : Prop := k1_cond2 i = 1#1
/-- It holds exactly at the points ≡ 15 (mod 16): decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key block the body stores nothing into the output window: it is idle there, -/
theorem idleAt1_4 : ∀ t : Fin cfg1.N, ¬cond1_1 (grid1.coords t) → cfg1.idle 4 (grid1.coords t) = true := by decide +kernel
/-- and its block is not written back there. -/
theorem noFlush1_4 : ∀ t : Fin cfg1.N, ¬cond1_1 (grid1.coords t) → (cfg1.win 4).flush t = false := by decide +kernel
/-- At the last key block it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S4x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x3x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x512x1 .f32 := win1_4.stage (cfg1.slots t 4)
abbrev hs1_4 (t : Fin cfg1.N) : (ms1_4 t).IsWhole := hstage1_4 ((cfg1.slots t 4).cast nbuf1_4)
/-- The scratch that carries the running minimum from one key block to the next. -/
abbrev scM1 : Memref sig .tc .vmem S4x512x1 .f32 := Memref.whole cc1_scratch0
/-- The scratch and one staging buffer of the output window as views, through which their contents are stated. -/
abbrev VS1 : View sig .tc .vmem S4x512x1 .f32 := scM1.view
abbrev VO1 : View sig .tc .vmem S4x512x1 .f32 := (Memref.whole cc1_stg4_0 : Memref sig .tc .vmem S4x512x1 .f32).view

/-! ## The class invariant, split -/

/-- The scoped buffers of the core that are no staging buffer of this call, split at the call's own scratch: the
    scratch whole at some contents, the remainder unopened. -/
theorem scopedRest1_own (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The scoped buffers this call neither stages through nor carries (the other call's staging buffers and scratch), each
    at some contents. They ride through this region untouched. -/
def otherScoped1 (c : Dev nD) : sProp 𝕄 :=
  Pipeline.scopedRestBut (Ix := Unit) (Name := ℕ) (U := UR sig nD τ) (Lvl := ℕ) (Val := Elt F) spec1 c [cc1_scratch0]

/-- The class invariant (every scoped buffer that is no staging buffer of this call at some contents, and the generator
    register at some state) with the carried scratch split off as an owned memref. -/
theorem PhiA1_eq (c : Dev nD) :
    (Pipeline.ΦA spec1 c : sProp 𝕄)
      = iprop(iprop((∃ d, owns (c : Thread nD τ) scM1 fullShare d) ∗ otherScoped1 c) ∗ (∃ r, prngReg c r)) := by
  unfold Pipeline.ΦA otherScoped1; rw [scopedRest1_own]; simp only [scM1, owns_whole]; try rfl

end Cert.Kernel.Hand

end
-- ==== Proof.Kernel.R1RunA.lean ====
/-
  Region 1's body at a point that is the FIRST key block of its row of blocks and not the last: the running minimum is reset to +∞ and then folded with this block's row minima; nothing is stored into the output window. The body run on whole memrefs holding the four input blocks, with the pieces it leaves in the scratch as the witness.
-/
import proofs.«121401_j2044404433131_1_alg».proof.Proof.Kernel.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (last first) in this case, WITH the proof that on whole memrefs —
    the four inputs' at their blocks, the output's at contents handed back untouched, the scratch at anything — the body
    runs to the continuation holding the inputs and the output as they were and the scratch with those pieces written. -/
noncomputable def kernelRun1_A (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond1_0 i) (hc1 : ¬cond1_1 i)
    (x0 : Vec F S4x512x3 .f32) (x1 : Vec F S4x512x1 .f32) (x2 : Vec F S4x3x512 .f32) (x3 : Vec F S4x1x512 .f32) :
    Σ' (L4 : List (View.Piece (Elt F) S4x512x1 .f32)), { LS0 : List (View.Piece (Elt F) S4x512x1 .f32) //
      ∀ (xi4 : Vec F S4x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__chamfer_min_kernel i arg2 harg2 arg3 harg3 arg4 harg4 arg5 harg5 arg6 harg6 arg7 harg7) K } := by
  refine ⟨[], ?_, fun xi4 E K => ?run⟩
  case run =>
    simp only [cc1__chamfer_min_kernel_eq_skeleton]; unfold cc1__chamfer_min_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.Kernel.R1RunB.lean ====
/-
  Region 1's body at a point that is neither the first nor the last key block of its row of blocks: the running minimum the point before left is folded with this block's row minima; nothing is stored into the output window.
-/
import proofs.«121401_j2044404433131_1_alg».proof.Proof.Kernel.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch in this case, WITH the proof that on whole memrefs — the inputs' at
    their blocks, the output's at contents handed back untouched, the scratch at what the point before left (`xs0`) — the
    body runs to the continuation holding the inputs and the output as they were and the scratch with those pieces written. -/
noncomputable def kernelRun1_B (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : ¬cond1_1 i)
    (x0 : Vec F S4x512x3 .f32) (x1 : Vec F S4x512x1 .f32) (x2 : Vec F S4x3x512 .f32) (x3 : Vec F S4x1x512 .f32) (xs0 : Vec F S4x512x1 .f32) :
    Σ' (L4 : List (View.Piece (Elt F) S4x512x1 .f32)), { LS0 : List (View.Piece (Elt F) S4x512x1 .f32) //
      ∀ (xi4 : Vec F S4x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__chamfer_min_kernel i arg2 harg2 arg3 harg3 arg4 harg4 arg5 harg5 arg6 harg6 arg7 harg7) K } := by
  refine ⟨[], ?_, fun xi4 E K => ?run⟩
  case run =>
    simp only [cc1__chamfer_min_kernel_eq_skeleton]; unfold cc1__chamfer_min_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.Kernel.R1RunC.lean ====
/-
  Region 1's body at a point that is the LAST key block of its row of blocks: the running minimum the point before left is folded with this block's row minima and the result is stored into the output window.
-/
import proofs.«121401_j2044404433131_1_alg».proof.Proof.Kernel.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer and in the scratch in this case, WITH the proof that
    on whole memrefs — the inputs' at their blocks, the output's at anything, the scratch at what the point before left
    (`xs0`) — the body runs to the continuation holding the inputs as they were and the output's buffer and the scratch
    with those pieces written. -/
noncomputable def kernelRun1_C (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : cond1_1 i)
    (x0 : Vec F S4x512x3 .f32) (x1 : Vec F S4x512x1 .f32) (x2 : Vec F S4x3x512 .f32) (x3 : Vec F S4x1x512 .f32) (xs0 : Vec F S4x512x1 .f32) :
    Σ' (L4 : List (View.Piece (Elt F) S4x512x1 .f32)), { LS0 : List (View.Piece (Elt F) S4x512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__chamfer_min_kernel i arg2 harg2 arg3 harg3 arg4 harg4 arg5 harg5 arg6 harg6 arg7 harg7) K } := by
  refine ⟨?_, ?_, fun E K => ?run⟩
  case run =>
    simp only [cc1__chamfer_min_kernel_eq_skeleton]; unfold cc1__chamfer_min_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.Kernel.R1Dat.lean ====
/-
  Region 1: what its body leaves, case by case and point by point, and the proof data of the pipeline.

  The scratch carries the running minimum of a row of blocks across the 16 key blocks of that row: at a point it holds
  what the case of that point leaves, computed from the point's four input blocks and (except at the first key block,
  where it is reset) from what the point before left. The output window's buffer is stored only at the last key block,
  with the scratch's contents there. The region invariant is the class's before the first point; afterwards it holds the
  scratch at what the point before left, beside the other call's scoped buffers and the generator register.
-/
import proofs.«121401_j2044404433131_1_alg».proof.Proof.Kernel.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's pieces cover the buffer they are written to -/

theorem scover1_A (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond1_0 i) (hc1 : ¬cond1_1 i)
    (x0 : Vec F S4x512x3 .f32) (x1 : Vec F S4x512x1 .f32) (x2 : Vec F S4x3x512 .f32) (x3 : Vec F S4x1x512 .f32) (y : S4x512x1.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S4x512x1.size (by sl_kernel_rfl) y

theorem scover1_B (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : ¬cond1_1 i)
    (x0 : Vec F S4x512x3 .f32) (x1 : Vec F S4x512x1 .f32) (x2 : Vec F S4x3x512 .f32) (x3 : Vec F S4x1x512 .f32) (xs0 : Vec F S4x512x1 .f32) (y : S4x512x1.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S4x512x1.size (by sl_kernel_rfl) y

theorem scover1_C (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : cond1_1 i)
    (x0 : Vec F S4x512x3 .f32) (x1 : Vec F S4x512x1 .f32) (x2 : Vec F S4x3x512 .f32) (x3 : Vec F S4x1x512 .f32) (xs0 : Vec F S4x512x1 .f32) (y : S4x512x1.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S4x512x1.size (by sl_kernel_rfl) y

theorem cover1_C (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : cond1_1 i)
    (x0 : Vec F S4x512x3 .f32) (x1 : Vec F S4x512x1 .f32) (x2 : Vec F S4x3x512 .f32) (x3 : Vec F S4x1x512 .f32) (xs0 : Vec F S4x512x1 .f32) (y : S4x512x1.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S4x512x1.size (by sl_kernel_rfl) y

/-! ## What each case leaves: its pieces read back -/

/-- The scratch after a first key block. -/
def sout1_A (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond1_0 i) (hc1 : ¬cond1_1 i)
    (x0 : Vec F S4x512x3 .f32) (x1 : Vec F S4x512x1 .f32) (x2 : Vec F S4x3x512 .f32) (x3 : Vec F S4x1x512 .f32) : Vec F S4x512x1 .f32 :=
  VS1.read (Elt F) (VS1.writes (Elt F) VS1.junk (kernelRun1_A c i arg2 harg2 arg3 harg3 arg4 harg4 arg5 harg5 arg6 harg6 arg7 harg7 hc0 hc1 x0 x1 x2 x3).2.1)

/-- The scratch after a middle key block, over what the point before left (`xs0`). -/
def sout1_B (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : ¬cond1_1 i)
    (x0 : Vec F S4x512x3 .f32) (x1 : Vec F S4x512x1 .f32) (x2 : Vec F S4x3x512 .f32) (x3 : Vec F S4x1x512 .f32) (xs0 : Vec F S4x512x1 .f32) : Vec F S4x512x1 .f32 :=
  VS1.read (Elt F) (VS1.writes (Elt F) VS1.junk (kernelRun1_B c i arg2 harg2 arg3 harg3 arg4 harg4 arg5 harg5 arg6 harg6 arg7 harg7 hc0 hc1 x0 x1 x2 x3 xs0).2.1)

/-- The scratch after a last key block, over what the point before left. -/
def sout1_C (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : cond1_1 i)
    (x0 : Vec F S4x512x3 .f32) (x1 : Vec F S4x512x1 .f32) (x2 : Vec F S4x3x512 .f32) (x3 : Vec F S4x1x512 .f32) (xs0 : Vec F S4x512x1 .f32) : Vec F S4x512x1 .f32 :=
  VS1.read (Elt F) (VS1.writes (Elt F) VS1.junk (kernelRun1_C c i arg2 harg2 arg3 harg3 arg4 harg4 arg5 harg5 arg6 harg6 arg7 harg7 hc0 hc1 x0 x1 x2 x3 xs0).2.1)

/-- The output window's buffer after a last key block. -/
def out1_C (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : cond1_1 i)
    (x0 : Vec F S4x512x3 .f32) (x1 : Vec F S4x512x1 .f32) (x2 : Vec F S4x3x512 .f32) (x3 : Vec F S4x1x512 .f32) (xs0 : Vec F S4x512x1 .f32) : Vec F S4x512x1 .f32 :=
  VO1.read (Elt F) (VO1.writes (Elt F) VO1.junk (kernelRun1_C c i arg2 harg2 arg3 harg3 arg4 harg4 arg5 harg5 arg6 harg6 arg7 harg7 hc0 hc1 x0 x1 x2 x3 xs0).1)

/-- Where the output window is idle its buffer's contents are consulted by nothing: a placeholder. -/
def idleOut1 : Vec F S4x512x1 .f32 := VO1.read (Elt F) VO1.junk

section
variable (V : (c : Dev nD) → (b : Ref sig .tc) → Buf (Elt F) ((c : Thread nD τ).loc b))

/-! ## The accumulation over the grid -/

/-- What the output window's buffer and the scratch hold after the body at position `n` (a pair: output, scratch): the
    case the closed forms select at `n`, run at the point's memrefs and input blocks, over what position `n - 1` left in
    the scratch. First and last key block at once is no case of a 16-block row. -/
def outsAt1 (c : Dev nD) : (n : ℕ) → n < cfg1.N → Vec F S4x512x1 .f32 × Vec F S4x512x1 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      if h1 : (n + 1) % 16 = 15 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 16 = 15 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- At a first key block. -/
theorem outsAt1_A (c : Dev nD) (t : Fin cfg1.N) (h0 : t.val % 16 = 0) (h1 : ¬t.val % 16 = 15) :
    outsAt1 V c t.val t.isLt = (idleOut1, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- At a middle key block: over what the point before left. -/
theorem outsAt1_B (c : Dev nD) (t : Fin cfg1.N) (h0 : ¬t.val % 16 = 0) (h1 : ¬t.val % 16 = 15) :
    outsAt1 V c t.val t.isLt = (idleOut1, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last key block: over what the point before left. -/
theorem outsAt1_C (c : Dev nD) (t : Fin cfg1.N) (h0 : ¬t.val % 16 = 0) (h1 : t.val % 16 = 15) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: the class's before the first point; afterwards the scratch at what position `n - 1` left, the other
    call's scoped buffers, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ otherScoped1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ otherScoped1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ otherScoped1 c) ∗ (∃ r, prngReg c r)) := by
  cases n with
  | zero => exact absurd rfl hz
  | succ n => rfl

/-! ## The pipeline's proof data -/

/-- The arrays as the region finds them; after the body at a point each input's buffer at its block, the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end

end Cert.Kernel.Hand

end
-- ==== Proof.Kernel.R1Body.lean ====
/-
  Region 1: the body obligation of its pipeline, at a generic grid point, and the two entailments that let the class
  invariant in and out of the one that carries the scratch.

  At a point the inputs' staging buffers hold their blocks; the closed forms say which case the point is in; the
  invariant hands the body the scratch at what the point before left (at anything at the very first point) and takes it
  back at this point's contents; where the output window is idle its buffer is handed back as found.
-/
import proofs.«121401_j2044404433131_1_alg».proof.Proof.Kernel.R1Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point, by cases on where the point stands in its row of key blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · by_cases h1 : t.val % 16 = 15
    · exfalso; omega
    · -- a first key block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 16 = 15
    · -- a last key block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · -- a middle key block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end

end Cert.Kernel.Hand

end
-- ==== Proof.Kernel.Run.lean ====
/-
  The whole program as a run: three stretches of host operations around the two tiled calls, at any float instance.

  The unscoped buffers' contents at each boundary are a fold from the launch memory: a host stretch applies its
  operations; a tiled call leaves its arrays at what its write-backs fold to and everything else as it found it. Each
  call is entered from every unscoped buffer at the boundary's contents and left at the next boundary's, its arrays split
  out and put back, the generator register into the call's invariant and out, nothing owed. Every weakly fair execution
  then terminates with every unscoped buffer at the last boundary's contents: in particular the result buffer, and both
  argument arrays as launched (no host operation writes an argument; a call reads it through an input window or not at
  all).
-/
import proofs.«121401_j2044404433131_1_alg».proof.Proof.Kernel.R0Body
import proofs.«121401_j2044404433131_1_alg».proof.Proof.Kernel.R1Body
import proofs.«121401_j2044404433131_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: what the program returns with. -/
abbrev W5 : Dev nD → Valuation τ sig (Elt F) := fun c => StableHlo.after hostOps2 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-! ## The proof data family and the thread state -/

/-- No call has a prefetched table. -/
abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- The first call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout0 (V1 m ρ) c
    unfold Pipeline.ΦA at h
    rw [Pipeline.ownSems0_none, show (pdats m ρ 0 c).Φ (Fin.last _) = (dat0 (V1 m ρ) c).Φ (Fin.last cfg0.N) from rfl]
    iintro HPhi
    ihave H := h $$ HPhi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    rw [show (pdats m ρ 1 c).Φ 0 = (dat1 (V3 m ρ) c).Φ 0 from rfl]
    iintro ⟨Hp, -, Hr⟩
    iapply h
    isplitl [Hr]; · iexact Hr
    iexact Hp
  hout c := by
    have h := hout1 (V3 m ρ) c
    unfold Pipeline.ΦA at h
    rw [Pipeline.ownSems0_none, show (pdats m ρ 1 c).Φ (Fin.last _) = (dat1 (V3 m ρ) c).Φ (Fin.last cfg1.N) from rfl]
    iintro HPhi
    ihave H := h $$ HPhi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state has the result buffer at the last boundary's contents and both argument arrays as launched. -/
theorem run_all : θ_run defs (onTc (τ := τ) (main (F := F))) ⟨m, fun _ => 0, ρ⟩ (fun r => ∀ c : Dev nD,
      r.2.mem ((c.tc : Thread nD τ).loc main_v22) = W5 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => show iprop(StableHlo.held (c : Thread nD τ) (Pipeline.ucRefs τ sig) (W5 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v22 (by decide)),
       (h c _ (mem_uc main_arg0 (by decide))).trans (W5_main_arg0 m ρ c),
       (h c _ (mem_uc main_arg1 (by decide))).trans (W5_main_arg1 m ρ c)⟩)

/-- The frame: every weakly fair execution terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_all m ρ)

end Cert.Kernel.Hand

end
-- ==== Proof.KernelIdeal.R0Base.lean ====
/-
  Region 0 (the first tiled call: queries from the first cloud, keys from the second), the ground its body proofs
  stand on, at any float instance: each window's block at a grid point read off the array the region is entered with;
  the two conditions of the body (first key block of a row of blocks: the running minimum is reset; last key block:
  the running minimum is written out) in closed form over the 16 × 16 grid; where the output window is idle; the
  staging and scratch memrefs; and the class invariant split into the carried scratch, the core's other scoped
  buffers, and the generator register.
-/
import proofs.«121401_j2044404433131_1_alg».proof.Proof.Gen.KernelIdeal.Launch
import proofs.«121401_j2044404433131_1_alg».proof.Proof.Gen.KernelIdeal.Skeleton
import proofs.«121401_j2044404433131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose block
    index does not move between two points keeps its buffer): for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions -/

/-- "This is the first key block of its row of blocks" (grid coordinate 1 is 0): the body resets the running minimum. -/
abbrev cond0_0 (i : grid0.Coords) : Prop := (Scalar.cmpi .ne (Scalar.extui (Scalar.cmpi .eq (BitVec.ofNat 32 (i 1).val) 0#32)) 0#32) = 1#1
/-- It holds exactly at the points ≡ 0 (mod 16): decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last key block" (grid coordinate 1 is 15): the body writes the running minimum out. -/
abbrev cond0_1 (i : grid0.Coords) : Prop := k0_cond2 i = 1#1
/-- It holds exactly at the points ≡ 15 (mod 16): decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last key block the body stores nothing into the output window: it is idle there, -/
theorem idleAt0_4 : ∀ t : Fin cfg0.N, ¬cond0_1 (grid0.coords t) → cfg0.idle 4 (grid0.coords t) = true := by decide +kernel
/-- and its block is not written back there. -/
theorem noFlush0_4 : ∀ t : Fin cfg0.N, ¬cond0_1 (grid0.coords t) → (cfg0.win 4).flush t = false := by decide +kernel
/-- At the last key block it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S4x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x3x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x512x1 .f32 := win0_4.stage (cfg0.slots t 4)
abbrev hs0_4 (t : Fin cfg0.N) : (ms0_4 t).IsWhole := hstage0_4 ((cfg0.slots t 4).cast nbuf0_4)
/-- The scratch that carries the running minimum from one key block to the next. -/
abbrev scM0 : Memref sig .tc .vmem S4x512x1 .f32 := Memref.whole cc0_scratch0
/-- The scratch and one staging buffer of the output window as views, through which their contents are stated. -/
abbrev VS0 : View sig .tc .vmem S4x512x1 .f32 := scM0.view
abbrev VO0 : View sig .tc .vmem S4x512x1 .f32 := (Memref.whole cc0_stg4_0 : Memref sig .tc .vmem S4x512x1 .f32).view

/-! ## The class invariant, split -/

/-- The scoped buffers of the core that are no staging buffer of this call, split at the call's own scratch: the
    scratch whole at some contents, the remainder unopened. -/
theorem scopedRest0_own (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The scoped buffers this call neither stages through nor carries (the other call's staging buffers and scratch), each
    at some contents. They ride through this region untouched. -/
def otherScoped0 (c : Dev nD) : sProp 𝕄 :=
  Pipeline.scopedRestBut (Ix := Unit) (Name := ℕ) (U := UR sig nD τ) (Lvl := ℕ) (Val := Elt F) spec0 c [cc0_scratch0]

/-- The class invariant (every scoped buffer that is no staging buffer of this call at some contents, and the generator
    register at some state) with the carried scratch split off as an owned memref. -/
theorem PhiA0_eq (c : Dev nD) :
    (Pipeline.ΦA spec0 c : sProp 𝕄)
      = iprop(iprop((∃ d, owns (c : Thread nD τ) scM0 fullShare d) ∗ otherScoped0 c) ∗ (∃ r, prngReg c r)) := by
  unfold Pipeline.ΦA otherScoped0; rw [scopedRest0_own]; simp only [scM0, owns_whole]; try rfl

end Cert.KernelIdeal.Hand

end
-- ==== Proof.KernelIdeal.R0RunA.lean ====
/-
  Region 0's body at a point that is the FIRST key block of its row of blocks and not the last: the running minimum is reset to +∞ and then folded with this block's row minima; nothing is stored into the output window. The body run on whole memrefs holding the four input blocks, with the pieces it leaves in the scratch as the witness.
-/
import proofs.«121401_j2044404433131_1_alg».proof.Proof.KernelIdeal.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (last first) in this case, WITH the proof that on whole memrefs —
    the four inputs' at their blocks, the output's at contents handed back untouched, the scratch at anything — the body
    runs to the continuation holding the inputs and the output as they were and the scratch with those pieces written. -/
noncomputable def kernelRun0_A (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond0_0 i) (hc1 : ¬cond0_1 i)
    (x0 : Vec F S4x512x3 .f32) (x1 : Vec F S4x512x1 .f32) (x2 : Vec F S4x3x512 .f32) (x3 : Vec F S4x1x512 .f32) :
    Σ' (L4 : List (View.Piece (Elt F) S4x512x1 .f32)), { LS0 : List (View.Piece (Elt F) S4x512x1 .f32) //
      ∀ (xi4 : Vec F S4x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__chamfer_min_kernel i arg2 harg2 arg3 harg3 arg4 harg4 arg5 harg5 arg6 harg6 arg7 harg7) K } := by
  refine ⟨[], ?_, fun xi4 E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KernelIdeal.R0RunB.lean ====
/-
  Region 0's body at a point that is neither the first nor the last key block of its row of blocks: the running minimum the point before left is folded with this block's row minima; nothing is stored into the output window.
-/
import proofs.«121401_j2044404433131_1_alg».proof.Proof.KernelIdeal.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch in this case, WITH the proof that on whole memrefs — the inputs' at
    their blocks, the output's at contents handed back untouched, the scratch at what the point before left (`xs0`) — the
    body runs to the continuation holding the inputs and the output as they were and the scratch with those pieces written. -/
noncomputable def kernelRun0_B (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : ¬cond0_1 i)
    (x0 : Vec F S4x512x3 .f32) (x1 : Vec F S4x512x1 .f32) (x2 : Vec F S4x3x512 .f32) (x3 : Vec F S4x1x512 .f32) (xs0 : Vec F S4x512x1 .f32) :
    Σ' (L4 : List (View.Piece (Elt F) S4x512x1 .f32)), { LS0 : List (View.Piece (Elt F) S4x512x1 .f32) //
      ∀ (xi4 : Vec F S4x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__chamfer_min_kernel i arg2 harg2 arg3 harg3 arg4 harg4 arg5 harg5 arg6 harg6 arg7 harg7) K } := by
  refine ⟨[], ?_, fun xi4 E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KernelIdeal.R0RunC.lean ====
/-
  Region 0's body at a point that is the LAST key block of its row of blocks: the running minimum the point before left is folded with this block's row minima and the result is stored into the output window.
-/
import proofs.«121401_j2044404433131_1_alg».proof.Proof.KernelIdeal.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer and in the scratch in this case, WITH the proof that
    on whole memrefs — the inputs' at their blocks, the output's at anything, the scratch at what the point before left
    (`xs0`) — the body runs to the continuation holding the inputs as they were and the output's buffer and the scratch
    with those pieces written. -/
noncomputable def kernelRun0_C (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : cond0_1 i)
    (x0 : Vec F S4x512x3 .f32) (x1 : Vec F S4x512x1 .f32) (x2 : Vec F S4x3x512 .f32) (x3 : Vec F S4x1x512 .f32) (xs0 : Vec F S4x512x1 .f32) :
    Σ' (L4 : List (View.Piece (Elt F) S4x512x1 .f32)), { LS0 : List (View.Piece (Elt F) S4x512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__chamfer_min_kernel i arg2 harg2 arg3 harg3 arg4 harg4 arg5 harg5 arg6 harg6 arg7 harg7) K } := by
  refine ⟨?_, ?_, fun E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KernelIdeal.R0Dat.lean ====
/-
  Region 0: what its body leaves, case by case and point by point, and the proof data of the pipeline.

  The scratch carries the running minimum of a row of blocks across the 16 key blocks of that row: at a point it holds
  what the case of that point leaves, computed from the point's four input blocks and (except at the first key block,
  where it is reset) from what the point before left. The output window's buffer is stored only at the last key block,
  with the scratch's contents there. The region invariant is the class's before the first point; afterwards it holds the
  scratch at what the point before left, beside the other call's scoped buffers and the generator register.
-/
import proofs.«121401_j2044404433131_1_alg».proof.Proof.KernelIdeal.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's pieces cover the buffer they are written to -/

theorem scover0_A (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond0_0 i) (hc1 : ¬cond0_1 i)
    (x0 : Vec F S4x512x3 .f32) (x1 : Vec F S4x512x1 .f32) (x2 : Vec F S4x3x512 .f32) (x3 : Vec F S4x1x512 .f32) (y : S4x512x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S4x512x1.size (by sl_kernel_rfl) y

theorem scover0_B (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : ¬cond0_1 i)
    (x0 : Vec F S4x512x3 .f32) (x1 : Vec F S4x512x1 .f32) (x2 : Vec F S4x3x512 .f32) (x3 : Vec F S4x1x512 .f32) (xs0 : Vec F S4x512x1 .f32) (y : S4x512x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S4x512x1.size (by sl_kernel_rfl) y

theorem scover0_C (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : cond0_1 i)
    (x0 : Vec F S4x512x3 .f32) (x1 : Vec F S4x512x1 .f32) (x2 : Vec F S4x3x512 .f32) (x3 : Vec F S4x1x512 .f32) (xs0 : Vec F S4x512x1 .f32) (y : S4x512x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S4x512x1.size (by sl_kernel_rfl) y

theorem cover0_C (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : cond0_1 i)
    (x0 : Vec F S4x512x3 .f32) (x1 : Vec F S4x512x1 .f32) (x2 : Vec F S4x3x512 .f32) (x3 : Vec F S4x1x512 .f32) (xs0 : Vec F S4x512x1 .f32) (y : S4x512x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S4x512x1.size (by sl_kernel_rfl) y

/-! ## What each case leaves: its pieces read back -/

/-- The scratch after a first key block. -/
def sout0_A (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond0_0 i) (hc1 : ¬cond0_1 i)
    (x0 : Vec F S4x512x3 .f32) (x1 : Vec F S4x512x1 .f32) (x2 : Vec F S4x3x512 .f32) (x3 : Vec F S4x1x512 .f32) : Vec F S4x512x1 .f32 :=
  VS0.read (Elt F) (VS0.writes (Elt F) VS0.junk (kernelRun0_A c i arg2 harg2 arg3 harg3 arg4 harg4 arg5 harg5 arg6 harg6 arg7 harg7 hc0 hc1 x0 x1 x2 x3).2.1)

/-- The scratch after a middle key block, over what the point before left (`xs0`). -/
def sout0_B (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : ¬cond0_1 i)
    (x0 : Vec F S4x512x3 .f32) (x1 : Vec F S4x512x1 .f32) (x2 : Vec F S4x3x512 .f32) (x3 : Vec F S4x1x512 .f32) (xs0 : Vec F S4x512x1 .f32) : Vec F S4x512x1 .f32 :=
  VS0.read (Elt F) (VS0.writes (Elt F) VS0.junk (kernelRun0_B c i arg2 harg2 arg3 harg3 arg4 harg4 arg5 harg5 arg6 harg6 arg7 harg7 hc0 hc1 x0 x1 x2 x3 xs0).2.1)

/-- The scratch after a last key block, over what the point before left. -/
def sout0_C (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : cond0_1 i)
    (x0 : Vec F S4x512x3 .f32) (x1 : Vec F S4x512x1 .f32) (x2 : Vec F S4x3x512 .f32) (x3 : Vec F S4x1x512 .f32) (xs0 : Vec F S4x512x1 .f32) : Vec F S4x512x1 .f32 :=
  VS0.read (Elt F) (VS0.writes (Elt F) VS0.junk (kernelRun0_C c i arg2 harg2 arg3 harg3 arg4 harg4 arg5 harg5 arg6 harg6 arg7 harg7 hc0 hc1 x0 x1 x2 x3 xs0).2.1)

/-- The output window's buffer after a last key block. -/
def out0_C (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : cond0_1 i)
    (x0 : Vec F S4x512x3 .f32) (x1 : Vec F S4x512x1 .f32) (x2 : Vec F S4x3x512 .f32) (x3 : Vec F S4x1x512 .f32) (xs0 : Vec F S4x512x1 .f32) : Vec F S4x512x1 .f32 :=
  VO0.read (Elt F) (VO0.writes (Elt F) VO0.junk (kernelRun0_C c i arg2 harg2 arg3 harg3 arg4 harg4 arg5 harg5 arg6 harg6 arg7 harg7 hc0 hc1 x0 x1 x2 x3 xs0).1)

/-- Where the output window is idle its buffer's contents are consulted by nothing: a placeholder. -/
def idleOut0 : Vec F S4x512x1 .f32 := VO0.read (Elt F) VO0.junk

section
variable (V : (c : Dev nD) → (b : Ref sig .tc) → Buf (Elt F) ((c : Thread nD τ).loc b))

/-! ## The accumulation over the grid -/

/-- What the output window's buffer and the scratch hold after the body at position `n` (a pair: output, scratch): the
    case the closed forms select at `n`, run at the point's memrefs and input blocks, over what position `n - 1` left in
    the scratch. First and last key block at once is no case of a 16-block row. -/
def outsAt0 (c : Dev nD) : (n : ℕ) → n < cfg0.N → Vec F S4x512x1 .f32 × Vec F S4x512x1 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 16 = 0 then
      if h1 : (n + 1) % 16 = 15 then
        False.elim (by omega)
      else
        (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- At a first key block. -/
theorem outsAt0_A (c : Dev nD) (t : Fin cfg0.N) (h0 : t.val % 16 = 0) (h1 : ¬t.val % 16 = 15) :
    outsAt0 V c t.val t.isLt = (idleOut0, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- At a middle key block: over what the point before left. -/
theorem outsAt0_B (c : Dev nD) (t : Fin cfg0.N) (h0 : ¬t.val % 16 = 0) (h1 : ¬t.val % 16 = 15) :
    outsAt0 V c t.val t.isLt = (idleOut0, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last key block: over what the point before left. -/
theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: the class's before the first point; afterwards the scratch at what position `n - 1` left, the other
    call's scoped buffers, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ otherScoped0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ otherScoped0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ otherScoped0 c) ∗ (∃ r, prngReg c r)) := by
  cases n with
  | zero => exact absurd rfl hz
  | succ n => rfl

/-! ## The pipeline's proof data -/

/-- The arrays as the region finds them; after the body at a point each input's buffer at its block, the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end

end Cert.KernelIdeal.Hand

end
-- ==== Proof.KernelIdeal.R0Body.lean ====
/-
  Region 0: the body obligation of its pipeline, at a generic grid point, and the two entailments that let the class
  invariant in and out of the one that carries the scratch.

  At a point the inputs' staging buffers hold their blocks; the closed forms say which case the point is in; the
  invariant hands the body the scratch at what the point before left (at anything at the very first point) and takes it
  back at this point's contents; where the output window is idle its buffer is handed back as found.
-/
import proofs.«121401_j2044404433131_1_alg».proof.Proof.KernelIdeal.R0Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point, by cases on where the point stands in its row of key blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  by_cases h0 : t.val % 16 = 0
  · by_cases h1 : t.val % 16 = 15
    · exfalso; omega
    · -- a first key block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 16 = 15
    · -- a last key block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · -- a middle key block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 256 := N_0; omega)

end

end Cert.KernelIdeal.Hand

end
-- ==== Proof.KernelIdeal.R1Base.lean ====
/-
  Region 1 (the second tiled call: queries from the second cloud, keys from the first), the ground its body proofs
  stand on, at any float instance: each window's block at a grid point read off the array the region is entered with;
  the two conditions of the body (first key block of a row of blocks: the running minimum is reset; last key block:
  the running minimum is written out) in closed form over the 16 × 16 grid; where the output window is idle; the
  staging and scratch memrefs; and the class invariant split into the carried scratch, the core's other scoped
  buffers, and the generator register.
-/
import proofs.«121401_j2044404433131_1_alg».proof.Proof.Gen.KernelIdeal.Launch
import proofs.«121401_j2044404433131_1_alg».proof.Proof.Gen.KernelIdeal.Skeleton
import proofs.«121401_j2044404433131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose block
    index does not move between two points keeps its buffer): for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions -/

/-- "This is the first key block of its row of blocks" (grid coordinate 1 is 0): the body resets the running minimum. -/
abbrev cond1_0 (i : grid1.Coords) : Prop := (Scalar.cmpi .ne (Scalar.extui (Scalar.cmpi .eq (BitVec.ofNat 32 (i 1).val) 0#32)) 0#32) = 1#1
/-- It holds exactly at the points ≡ 0 (mod 16): decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key block" (grid coordinate 1 is 15): the body writes the running minimum out. -/
abbrev cond1_1 (i : grid1.Coords) : Prop := k1_cond2 i = 1#1
/-- It holds exactly at the points ≡ 15 (mod 16): decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key block the body stores nothing into the output window: it is idle there, -/
theorem idleAt1_4 : ∀ t : Fin cfg1.N, ¬cond1_1 (grid1.coords t) → cfg1.idle 4 (grid1.coords t) = true := by decide +kernel
/-- and its block is not written back there. -/
theorem noFlush1_4 : ∀ t : Fin cfg1.N, ¬cond1_1 (grid1.coords t) → (cfg1.win 4).flush t = false := by decide +kernel
/-- At the last key block it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S4x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x3x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x512x1 .f32 := win1_4.stage (cfg1.slots t 4)
abbrev hs1_4 (t : Fin cfg1.N) : (ms1_4 t).IsWhole := hstage1_4 ((cfg1.slots t 4).cast nbuf1_4)
/-- The scratch that carries the running minimum from one key block to the next. -/
abbrev scM1 : Memref sig .tc .vmem S4x512x1 .f32 := Memref.whole cc1_scratch0
/-- The scratch and one staging buffer of the output window as views, through which their contents are stated. -/
abbrev VS1 : View sig .tc .vmem S4x512x1 .f32 := scM1.view
abbrev VO1 : View sig .tc .vmem S4x512x1 .f32 := (Memref.whole cc1_stg4_0 : Memref sig .tc .vmem S4x512x1 .f32).view

/-! ## The class invariant, split -/

/-- The scoped buffers of the core that are no staging buffer of this call, split at the call's own scratch: the
    scratch whole at some contents, the remainder unopened. -/
theorem scopedRest1_own (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The scoped buffers this call neither stages through nor carries (the other call's staging buffers and scratch), each
    at some contents. They ride through this region untouched. -/
def otherScoped1 (c : Dev nD) : sProp 𝕄 :=
  Pipeline.scopedRestBut (Ix := Unit) (Name := ℕ) (U := UR sig nD τ) (Lvl := ℕ) (Val := Elt F) spec1 c [cc1_scratch0]

/-- The class invariant (every scoped buffer that is no staging buffer of this call at some contents, and the generator
    register at some state) with the carried scratch split off as an owned memref. -/
theorem PhiA1_eq (c : Dev nD) :
    (Pipeline.ΦA spec1 c : sProp 𝕄)
      = iprop(iprop((∃ d, owns (c : Thread nD τ) scM1 fullShare d) ∗ otherScoped1 c) ∗ (∃ r, prngReg c r)) := by
  unfold Pipeline.ΦA otherScoped1; rw [scopedRest1_own]; simp only [scM1, owns_whole]; try rfl

end Cert.KernelIdeal.Hand

end
-- ==== Proof.KernelIdeal.R1RunA.lean ====
/-
  Region 1's body at a point that is the FIRST key block of its row of blocks and not the last: the running minimum is reset to +∞ and then folded with this block's row minima; nothing is stored into the output window. The body run on whole memrefs holding the four input blocks, with the pieces it leaves in the scratch as the witness.
-/
import proofs.«121401_j2044404433131_1_alg».proof.Proof.KernelIdeal.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (last first) in this case, WITH the proof that on whole memrefs —
    the four inputs' at their blocks, the output's at contents handed back untouched, the scratch at anything — the body
    runs to the continuation holding the inputs and the output as they were and the scratch with those pieces written. -/
noncomputable def kernelRun1_A (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond1_0 i) (hc1 : ¬cond1_1 i)
    (x0 : Vec F S4x512x3 .f32) (x1 : Vec F S4x512x1 .f32) (x2 : Vec F S4x3x512 .f32) (x3 : Vec F S4x1x512 .f32) :
    Σ' (L4 : List (View.Piece (Elt F) S4x512x1 .f32)), { LS0 : List (View.Piece (Elt F) S4x512x1 .f32) //
      ∀ (xi4 : Vec F S4x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__chamfer_min_kernel i arg2 harg2 arg3 harg3 arg4 harg4 arg5 harg5 arg6 harg6 arg7 harg7) K } := by
  refine ⟨[], ?_, fun xi4 E K => ?run⟩
  case run =>
    simp only [cc1__chamfer_min_kernel_eq_skeleton]; unfold cc1__chamfer_min_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KernelIdeal.R1RunB.lean ====
/-
  Region 1's body at a point that is neither the first nor the last key block of its row of blocks: the running minimum the point before left is folded with this block's row minima; nothing is stored into the output window.
-/
import proofs.«121401_j2044404433131_1_alg».proof.Proof.KernelIdeal.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch in this case, WITH the proof that on whole memrefs — the inputs' at
    their blocks, the output's at contents handed back untouched, the scratch at what the point before left (`xs0`) — the
    body runs to the continuation holding the inputs and the output as they were and the scratch with those pieces written. -/
noncomputable def kernelRun1_B (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : ¬cond1_1 i)
    (x0 : Vec F S4x512x3 .f32) (x1 : Vec F S4x512x1 .f32) (x2 : Vec F S4x3x512 .f32) (x3 : Vec F S4x1x512 .f32) (xs0 : Vec F S4x512x1 .f32) :
    Σ' (L4 : List (View.Piece (Elt F) S4x512x1 .f32)), { LS0 : List (View.Piece (Elt F) S4x512x1 .f32) //
      ∀ (xi4 : Vec F S4x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__chamfer_min_kernel i arg2 harg2 arg3 harg3 arg4 harg4 arg5 harg5 arg6 harg6 arg7 harg7) K } := by
  refine ⟨[], ?_, fun xi4 E K => ?run⟩
  case run =>
    simp only [cc1__chamfer_min_kernel_eq_skeleton]; unfold cc1__chamfer_min_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KernelIdeal.R1RunC.lean ====
/-
  Region 1's body at a point that is the LAST key block of its row of blocks: the running minimum the point before left is folded with this block's row minima and the result is stored into the output window.
-/
import proofs.«121401_j2044404433131_1_alg».proof.Proof.KernelIdeal.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer and in the scratch in this case, WITH the proof that
    on whole memrefs — the inputs' at their blocks, the output's at anything, the scratch at what the point before left
    (`xs0`) — the body runs to the continuation holding the inputs as they were and the output's buffer and the scratch
    with those pieces written. -/
noncomputable def kernelRun1_C (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : cond1_1 i)
    (x0 : Vec F S4x512x3 .f32) (x1 : Vec F S4x512x1 .f32) (x2 : Vec F S4x3x512 .f32) (x3 : Vec F S4x1x512 .f32) (xs0 : Vec F S4x512x1 .f32) :
    Σ' (L4 : List (View.Piece (Elt F) S4x512x1 .f32)), { LS0 : List (View.Piece (Elt F) S4x512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__chamfer_min_kernel i arg2 harg2 arg3 harg3 arg4 harg4 arg5 harg5 arg6 harg6 arg7 harg7) K } := by
  refine ⟨?_, ?_, fun E K => ?run⟩
  case run =>
    simp only [cc1__chamfer_min_kernel_eq_skeleton]; unfold cc1__chamfer_min_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KernelIdeal.R1Dat.lean ====
/-
  Region 1: what its body leaves, case by case and point by point, and the proof data of the pipeline.

  The scratch carries the running minimum of a row of blocks across the 16 key blocks of that row: at a point it holds
  what the case of that point leaves, computed from the point's four input blocks and (except at the first key block,
  where it is reset) from what the point before left. The output window's buffer is stored only at the last key block,
  with the scratch's contents there. The region invariant is the class's before the first point; afterwards it holds the
  scratch at what the point before left, beside the other call's scoped buffers and the generator register.
-/
import proofs.«121401_j2044404433131_1_alg».proof.Proof.KernelIdeal.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's pieces cover the buffer they are written to -/

theorem scover1_A (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond1_0 i) (hc1 : ¬cond1_1 i)
    (x0 : Vec F S4x512x3 .f32) (x1 : Vec F S4x512x1 .f32) (x2 : Vec F S4x3x512 .f32) (x3 : Vec F S4x1x512 .f32) (y : S4x512x1.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S4x512x1.size (by sl_kernel_rfl) y

theorem scover1_B (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : ¬cond1_1 i)
    (x0 : Vec F S4x512x3 .f32) (x1 : Vec F S4x512x1 .f32) (x2 : Vec F S4x3x512 .f32) (x3 : Vec F S4x1x512 .f32) (xs0 : Vec F S4x512x1 .f32) (y : S4x512x1.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S4x512x1.size (by sl_kernel_rfl) y

theorem scover1_C (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : cond1_1 i)
    (x0 : Vec F S4x512x3 .f32) (x1 : Vec F S4x512x1 .f32) (x2 : Vec F S4x3x512 .f32) (x3 : Vec F S4x1x512 .f32) (xs0 : Vec F S4x512x1 .f32) (y : S4x512x1.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S4x512x1.size (by sl_kernel_rfl) y

theorem cover1_C (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : cond1_1 i)
    (x0 : Vec F S4x512x3 .f32) (x1 : Vec F S4x512x1 .f32) (x2 : Vec F S4x3x512 .f32) (x3 : Vec F S4x1x512 .f32) (xs0 : Vec F S4x512x1 .f32) (y : S4x512x1.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S4x512x1.size (by sl_kernel_rfl) y

/-! ## What each case leaves: its pieces read back -/

/-- The scratch after a first key block. -/
def sout1_A (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond1_0 i) (hc1 : ¬cond1_1 i)
    (x0 : Vec F S4x512x3 .f32) (x1 : Vec F S4x512x1 .f32) (x2 : Vec F S4x3x512 .f32) (x3 : Vec F S4x1x512 .f32) : Vec F S4x512x1 .f32 :=
  VS1.read (Elt F) (VS1.writes (Elt F) VS1.junk (kernelRun1_A c i arg2 harg2 arg3 harg3 arg4 harg4 arg5 harg5 arg6 harg6 arg7 harg7 hc0 hc1 x0 x1 x2 x3).2.1)

/-- The scratch after a middle key block, over what the point before left (`xs0`). -/
def sout1_B (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : ¬cond1_1 i)
    (x0 : Vec F S4x512x3 .f32) (x1 : Vec F S4x512x1 .f32) (x2 : Vec F S4x3x512 .f32) (x3 : Vec F S4x1x512 .f32) (xs0 : Vec F S4x512x1 .f32) : Vec F S4x512x1 .f32 :=
  VS1.read (Elt F) (VS1.writes (Elt F) VS1.junk (kernelRun1_B c i arg2 harg2 arg3 harg3 arg4 harg4 arg5 harg5 arg6 harg6 arg7 harg7 hc0 hc1 x0 x1 x2 x3 xs0).2.1)

/-- The scratch after a last key block, over what the point before left. -/
def sout1_C (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : cond1_1 i)
    (x0 : Vec F S4x512x3 .f32) (x1 : Vec F S4x512x1 .f32) (x2 : Vec F S4x3x512 .f32) (x3 : Vec F S4x1x512 .f32) (xs0 : Vec F S4x512x1 .f32) : Vec F S4x512x1 .f32 :=
  VS1.read (Elt F) (VS1.writes (Elt F) VS1.junk (kernelRun1_C c i arg2 harg2 arg3 harg3 arg4 harg4 arg5 harg5 arg6 harg6 arg7 harg7 hc0 hc1 x0 x1 x2 x3 xs0).2.1)

/-- The output window's buffer after a last key block. -/
def out1_C (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : cond1_1 i)
    (x0 : Vec F S4x512x3 .f32) (x1 : Vec F S4x512x1 .f32) (x2 : Vec F S4x3x512 .f32) (x3 : Vec F S4x1x512 .f32) (xs0 : Vec F S4x512x1 .f32) : Vec F S4x512x1 .f32 :=
  VO1.read (Elt F) (VO1.writes (Elt F) VO1.junk (kernelRun1_C c i arg2 harg2 arg3 harg3 arg4 harg4 arg5 harg5 arg6 harg6 arg7 harg7 hc0 hc1 x0 x1 x2 x3 xs0).1)

/-- Where the output window is idle its buffer's contents are consulted by nothing: a placeholder. -/
def idleOut1 : Vec F S4x512x1 .f32 := VO1.read (Elt F) VO1.junk

section
variable (V : (c : Dev nD) → (b : Ref sig .tc) → Buf (Elt F) ((c : Thread nD τ).loc b))

/-! ## The accumulation over the grid -/

/-- What the output window's buffer and the scratch hold after the body at position `n` (a pair: output, scratch): the
    case the closed forms select at `n`, run at the point's memrefs and input blocks, over what position `n - 1` left in
    the scratch. First and last key block at once is no case of a 16-block row. -/
def outsAt1 (c : Dev nD) : (n : ℕ) → n < cfg1.N → Vec F S4x512x1 .f32 × Vec F S4x512x1 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      if h1 : (n + 1) % 16 = 15 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 16 = 15 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- At a first key block. -/
theorem outsAt1_A (c : Dev nD) (t : Fin cfg1.N) (h0 : t.val % 16 = 0) (h1 : ¬t.val % 16 = 15) :
    outsAt1 V c t.val t.isLt = (idleOut1, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- At a middle key block: over what the point before left. -/
theorem outsAt1_B (c : Dev nD) (t : Fin cfg1.N) (h0 : ¬t.val % 16 = 0) (h1 : ¬t.val % 16 = 15) :
    outsAt1 V c t.val t.isLt = (idleOut1, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last key block: over what the point before left. -/
theorem outsAt1_C (c : Dev nD) (t : Fin cfg1.N) (h0 : ¬t.val % 16 = 0) (h1 : t.val % 16 = 15) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: the class's before the first point; afterwards the scratch at what position `n - 1` left, the other
    call's scoped buffers, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ otherScoped1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ otherScoped1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ otherScoped1 c) ∗ (∃ r, prngReg c r)) := by
  cases n with
  | zero => exact absurd rfl hz
  | succ n => rfl

/-! ## The pipeline's proof data -/

/-- The arrays as the region finds them; after the body at a point each input's buffer at its block, the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end

end Cert.KernelIdeal.Hand

end
-- ==== Proof.KernelIdeal.R1Body.lean ====
/-
  Region 1: the body obligation of its pipeline, at a generic grid point, and the two entailments that let the class
  invariant in and out of the one that carries the scratch.

  At a point the inputs' staging buffers hold their blocks; the closed forms say which case the point is in; the
  invariant hands the body the scratch at what the point before left (at anything at the very first point) and takes it
  back at this point's contents; where the output window is idle its buffer is handed back as found.
-/
import proofs.«121401_j2044404433131_1_alg».proof.Proof.KernelIdeal.R1Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point, by cases on where the point stands in its row of key blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · by_cases h1 : t.val % 16 = 15
    · exfalso; omega
    · -- a first key block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 16 = 15
    · -- a last key block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · -- a middle key block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end

end Cert.KernelIdeal.Hand

end
-- ==== Proof.KernelIdeal.Run.lean ====
/-
  The whole program as a run: three stretches of host operations around the two tiled calls, at any float instance.

  The unscoped buffers' contents at each boundary are a fold from the launch memory: a host stretch applies its
  operations; a tiled call leaves its arrays at what its write-backs fold to and everything else as it found it. Each
  call is entered from every unscoped buffer at the boundary's contents and left at the next boundary's, its arrays split
  out and put back, the generator register into the call's invariant and out, nothing owed. Every weakly fair execution
  then terminates with every unscoped buffer at the last boundary's contents: in particular the result buffer, and both
  argument arrays as launched (no host operation writes an argument; a call reads it through an input window or not at
  all).
-/
import proofs.«121401_j2044404433131_1_alg».proof.Proof.KernelIdeal.R0Body
import proofs.«121401_j2044404433131_1_alg».proof.Proof.KernelIdeal.R1Body
import proofs.«121401_j2044404433131_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: what the program returns with. -/
abbrev W5 : Dev nD → Valuation τ sig (Elt F) := fun c => StableHlo.after hostOps2 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-! ## The proof data family and the thread state -/

/-- No call has a prefetched table. -/
abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- The first call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout0 (V1 m ρ) c
    unfold Pipeline.ΦA at h
    rw [Pipeline.ownSems0_none, show (pdats m ρ 0 c).Φ (Fin.last _) = (dat0 (V1 m ρ) c).Φ (Fin.last cfg0.N) from rfl]
    iintro HPhi
    ihave H := h $$ HPhi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    rw [show (pdats m ρ 1 c).Φ 0 = (dat1 (V3 m ρ) c).Φ 0 from rfl]
    iintro ⟨Hp, -, Hr⟩
    iapply h
    isplitl [Hr]; · iexact Hr
    iexact Hp
  hout c := by
    have h := hout1 (V3 m ρ) c
    unfold Pipeline.ΦA at h
    rw [Pipeline.ownSems0_none, show (pdats m ρ 1 c).Φ (Fin.last _) = (dat1 (V3 m ρ) c).Φ (Fin.last cfg1.N) from rfl]
    iintro HPhi
    ihave H := h $$ HPhi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state has the result buffer at the last boundary's contents and both argument arrays as launched. -/
theorem run_all : θ_run defs (onTc (τ := τ) (main (F := F))) ⟨m, fun _ => 0, ρ⟩ (fun r => ∀ c : Dev nD,
      r.2.mem ((c.tc : Thread nD τ).loc main_v22) = W5 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => show iprop(StableHlo.held (c : Thread nD τ) (Pipeline.ucRefs τ sig) (W5 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v22 (by decide)),
       (h c _ (mem_uc main_arg0 (by decide))).trans (W5_main_arg0 m ρ c),
       (h c _ (mem_uc main_arg1 (by decide))).trans (W5_main_arg1 m ρ c)⟩)

/-- The frame: every weakly fair execution terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_all m ρ)

end Cert.KernelIdeal.Hand

end
-- ==== Proof.Spec.lean ====
/-
  The mathematics both programs compute, stated once over the extended reals.

  Two clouds of 8192 points in 3-space per batch entry (4 entries). For a point `n` of the first cloud and a
  point `m` of the second the pairwise term is  (|x_n|² + |y_m|²) − 2·⟨x_n, y_m⟩,  each squared norm formed as
  the zero word plus the three squares. The one-sided distances are the running minimum of that term from the
  +∞ word over the other cloud: over `m` for every `n` (`nearFirst`), over `n` for every `m` (`nearSecond`).
  `rowMin` is the same minimum as a tiled kernel forms it from its four operands: the query points, their
  squared norms as a column, the key points transposed, and the keys' squared norms as a row.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The three float words the programs spell: 0, 2 and +∞ (kept as words: equal words are never evaluated). -/
abbrev zeroW : EReal := Ideal.ofBits .f32 0x00000000#32
abbrev twoW : EReal := Ideal.ofBits .f32 0x40000000#32
abbrev infW : EReal := Ideal.ofBits .f32 0x7F800000#32

/-- A cloud: 4 batch entries of 8192 points with 3 coordinates. -/
abbrev Cloud : Type := (⟨3, ![4, 8192, 3]⟩ : Shape).Idx → EReal

/-- |x_n|² of batch entry `b`, as a sum from the zero word. -/
def sq (x : Cloud) (b : Fin 4) (n : Fin 8192) : EReal :=
  zeroW + ∑ d : Fin 3, x (ix3 b n d) * x (ix3 b n d)

/-- ⟨x_n, y_m⟩ of batch entry `b`. -/
def dot (x y : Cloud) (b : Fin 4) (n m : Fin 8192) : EReal :=
  ∑ d : Fin 3, x (ix3 b n d) * y (ix3 b m d)

/-- The pairwise term (|x_n|² + |y_m|²) − 2·⟨x_n, y_m⟩. -/
def pair (x y : Cloud) (b : Fin 4) (n m : Fin 8192) : EReal :=
  (sq x b n + sq y b m) - twoW * dot x y b n m

/-- For each point of the first cloud, the least pairwise term over the second cloud (from +∞). -/
def nearFirst (x y : Cloud) : (⟨2, ![4, 8192]⟩ : Shape).Idx → EReal :=
  fun i => (Finset.univ : Finset (Fin 8192)).fold min infW fun m => pair x y ⟨(i 0).val, (i 0).isLt⟩ ⟨(i 1).val, (i 1).isLt⟩ m

/-- For each point of the second cloud, the least pairwise term over the first cloud (from +∞). -/
def nearSecond (x y : Cloud) : (⟨2, ![4, 8192]⟩ : Shape).Idx → EReal :=
  fun i => (Finset.univ : Finset (Fin 8192)).fold min infW fun n => pair x y ⟨(i 0).val, (i 0).isLt⟩ n ⟨(i 1).val, (i 1).isLt⟩

/-- The term a tile forms at (query row, key lane) from its operands' entries: the query's squared norm `qq`, the
    key's `kk`, and the three coordinate products summed left to right. -/
def tileTerm (qq kk q0 k0 q1 k1 q2 k2 : EReal) : EReal :=
  (qq + kk) - twoW * ((q0 * k0 + q1 * k1) + q2 * k2)

/-- The row minimum a tiled kernel leaves: for query `n` of batch entry `b`, the least `tileTerm` over all keys `m`
    (from +∞), read from the four operand arrays: queries [4,8192,3], their norms [4,8192,1], keys transposed
    [4,3,8192], their norms [4,1,8192]. The result is a column [4,8192,1]. -/
def rowMin (q : (⟨3, ![4, 8192, 3]⟩ : Shape).Idx → EReal) (qq : (⟨3, ![4, 8192, 1]⟩ : Shape).Idx → EReal)
    (kt : (⟨3, ![4, 3, 8192]⟩ : Shape).Idx → EReal) (kk : (⟨3, ![4, 1, 8192]⟩ : Shape).Idx → EReal) :
    (⟨3, ![4, 8192, 1]⟩ : Shape).Idx → EReal :=
  fun i =>
    let b : Fin 4 := ⟨(i 0).val, (i 0).isLt⟩
    let n : Fin 8192 := ⟨(i 1).val, (i 1).isLt⟩
    (Finset.univ : Finset (Fin 8192)).fold min infW fun m =>
      tileTerm (qq (ix3 b n 0)) (kk (ix3 b 0 m)) (q (ix3 b n 0)) (kt (ix3 b 0 m)) (q (ix3 b n 1)) (kt (ix3 b 1 m))
        (q (ix3 b n 2)) (kt (ix3 b 2 m))

end Cert.Chamfer

end
-- ==== Proof.StepMin0.lean ====
/-
  What one grid point of the tiled kernel computes, read entry by entry over the extended reals.

  A grid point holds a tile of 512 query rows and 512 key lanes per batch entry (4 entries). From the queries' three
  coordinate columns [4,512,1], the keys' three coordinate rows [4,1,512], the queries' squared norms (a column) and the
  keys' squared norms (a row) it forms, at (b, r, l), the term
      (|q_r|² + |k_l|²) − 2·((q_r0·k_l0 + q_r1·k_l1) + q_r2·k_l2),
  takes its minimum over the 512 lanes `l` starting from the +∞ word, and replaces the stored running minimum at (b, r)
  by the lesser of the two. Before the first tile the running minimum is the +∞ word in every entry.

  The minimum over one axis is a fold of `min` over that axis's coordinates, in any order, since `min` commutes and
  associates; a column broadcast along the lanes reads the column's entry of the same row, a row broadcast down the rows
  reads the row's entry of the same lane, and a [4,512] array recast as a column [4,512,1] keeps its entries.
-/
import proofs.«121401_j2044404433131_1_alg».proof.Proof.Gen.KernelIdeal.Skeleton
import proofs.«121401_j2044404433131_1_alg».proof.Proof.Spec
import Idealize.ShloMosaic.PureOps.Reduce
import Idealize.ShloMosaic.PureOps.Ideal.Laws
import Idealize.ShloMosaic.Lib.ValueIdx
import Idealize.ShloMosaic.Lib.Pipeline.Value
import Mathlib.Data.Finset.Fold

noncomputable section

namespace Cert.Chamfer.Step0

open Idealize.ShloMosaic Idealize.ShloMosaic.ValueIdx
open Cert.KernelIdeal Cert.KernelIdeal.Gen

/-- A minimum reduction over one axis, read at the ideal values: the fold of `min` from the accumulator's value over
    that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The index of the [4,512,512] tile over (b, r) of the [4,512] result with lane `l` inserted is (b, r, l). -/
theorem lift_ix2 (h : S4x512x512.Reduces [2] S4x512) (b : Fin 4) (r l : Fin 512) :
    h.lift (ix2 b r) l = ix3 b r l := by
  funext c
  match c with
  | ⟨0, _⟩ => exact Fin.ext rfl
  | ⟨1, _⟩ => exact Fin.ext rfl
  | ⟨2, _⟩ => exact Fin.ext rfl

/-- A column [4,512,1] broadcast along the lanes reads, at (b, r, l), the column at (b, r, 0). -/
theorem broadcastCol_apply {α : Type} (v : S4x512x1.Idx → α) (h : S4x512x1.Broadcasts S4x512x512) (b : Fin 4)
    (r l : Fin 512) : broadcastTo S4x512x512 v h (ix3 b r l) = v (ix3 b r 0) :=
  broadcastTo_apply v h _ _ (by
    intro a
    match a with
    | ⟨0, _⟩ => rfl
    | ⟨1, _⟩ => rfl
    | ⟨2, _⟩ => rfl)

/-- A row [4,1,512] broadcast down the rows reads, at (b, r, l), the row at (b, 0, l). -/
theorem broadcastRow_apply {α : Type} (v : S4x1x512.Idx → α) (h : S4x1x512.Broadcasts S4x512x512) (b : Fin 4)
    (r l : Fin 512) : broadcastTo S4x512x512 v h (ix3 b r l) = v (ix3 b 0 l) :=
  broadcastTo_apply v h _ _ (by
    intro a
    match a with
    | ⟨0, _⟩ => rfl
    | ⟨1, _⟩ => rfl
    | ⟨2, _⟩ => rfl)

/-- A [4,512] array cast to a column [4,512,1] reads, at (b, r, 0), the array at (b, r). -/
theorem castCol_apply {α : Type} (v : S4x512.Idx → α) (h : S4x512.ShapeCasts S4x512x1) (b : Fin 4) (r : Fin 512) :
    shapeCast S4x512x1 v h (ix3 b r 0) = v (ix2 b r) :=
  shapeCast_apply v h _ _ (by
    rw [Shape.rowMajor_val_three, Shape.rowMajor_val_two]
    show b.val * 512 + r.val = (b.val * 512 + r.val) * 1 + 0
    omega)

/-- The +∞ column: every entry is the +∞ word. -/
theorem pay2_apply (b : Fin 4) (r : Fin 512) :
    Cert.KernelIdeal.Gen.k0_pay2 (F := Ideal) (ix3 b r 0) = Cert.Chamfer.infW := by
  unfold k0_pay2
  rw [shapeCast_self]
  rfl

/-- The three coordinate products summed left to right, at (b, r, l). -/
theorem pay3_apply (v3 v9 v15 : Vec Ideal S4x512x1 .f32) (v4 v10 v16 : Vec Ideal S4x1x512 .f32) (b : Fin 4)
    (r l : Fin 512) :
    Cert.KernelIdeal.Gen.k0_pay3 v3 v4 v9 v10 v15 v16 (ix3 b r l)
      = (v3 (ix3 b r 0) * v4 (ix3 b 0 l) + v9 (ix3 b r 0) * v10 (ix3 b 0 l)) + v15 (ix3 b r 0) * v16 (ix3 b 0 l) := by
  unfold k0_pay3
  simp only [shapeCast_self, addf_apply, mulf_apply, broadcastCol_apply, broadcastRow_apply]

/-- The sum of the two squared norms, at (b, r, l). -/
theorem pay4_apply (v23 : Vec Ideal S4x512x1 .f32) (v25 : Vec Ideal S4x1x512 .f32) (b : Fin 4) (r l : Fin 512) :
    Cert.KernelIdeal.Gen.k0_pay4 v23 v25 (ix3 b r l) = v23 (ix3 b r 0) + v25 (ix3 b 0 l) := by
  unfold k0_pay4
  simp only [shapeCast_self, addf_apply, broadcastCol_apply, broadcastRow_apply]

/-- One grid point's update of the running minimum, at row (b, r): the stored minimum against the least tile term
    over the 512 lanes (from +∞). -/
theorem step_apply (v3 v9 v15 v23 s : Vec Ideal S4x512x1 .f32) (v4 v10 v16 v25 : Vec Ideal S4x1x512 .f32) (b : Fin 4)
    (r : Fin 512) :
    Cert.KernelIdeal.Gen.k0_pay1 (F := Ideal) (Cert.KernelIdeal.Gen.k0_pay3 v3 v4 v9 v10 v15 v16)
        (Cert.KernelIdeal.Gen.k0_pay4 v23 v25) (Scalar.ofBits .f32 0x40000000#32) s (ix3 b r 0)
      = min (s (ix3 b r 0)) ((Finset.univ : Finset (Fin 512)).fold min Cert.Chamfer.infW fun l =>
          Cert.Chamfer.tileTerm (v23 (ix3 b r 0)) (v25 (ix3 b 0 l)) (v3 (ix3 b r 0)) (v4 (ix3 b 0 l)) (v9 (ix3 b r 0))
            (v10 (ix3 b 0 l)) (v15 (ix3 b r 0)) (v16 (ix3 b 0 l))) := by
  unfold k0_pay1
  rw [shapeCast_self, minimumf_apply, castCol_apply]
  refine congrArg (min (s (ix3 b r 0))) ?_
  refine (multiReduction_minimumf_single _ _ reduces_S4x512x512_S4x512 _ _ (ix2 b r)).trans ?_
  refine congrArg (fun f => (Finset.univ : Finset (Fin 512)).fold min Cert.Chamfer.infW f) ?_
  refine funext fun (l : Fin 512) => ?_
  refine (congrArg (subf (F := Ideal) _ _) (lift_ix2 reduces_S4x512x512_S4x512 b r l)).trans ?_
  rw [subf_apply, mulf_apply, broadcast_apply, pay3_apply, pay4_apply]
  rfl

end Cert.Chamfer.Step0

end
-- ==== Proof.KernelIdeal.R0Pieces.lean ====
/-
  Region 0: what each case of the body leaves, read entry by entry.

  At a grid point the body holds four input blocks: 512 query points [4,512,3], their squared norms as a column
  [4,512,1], 512 key points transposed [4,3,512], and their squared norms as a row [4,1,512]. Whatever the case, the
  scratch ends holding, at row (b, r), the lesser of a held value and the least over the block's 512 keys `l` of
      (|q_r|² + |k_l|²) − 2·((q_r0·k_l0 + q_r1·k_l1) + q_r2·k_l2);
  the held value is the +∞ word at a first key block (the scratch is reset before the update) and what the point before
  left otherwise. At a last key block the output block is stored with the scratch's new contents, so it holds the same.

  First each case's contents are identified, at any float instance, with one term over the blocks' three coordinate
  columns and rows; then that term is read at (b, r, 0) over the extended reals.
-/
import proofs.«121401_j2044404433131_1_alg».proof.Proof.KernelIdeal.R0Dat
import proofs.«121401_j2044404433131_1_alg».proof.Proof.StepMin0
import proofs.«121401_j2044404433131_1_alg».proof.Proof.Spec
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

namespace R0Pieces

/-- The zero offsets of a rank-3 block, however spelt. -/
theorem hz3 : (![0, 0, 0] : Fin 3 → Nat) = fun _ => 0 := funext fun a => by fin_cases a <;> rfl

/-- The three coordinate columns of a query block [4,512,3]: column `d` as a [4,512,1] rectangle. -/
abbrev qcolA : Rect S4x512x3 := Rect.unit (s := S4x512x3) ![0, 0, 0] S4x512x1.size inb_S4x512x3_S4x512x1_0_0_0
abbrev qcolB : Rect S4x512x3 := Rect.unit (s := S4x512x3) ![0, 0, 1] S4x512x1.size inb_S4x512x3_S4x512x1_0_0_1
abbrev qcolC : Rect S4x512x3 := Rect.unit (s := S4x512x3) ![0, 0, 2] S4x512x1.size inb_S4x512x3_S4x512x1_0_0_2
/-- The three coordinate rows of a transposed key block [4,3,512]: row `d` as a [4,1,512] rectangle. -/
abbrev krowA : Rect S4x3x512 := Rect.unit (s := S4x3x512) ![0, 0, 0] S4x1x512.size inb_S4x3x512_S4x1x512_0_0_0
abbrev krowB : Rect S4x3x512 := Rect.unit (s := S4x3x512) ![0, 1, 0] S4x1x512.size inb_S4x3x512_S4x1x512_0_1_0
abbrev krowC : Rect S4x3x512 := Rect.unit (s := S4x3x512) ![0, 2, 0] S4x1x512.size inb_S4x3x512_S4x1x512_0_2_0

/-- What a grid point leaves in the running minimum held at `acc`, from its four input blocks: the payload over the
    blocks' columns and rows. -/
abbrev stepOf (x0 : Vec F S4x512x3 .f32) (x1 : Vec F S4x512x1 .f32) (x2 : Vec F S4x3x512 .f32) (x3 : Vec F S4x1x512 .f32)
    (acc : Vec F S4x512x1 .f32) : FVec F S4x512x1 .f32 :=
  k0_pay1 (k0_pay3 (View.ld x0 qcolA) (View.ld x2 krowA) (View.ld x0 qcolB) (View.ld x2 krowB) (View.ld x0 qcolC) (View.ld x2 krowC))
    (k0_pay4 x1 x3) (Scalar.ofBits .f32 0x40000000#32) acc

end R0Pieces

open R0Pieces

/-! ## Each case's contents are the payload over the loaded blocks -/

/-- After a first key block: the update of the +∞ column. -/
theorem sout0_A_eq (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond0_0 i) (hc1 : ¬cond0_1 i) (x0 : Vec F S4x512x3 .f32) (x1 : Vec F S4x512x1 .f32) (x2 : Vec F S4x3x512 .f32) (x3 : Vec F S4x1x512 .f32) :
    sout0_A c i arg2 harg2 arg3 harg3 arg4 harg4 arg5 harg5 arg6 harg6 arg7 harg7 hc0 hc1 x0 x1 x2 x3 = stepOf x0 x1 x2 x3 (k0_pay2 (F := F)) := by
  unfold sout0_A
  rw [View.read_writes_eq_canon _ _ _ (scover0_A c i arg2 harg2 arg3 harg3 arg4 harg4 arg5 harg5 arg6 harg6 arg7 harg7 hc0 hc1 x0 x1 x2 x3)]
  unfold kernelRun0_A
  dsimp only
  sl_unfold_words
  rw [View.canon_cons_unit_zero (S := S4x512x1) hz3, View.readCov_unit_zero (S := S4x512x1) _ hz3]
  simp only [View.readAt_eq_ld, harg2.read_unread, harg3.read_unread, harg4.read_unread, harg5.read_unread, harg7.read_unread, View.ld_unit_zero (S := S4x512x1) hz3, View.ld_unit_zero (S := S4x1x512) hz3]

/-- After a middle key block: the update of what the point before left. -/
theorem sout0_B_eq (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : ¬cond0_1 i) (x0 : Vec F S4x512x3 .f32) (x1 : Vec F S4x512x1 .f32) (x2 : Vec F S4x3x512 .f32) (x3 : Vec F S4x1x512 .f32) (xs0 : Vec F S4x512x1 .f32) :
    sout0_B c i arg2 harg2 arg3 harg3 arg4 harg4 arg5 harg5 arg6 harg6 arg7 harg7 hc0 hc1 x0 x1 x2 x3 xs0 = stepOf x0 x1 x2 x3 xs0 := by
  unfold sout0_B
  rw [View.read_writes_eq_canon _ _ _ (scover0_B c i arg2 harg2 arg3 harg3 arg4 harg4 arg5 harg5 arg6 harg6 arg7 harg7 hc0 hc1 x0 x1 x2 x3 xs0)]
  unfold kernelRun0_B
  dsimp only
  sl_unfold_words
  rw [View.canon_unit_zero hz3]
  simp only [View.readAt_eq_ld, harg2.read_unread, harg3.read_unread, harg4.read_unread, harg5.read_unread, harg7.read_unread, View.ld_unit_zero (S := S4x512x1) hz3, View.ld_unit_zero (S := S4x1x512) hz3]

/-- After a last key block the scratch holds the same update … -/
theorem sout0_C_eq (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : cond0_1 i) (x0 : Vec F S4x512x3 .f32) (x1 : Vec F S4x512x1 .f32) (x2 : Vec F S4x3x512 .f32) (x3 : Vec F S4x1x512 .f32) (xs0 : Vec F S4x512x1 .f32) :
    sout0_C c i arg2 harg2 arg3 harg3 arg4 harg4 arg5 harg5 arg6 harg6 arg7 harg7 hc0 hc1 x0 x1 x2 x3 xs0 = stepOf x0 x1 x2 x3 xs0 := by
  unfold sout0_C
  rw [View.read_writes_eq_canon _ _ _ (scover0_C c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readAt_eq_ld, harg2.read_unread, harg3.read_unread, harg4.read_unread, harg5.read_unread, harg7.read_unread, View.ld_unit_zero (S := S4x512x1) hz3, View.ld_unit_zero (S := S4x1x512) hz3]

/-- … and the output block is stored with the scratch's new contents. -/
theorem out0_C_eq (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : cond0_1 i) (x0 : Vec F S4x512x3 .f32) (x1 : Vec F S4x512x1 .f32) (x2 : Vec F S4x3x512 .f32) (x3 : Vec F S4x1x512 .f32) (xs0 : Vec F S4x512x1 .f32) :
    out0_C c i arg2 harg2 arg3 harg3 arg4 harg4 arg5 harg5 arg6 harg6 arg7 harg7 hc0 hc1 x0 x1 x2 x3 xs0 = stepOf x0 x1 x2 x3 xs0 := by
  unfold out0_C
  rw [View.read_writes_eq_canon _ _ _ (cover0_C c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S4x512x1) _ hz3]
  simp only [View.readAt_eq_ld, harg2.read_unread, harg3.read_unread, harg4.read_unread, harg5.read_unread, harg7.read_unread, View.ld_unit_zero (S := S4x512x1) hz3, View.ld_unit_zero (S := S4x1x512) hz3]

/-! ## Read at an index, over the extended reals -/

namespace R0Pieces

/-- Column `d` of a query block read at (b, r, 0) is the block at (b, r, d). -/
theorem ld_qcolA {α : Type} (x : S4x512x3.Idx → α) (b : Fin 4) (r : Fin 512) :
    x (qcolA.idx (ix3 b r 0)) = x (ix3 b r 0) := by
  refine congrArg x (funext fun a => Fin.ext ?_)
  match a with
  | ⟨0, _⟩ => show 0 + 1 * b.val = b.val; omega
  | ⟨1, _⟩ => show 0 + 1 * r.val = r.val; omega
  | ⟨2, _⟩ => rfl
theorem ld_qcolB {α : Type} (x : S4x512x3.Idx → α) (b : Fin 4) (r : Fin 512) :
    x (qcolB.idx (ix3 b r 0)) = x (ix3 b r 1) := by
  refine congrArg x (funext fun a => Fin.ext ?_)
  match a with
  | ⟨0, _⟩ => show 0 + 1 * b.val = b.val; omega
  | ⟨1, _⟩ => show 0 + 1 * r.val = r.val; omega
  | ⟨2, _⟩ => rfl
theorem ld_qcolC {α : Type} (x : S4x512x3.Idx → α) (b : Fin 4) (r : Fin 512) :
    x (qcolC.idx (ix3 b r 0)) = x (ix3 b r 2) := by
  refine congrArg x (funext fun a => Fin.ext ?_)
  match a with
  | ⟨0, _⟩ => show 0 + 1 * b.val = b.val; omega
  | ⟨1, _⟩ => show 0 + 1 * r.val = r.val; omega
  | ⟨2, _⟩ => rfl
/-- Row `d` of a transposed key block read at (b, 0, l) is the block at (b, d, l). -/
theorem ld_krowA {α : Type} (x : S4x3x512.Idx → α) (b : Fin 4) (l : Fin 512) :
    x (krowA.idx (ix3 b 0 l)) = x (ix3 b 0 l) := by
  refine congrArg x (funext fun a => Fin.ext ?_)
  match a with
  | ⟨0, _⟩ => show 0 + 1 * b.val = b.val; omega
  | ⟨1, _⟩ => rfl
  | ⟨2, _⟩ => show 0 + 1 * l.val = l.val; omega
theorem ld_krowB {α : Type} (x : S4x3x512.Idx → α) (b : Fin 4) (l : Fin 512) :
    x (krowB.idx (ix3 b 0 l)) = x (ix3 b 1 l) := by
  refine congrArg x (funext fun a => Fin.ext ?_)
  match a with
  | ⟨0, _⟩ => show 0 + 1 * b.val = b.val; omega
  | ⟨1, _⟩ => rfl
  | ⟨2, _⟩ => show 0 + 1 * l.val = l.val; omega
theorem ld_krowC {α : Type} (x : S4x3x512.Idx → α) (b : Fin 4) (l : Fin 512) :
    x (krowC.idx (ix3 b 0 l)) = x (ix3 b 2 l) := by
  refine congrArg x (funext fun a => Fin.ext ?_)
  match a with
  | ⟨0, _⟩ => show 0 + 1 * b.val = b.val; omega
  | ⟨1, _⟩ => rfl
  | ⟨2, _⟩ => show 0 + 1 * l.val = l.val; omega

/-- The update read at row (b, r): the held minimum against the least tile term over the 512 lanes, the terms read off
    the four blocks. -/
theorem stepOf_apply (x0 : Vec Ideal S4x512x3 .f32) (x1 : Vec Ideal S4x512x1 .f32) (x2 : Vec Ideal S4x3x512 .f32)
    (x3 : Vec Ideal S4x1x512 .f32) (acc : Vec Ideal S4x512x1 .f32) (b : Fin 4) (r : Fin 512) :
    stepOf (F := Ideal) x0 x1 x2 x3 acc (ix3 b r 0)
      = min (acc (ix3 b r 0)) ((Finset.univ : Finset (Fin 512)).fold min Cert.Chamfer.infW fun l =>
          Cert.Chamfer.tileTerm (x1 (ix3 b r 0)) (x3 (ix3 b 0 l)) (x0 (ix3 b r 0)) (x2 (ix3 b 0 l)) (x0 (ix3 b r 1))
            (x2 (ix3 b 1 l)) (x0 (ix3 b r 2)) (x2 (ix3 b 2 l))) := by
  refine (Cert.Chamfer.Step0.step_apply (View.ld x0 qcolA) (View.ld x0 qcolB) (View.ld x0 qcolC) x1 acc (View.ld x2 krowA)
    (View.ld x2 krowB) (View.ld x2 krowC) x3 b r).trans ?_
  refine congrArg (min (acc (ix3 b r 0))) ?_
  refine congrArg (fun f => (Finset.univ : Finset (Fin 512)).fold min Cert.Chamfer.infW f) ?_
  funext l
  show Cert.Chamfer.tileTerm (x1 (ix3 b r 0)) (x3 (ix3 b 0 l)) (x0 (qcolA.idx (ix3 b r 0))) (x2 (krowA.idx (ix3 b 0 l)))
    (x0 (qcolB.idx (ix3 b r 0))) (x2 (krowB.idx (ix3 b 0 l))) (x0 (qcolC.idx (ix3 b r 0))) (x2 (krowC.idx (ix3 b 0 l))) = _
  rw [ld_qcolA x0 b r, ld_qcolB x0 b r, ld_qcolC x0 b r, ld_krowA x2 b l, ld_krowB x2 b l, ld_krowC x2 b l]

end R0Pieces

/-- After a first key block, row (b, r) holds the +∞ word against the least tile term over the block's 512 keys. -/
theorem sout0_A_apply (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond0_0 i) (hc1 : ¬cond0_1 i) (x0 : Vec Ideal S4x512x3 .f32) (x1 : Vec Ideal S4x512x1 .f32) (x2 : Vec Ideal S4x3x512 .f32) (x3 : Vec Ideal S4x1x512 .f32) (b : Fin 4) (r : Fin 512) :
    sout0_A (F := Ideal) c i arg2 harg2 arg3 harg3 arg4 harg4 arg5 harg5 arg6 harg6 arg7 harg7 hc0 hc1 x0 x1 x2 x3 (ix3 b r 0)
      = min Cert.Chamfer.infW ((Finset.univ : Finset (Fin 512)).fold min Cert.Chamfer.infW fun l =>
          Cert.Chamfer.tileTerm (x1 (ix3 b r 0)) (x3 (ix3 b 0 l)) (x0 (ix3 b r 0)) (x2 (ix3 b 0 l)) (x0 (ix3 b r 1))
            (x2 (ix3 b 1 l)) (x0 (ix3 b r 2)) (x2 (ix3 b 2 l))) := by
  refine (congrFun (sout0_A_eq (F := Ideal) c i arg2 harg2 arg3 harg3 arg4 harg4 arg5 harg5 arg6 harg6 arg7 harg7 hc0 hc1 x0 x1 x2 x3) (ix3 b r 0)).trans ?_
  refine (stepOf_apply x0 x1 x2 x3 (k0_pay2 (F := Ideal)) b r).trans ?_
  rw [Cert.Chamfer.Step0.pay2_apply]

/-- After a middle key block, row (b, r) holds what the point before left against the least tile term over the block's
    512 keys. -/
theorem sout0_B_apply (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : ¬cond0_1 i) (x0 : Vec Ideal S4x512x3 .f32) (x1 : Vec Ideal S4x512x1 .f32) (x2 : Vec Ideal S4x3x512 .f32) (x3 : Vec Ideal S4x1x512 .f32) (xs0 : Vec Ideal S4x512x1 .f32) (b : Fin 4) (r : Fin 512) :
    sout0_B (F := Ideal) c i arg2 harg2 arg3 harg3 arg4 harg4 arg5 harg5 arg6 harg6 arg7 harg7 hc0 hc1 x0 x1 x2 x3 xs0 (ix3 b r 0)
      = min (xs0 (ix3 b r 0)) ((Finset.univ : Finset (Fin 512)).fold min Cert.Chamfer.infW fun l =>
          Cert.Chamfer.tileTerm (x1 (ix3 b r 0)) (x3 (ix3 b 0 l)) (x0 (ix3 b r 0)) (x2 (ix3 b 0 l)) (x0 (ix3 b r 1))
            (x2 (ix3 b 1 l)) (x0 (ix3 b r 2)) (x2 (ix3 b 2 l))) :=
  (congrFun (sout0_B_eq (F := Ideal) c i arg2 harg2 arg3 harg3 arg4 harg4 arg5 harg5 arg6 harg6 arg7 harg7 hc0 hc1 x0 x1 x2 x3 xs0) (ix3 b r 0)).trans (stepOf_apply x0 x1 x2 x3 xs0 b r)

/-- After a last key block the scratch's row (b, r) holds the same … -/
theorem sout0_C_apply (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : cond0_1 i) (x0 : Vec Ideal S4x512x3 .f32) (x1 : Vec Ideal S4x512x1 .f32) (x2 : Vec Ideal S4x3x512 .f32) (x3 : Vec Ideal S4x1x512 .f32) (xs0 : Vec Ideal S4x512x1 .f32) (b : Fin 4) (r : Fin 512) :
    sout0_C (F := Ideal) c i arg2 harg2 arg3 harg3 arg4 harg4 arg5 harg5 arg6 harg6 arg7 harg7 hc0 hc1 x0 x1 x2 x3 xs0 (ix3 b r 0)
      = min (xs0 (ix3 b r 0)) ((Finset.univ : Finset (Fin 512)).fold min Cert.Chamfer.infW fun l =>
          Cert.Chamfer.tileTerm (x1 (ix3 b r 0)) (x3 (ix3 b 0 l)) (x0 (ix3 b r 0)) (x2 (ix3 b 0 l)) (x0 (ix3 b r 1))
            (x2 (ix3 b 1 l)) (x0 (ix3 b r 2)) (x2 (ix3 b 2 l))) :=
  (congrFun (sout0_C_eq (F := Ideal) c i arg2 harg2 arg3 harg3 arg4 harg4 arg5 harg5 arg6 harg6 arg7 harg7 hc0 hc1 x0 x1 x2 x3 xs0) (ix3 b r 0)).trans (stepOf_apply x0 x1 x2 x3 xs0 b r)

/-- … and so does the output block's. -/
theorem out0_C_apply (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond0_0 i) (hc1 : cond0_1 i) (x0 : Vec Ideal S4x512x3 .f32) (x1 : Vec Ideal S4x512x1 .f32) (x2 : Vec Ideal S4x3x512 .f32) (x3 : Vec Ideal S4x1x512 .f32) (xs0 : Vec Ideal S4x512x1 .f32) (b : Fin 4) (r : Fin 512) :
    out0_C (F := Ideal) c i arg2 harg2 arg3 harg3 arg4 harg4 arg5 harg5 arg6 harg6 arg7 harg7 hc0 hc1 x0 x1 x2 x3 xs0 (ix3 b r 0)
      = min (xs0 (ix3 b r 0)) ((Finset.univ : Finset (Fin 512)).fold min Cert.Chamfer.infW fun l =>
          Cert.Chamfer.tileTerm (x1 (ix3 b r 0)) (x3 (ix3 b 0 l)) (x0 (ix3 b r 0)) (x2 (ix3 b 0 l)) (x0 (ix3 b r 1))
            (x2 (ix3 b 1 l)) (x0 (ix3 b r 2)) (x2 (ix3 b 2 l))) :=
  (congrFun (out0_C_eq (F := Ideal) c i arg2 harg2 arg3 harg3 arg4 harg4 arg5 harg5 arg6 harg6 arg7 harg7 hc0 hc1 x0 x1 x2 x3 xs0) (ix3 b r 0)).trans (stepOf_apply x0 x1 x2 x3 xs0 b r)

end Cert.KernelIdeal.Hand

end
-- ==== Proof.Bridge.lean ====
/-
  The tiled row minimum against the one-sided minima of the specification, and the block decomposition of a
  running minimum.

  A tiled call reads a query cloud together with its squared norms as a column, and a key cloud transposed
  (coordinates before points) together with its squared norms as a row. With the first cloud as queries and the
  second as keys the term formed at (n, m) is the pairwise term itself, so the row minimum is `nearFirst`. With
  the roles exchanged the term at (m, n) is  (|y_m|² + |x_n|²) − 2·(y_m0·x_n0 + y_m1·x_n1 + y_m2·x_n2),  which is
  the pairwise term at (n, m) after commuting the sum of the norms and each product, so the row minimum is
  `nearSecond`.

  A minimum over 8192 keys taken as a running minimum over 16 consecutive blocks of 512 keys equals the minimum
  over all keys: both are the greatest lower bound of the +∞ word and all the values, since every key index is
  512·j + l for exactly one block j and lane l.
-/
import Mathlib.Data.Finset.Fold
import Mathlib.Algebra.BigOperators.Fin
import Mathlib.Order.Basic
import proofs.«121401_j2044404433131_1_alg».proof.Proof.Spec

noncomputable section

namespace Cert.Chamfer.Bridge

open Idealize.ShloMosaic Idealize.ShloMosaic.ValueIdx

/-- The squared norms of a cloud as a column [4,8192,1]. -/
def normCol (x : Cloud) : (⟨3, ![4, 8192, 1]⟩ : Shape).Idx → EReal :=
  fun i => sq x ⟨(i 0).val, (i 0).isLt⟩ ⟨(i 1).val, (i 1).isLt⟩

/-- The squared norms of a cloud as a row [4,1,8192]. -/
def normRow (x : Cloud) : (⟨3, ![4, 1, 8192]⟩ : Shape).Idx → EReal :=
  fun i => sq x ⟨(i 0).val, (i 0).isLt⟩ ⟨(i 2).val, (i 2).isLt⟩

/-- A cloud with coordinates before points, [4,3,8192]. -/
def transposed (x : Cloud) : (⟨3, ![4, 3, 8192]⟩ : Shape).Idx → EReal :=
  fun i => x (ix3 ⟨(i 0).val, (i 0).isLt⟩ ⟨(i 2).val, (i 2).isLt⟩ ⟨(i 1).val, (i 1).isLt⟩)

/-- Queries from the first cloud, keys from the second: the tile's term is the pairwise term. -/
theorem tileTerm_first (x y : Cloud) (b : Fin 4) (n m : Fin 8192) :
    tileTerm (sq x b n) (sq y b m) (x (ix3 b n 0)) (y (ix3 b m 0)) (x (ix3 b n 1)) (y (ix3 b m 1))
      (x (ix3 b n 2)) (y (ix3 b m 2)) = pair x y b n m := by
  simp only [tileTerm, pair, dot, Fin.sum_univ_three]

/-- Queries from the second cloud, keys from the first: the tile's term is the pairwise term with the sum of the
    norms and each product commuted. -/
theorem tileTerm_second (x y : Cloud) (b : Fin 4) (n m : Fin 8192) :
    tileTerm (sq y b m) (sq x b n) (y (ix3 b m 0)) (x (ix3 b n 0)) (y (ix3 b m 1)) (x (ix3 b n 1))
      (y (ix3 b m 2)) (x (ix3 b n 2)) = pair x y b n m := by
  simp only [tileTerm, pair, dot, Fin.sum_univ_three]
  rw [add_comm (sq y b m) (sq x b n), mul_comm (y (ix3 b m 0)) (x (ix3 b n 0)),
    mul_comm (y (ix3 b m 1)) (x (ix3 b n 1)), mul_comm (y (ix3 b m 2)) (x (ix3 b n 2))]

theorem rowMin_first (x y : Cloud) (b : Fin 4) (n : Fin 8192) :
    rowMin x (normCol x) (transposed y) (normRow y) (ix3 b n 0) = nearFirst x y (ix2 b n) := by
  show (Finset.univ : Finset (Fin 8192)).fold min infW _ = (Finset.univ : Finset (Fin 8192)).fold min infW _
  exact Finset.fold_congr (fun m _ => tileTerm_first x y b n m)

theorem rowMin_second (x y : Cloud) (b : Fin 4) (m : Fin 8192) :
    rowMin y (normCol y) (transposed x) (normRow x) (ix3 b m 0) = nearSecond x y (ix2 b m) := by
  show (Finset.univ : Finset (Fin 8192)).fold min infW _ = (Finset.univ : Finset (Fin 8192)).fold min infW _
  exact Finset.fold_congr (fun n _ => tileTerm_second x y b n m)

/-- The minimum (from +∞) over the 512 keys of block `j`. -/
def blockMin (f : Fin 8192 → EReal) (j : Fin 16) : EReal :=
  (Finset.univ : Finset (Fin 512)).fold min infW fun l => f ⟨512 * j.val + l.val, by omega⟩

/-- The running minimum after key block `k`, starting from the +∞ word. -/
def runMin (f : Fin 8192 → EReal) : ℕ → EReal
  | 0 => min infW (blockMin f ⟨0, by decide⟩)
  | (k+1) => if h : k + 1 < 16 then min (runMin f k) (blockMin f ⟨k+1, h⟩) else runMin f k

/-- Lower bounds of a block minimum: the lower bounds of +∞ and of every value whose key lies in the block. -/
theorem le_blockMin (f : Fin 8192 → EReal) (j : Fin 16) (z : EReal) :
    z ≤ blockMin f j ↔
      z ≤ infW ∧ ∀ m : Fin 8192, 512 * j.val ≤ m.val → m.val < 512 * (j.val + 1) → z ≤ f m := by
  unfold blockMin
  rw [Finset.le_fold_min]
  constructor
  · rintro ⟨h0, h⟩
    refine ⟨h0, fun m h1 h2 => ?_⟩
    have hl := h ⟨m.val - 512 * j.val, by omega⟩ (Finset.mem_univ _)
    have e : (⟨512 * j.val + (m.val - 512 * j.val), by omega⟩ : Fin 8192) = m := Fin.ext (by simp only; omega)
    rw [e] at hl
    exact hl
  · rintro ⟨h0, h⟩
    exact ⟨h0, fun l _ => h _ (by simp only; omega) (by simp only; omega)⟩

/-- Lower bounds of the running minimum after block `k`: the lower bounds of +∞ and of every value whose key
    lies in blocks 0..k. -/
theorem le_runMin (f : Fin 8192 → EReal) (z : EReal) :
    ∀ k : ℕ, k < 16 → (z ≤ runMin f k ↔ z ≤ infW ∧ ∀ m : Fin 8192, m.val < 512 * (k + 1) → z ≤ f m) := by
  intro k
  induction k with
  | zero =>
    intro _
    rw [runMin, le_min_iff, le_blockMin]
    constructor
    · rintro ⟨h0, _, h⟩
      exact ⟨h0, fun m hm => h m (by simp only; omega) (by simp only; omega)⟩
    · rintro ⟨h0, h⟩
      exact ⟨h0, h0, fun m _ hm => h m (by simpa using hm)⟩
  | succ k ih =>
    intro hk
    rw [runMin, dif_pos hk, le_min_iff, ih (by omega), le_blockMin]
    constructor
    · rintro ⟨⟨h0, h1⟩, _, h2⟩
      refine ⟨h0, fun m hm => ?_⟩
      by_cases hlt : m.val < 512 * (k + 1)
      · exact h1 m hlt
      · exact h2 m (by simp only; omega) (by simp only; omega)
    · rintro ⟨h0, h⟩
      exact ⟨⟨h0, fun m hm => h m (by omega)⟩, h0, fun m _ hm => h m (by simpa using hm)⟩

/-- After the last block the running minimum is the minimum over all 8192 keys. -/
theorem runMin_last (f : Fin 8192 → EReal) :
    runMin f 15 = (Finset.univ : Finset (Fin 8192)).fold min infW f := by
  refine eq_of_forall_le_iff (fun z => ?_)
  rw [le_runMin f z 15 (by decide), Finset.le_fold_min]
  constructor
  · rintro ⟨h0, h⟩
    exact ⟨h0, fun m _ => h m (by omega)⟩
  · rintro ⟨h0, h⟩
    exact ⟨h0, fun m _ => h m (Finset.mem_univ _)⟩

end Cert.Chamfer.Bridge

end
-- ==== Proof.KernelIdeal.R0Final.lean ====
/-
  Region 0 at the extended reals: after the whole grid its output array is the specification's row minimum of the
  four arrays the region is entered with.

  The grid is 16 × 16. Point t works on row block t / 16 (512 query rows) and key block t % 16 (512 keys): row r of
  its query blocks is row 512·(t / 16) + r of the arrays, lane l of its key blocks is key 512·(t % 16) + l. At every
  point the body forms, for each query row of the block, the least tile term over the 512 keys of the key block (from
  +∞); at the first key block of a row of blocks it stores the minimum of +∞ and that, afterwards the minimum of what
  the point before left and that. So after point t the scratch holds, row by row, the running minimum of the row's
  terms over key blocks 0 .. t % 16 (by induction on the point: away from a first key block the point before has the
  same row block and the key block before). At the last key block the output window's buffer receives the same value,
  which is then the minimum over all 8192 keys: the specification's row minimum at row 512·(t / 16) + r. That block is
  written back there, and the blocks written back at the points 16·i + 15 tile the output array.
-/
import proofs.«121401_j2044404433131_1_alg».proof.Proof.KernelIdeal.R0Pieces
import proofs.«121401_j2044404433131_1_alg».proof.Proof.Bridge
import proofs.«121401_j2044404433131_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Chamfer Cert.Chamfer.Bridge

section
variable (V : (c : Dev nD) → (b : Ref sig .tc) → Buf (Elt Ideal) ((c : Thread nD τ).loc b))

/-! ## The arrays and the blocks, at their literal types -/

/-- The four arrays the region is entered with: queries, their squared norms (a column), keys transposed, the keys'
    squared norms (a row). -/
abbrev qArr0 (c : Dev nD) : Vec Ideal S4x8192x3 .f32 := V c main_arg0
abbrev qnArr0 (c : Dev nD) : Vec Ideal S4x8192x1 .f32 := V c main_v2
abbrev kArr0 (c : Dev nD) : Vec Ideal S4x3x8192 .f32 := V c main_v6
abbrev knArr0 (c : Dev nD) : Vec Ideal S4x1x8192 .f32 := V c main_v5
/-- Their blocks at a grid point. -/
abbrev qBlk0 (c : Dev nD) (t : Fin cfg0.N) : Vec Ideal S4x512x3 .f32 := iblk0 V c 0 t
abbrev qnBlk0 (c : Dev nD) (t : Fin cfg0.N) : Vec Ideal S4x512x1 .f32 := iblk0 V c 1 t
abbrev kBlk0 (c : Dev nD) (t : Fin cfg0.N) : Vec Ideal S4x3x512 .f32 := iblk0 V c 2 t
abbrev knBlk0 (c : Dev nD) (t : Fin cfg0.N) : Vec Ideal S4x1x512 .f32 := iblk0 V c 3 t

/-- Point t works on row block t / 16 and key block t % 16: the windows' block indices, decided over the grid. -/
theorem idx_facts0 : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val / 16 ∧ win0_1.index t (2 : Fin 3) = 0
    ∧ win0_2.index t (0 : Fin 3) = 0 ∧ win0_2.index t (1 : Fin 3) = 0 ∧ win0_2.index t (2 : Fin 3) = t.val % 16
    ∧ win0_3.index t (0 : Fin 3) = 0 ∧ win0_3.index t (1 : Fin 3) = 0 ∧ win0_3.index t (2 : Fin 3) = t.val % 16
    ∧ win0_4.index t (0 : Fin 3) = 0 ∧ win0_4.index t (1 : Fin 3) = t.val / 16 ∧ win0_4.index t (2 : Fin 3) = 0 :=
  (by decide +kernel : ∀ t : Fin grid0.N, _)

/-- Row r of point t's row block is row 512·(t / 16) + r of the array. -/
theorem row_lt0 (t : Fin cfg0.N) (r : Fin 512) : 512 * (t.val / 16) + r.val < 8192 := by
  have hN : cfg0.N = 256 := N_0
  have := t.isLt; have := r.isLt; omega
/-- Lane l of point t's key block is key 512·(t % 16) + l of the array. -/
theorem key_lt0 (t : Fin cfg0.N) (l : Fin 512) : 512 * (t.val % 16) + l.val < 8192 := by
  have := l.isLt; omega
abbrev rowOf0 (t : Fin cfg0.N) (r : Fin 512) : Fin 8192 := ⟨512 * (t.val / 16) + r.val, row_lt0 t r⟩
abbrev keyOf0 (t : Fin cfg0.N) (l : Fin 512) : Fin 8192 := ⟨512 * (t.val % 16) + l.val, key_lt0 t l⟩

/-- The query block read at (b, r, d) is the query array at row 512·(t / 16) + r. -/
theorem qBlk0_apply (c : Dev nD) (t : Fin cfg0.N) (b : Fin 4) (r : Fin 512) (d : Fin 3) :
    qBlk0 V c t (ix3 b r d) = qArr0 V c (ix3 b (rowOf0 t r) d) := by
  obtain ⟨e0, e1, e2, -⟩ := idx_facts0 t
  show V c main_arg0 (((cfg0.win 0).blk t).view.emb (ix3 b r d)) = V c main_arg0 _
  refine congrArg (V c main_arg0) (funext fun a => Fin.ext ?_)
  match a with
  | ⟨0, _⟩ => show win0_0.index t (0 : Fin 3) * 4 + 1 * b.val = b.val; omega
  | ⟨1, _⟩ => show win0_0.index t (1 : Fin 3) * 512 + 1 * r.val = 512 * (t.val / 16) + r.val; omega
  | ⟨2, _⟩ => show win0_0.index t (2 : Fin 3) * 3 + 1 * d.val = d.val; omega

/-- The block of the queries' squared norms read at (b, r, 0) is the column at row 512·(t / 16) + r. -/
theorem qnBlk0_apply (c : Dev nD) (t : Fin cfg0.N) (b : Fin 4) (r : Fin 512) :
    qnBlk0 V c t (ix3 b r 0) = qnArr0 V c (ix3 b (rowOf0 t r) 0) := by
  obtain ⟨-, -, -, e0, e1, e2, -⟩ := idx_facts0 t
  show V c main_v2 (((cfg0.win 1).blk t).view.emb (ix3 b r 0)) = V c main_v2 _
  refine congrArg (V c main_v2) (funext fun a => Fin.ext ?_)
  match a with
  | ⟨0, _⟩ => show win0_1.index t (0 : Fin 3) * 4 + 1 * b.val = b.val; omega
  | ⟨1, _⟩ => show win0_1.index t (1 : Fin 3) * 512 + 1 * r.val = 512 * (t.val / 16) + r.val; omega
  | ⟨2, _⟩ => show win0_1.index t (2 : Fin 3) * 1 + 1 * 0 = 0; omega

/-- The key block read at (b, d, l) is the transposed key array at key 512·(t % 16) + l. -/
theorem kBlk0_apply (c : Dev nD) (t : Fin cfg0.N) (b : Fin 4) (d : Fin 3) (l : Fin 512) :
    kBlk0 V c t (ix3 b d l) = kArr0 V c (ix3 b d (keyOf0 t l)) := by
  obtain ⟨-, -, -, -, -, -, e0, e1, e2, -⟩ := idx_facts0 t
  show V c main_v6 (((cfg0.win 2).blk t).view.emb (ix3 b d l)) = V c main_v6 _
  refine congrArg (V c main_v6) (funext fun a => Fin.ext ?_)
  match a with
  | ⟨0, _⟩ => show win0_2.index t (0 : Fin 3) * 4 + 1 * b.val = b.val; omega
  | ⟨1, _⟩ => show win0_2.index t (1 : Fin 3) * 3 + 1 * d.val = d.val; omega
  | ⟨2, _⟩ => show win0_2.index t (2 : Fin 3) * 512 + 1 * l.val = 512 * (t.val % 16) + l.val; omega

/-- The block of the keys' squared norms read at (b, 0, l) is the row at key 512·(t % 16) + l. -/
theorem knBlk0_apply (c : Dev nD) (t : Fin cfg0.N) (b : Fin 4) (l : Fin 512) :
    knBlk0 V c t (ix3 b 0 l) = knArr0 V c (ix3 b 0 (keyOf0 t l)) := by
  obtain ⟨-, -, -, -, -, -, -, -, -, e0, e1, e2, -⟩ := idx_facts0 t
  show V c main_v5 (((cfg0.win 3).blk t).view.emb (ix3 b 0 l)) = V c main_v5 _
  refine congrArg (V c main_v5) (funext fun a => Fin.ext ?_)
  match a with
  | ⟨0, _⟩ => show win0_3.index t (0 : Fin 3) * 4 + 1 * b.val = b.val; omega
  | ⟨1, _⟩ => show win0_3.index t (1 : Fin 3) * 1 + 1 * 0 = 0; omega
  | ⟨2, _⟩ => show win0_3.index t (2 : Fin 3) * 512 + 1 * l.val = 512 * (t.val % 16) + l.val; omega

end

/-! ## The running minimum, one step -/

/-- At the first key block the running minimum is the block's minimum from +∞. -/
private theorem runMin_first (f : Fin 8192 → EReal) (k : ℕ) (hk : k < 16) (h0 : k = 0) :
    min infW (blockMin f ⟨k, hk⟩) = runMin f k := by
  subst h0; rw [runMin]

/-- At a later key block it is the minimum of the one before and the block's. -/
private theorem runMin_next (f : Fin 8192 → EReal) (k : ℕ) (hk : k < 16) (h0 : k ≠ 0) :
    min (runMin f (k - 1)) (blockMin f ⟨k, hk⟩) = runMin f k := by
  obtain ⟨k', rfl⟩ := Nat.exists_eq_succ_of_ne_zero h0
  rw [runMin, dif_pos hk]
  rfl

section
variable (V : (c : Dev nD) → (b : Ref sig .tc) → Buf (Elt Ideal) ((c : Thread nD τ).loc b))

/-! ## The scratch holds the running minimum -/

/-- The tile term of query row n of batch entry b against every key m, read off the four arrays. -/
def rowTerm0 (c : Dev nD) (b : Fin 4) (n : Fin 8192) : Fin 8192 → EReal := fun m =>
  tileTerm (qnArr0 V c (ix3 b n 0)) (knArr0 V c (ix3 b 0 m)) (qArr0 V c (ix3 b n 0)) (kArr0 V c (ix3 b 0 m))
    (qArr0 V c (ix3 b n 1)) (kArr0 V c (ix3 b 1 m)) (qArr0 V c (ix3 b n 2)) (kArr0 V c (ix3 b 2 m))

/-- The least tile term over a point's key block, formed from the point's blocks, is the block minimum of the row's
    terms: lane l of key block t % 16 is key 512·(t % 16) + l. -/
theorem fold_blk0 (c : Dev nD) (t : Fin cfg0.N) (b : Fin 4) (r : Fin 512) :
    ((Finset.univ : Finset (Fin 512)).fold min infW fun l =>
        tileTerm (qnBlk0 V c t (ix3 b r 0)) (knBlk0 V c t (ix3 b 0 l)) (qBlk0 V c t (ix3 b r 0)) (kBlk0 V c t (ix3 b 0 l))
          (qBlk0 V c t (ix3 b r 1)) (kBlk0 V c t (ix3 b 1 l)) (qBlk0 V c t (ix3 b r 2)) (kBlk0 V c t (ix3 b 2 l)))
      = blockMin (rowTerm0 V c b (rowOf0 t r)) ⟨t.val % 16, Nat.mod_lt _ (by decide)⟩ := by
  unfold blockMin
  refine Finset.fold_congr fun l _ => ?_
  show tileTerm (qnBlk0 V c t (ix3 b r 0)) (knBlk0 V c t (ix3 b 0 l)) (qBlk0 V c t (ix3 b r 0)) (kBlk0 V c t (ix3 b 0 l))
      (qBlk0 V c t (ix3 b r 1)) (kBlk0 V c t (ix3 b 1 l)) (qBlk0 V c t (ix3 b r 2)) (kBlk0 V c t (ix3 b 2 l))
    = rowTerm0 V c b (rowOf0 t r) (keyOf0 t l)
  rw [qnBlk0_apply V c t b r, knBlk0_apply V c t b l, qBlk0_apply V c t b r 0, qBlk0_apply V c t b r 1,
    qBlk0_apply V c t b r 2, kBlk0_apply V c t b 0 l, kBlk0_apply V c t b 1 l, kBlk0_apply V c t b 2 l]
  rfl

/-- Away from a first key block the point before has the same row block and the key block before: what it left in
    the scratch, once known to be its running minimum, is the running minimum of this point's row up to the key
    block before. -/
private theorem prev_eq0 (c : Dev nD) (t : Fin cfg0.N) (h0 : ¬t.val % 16 = 0) (b : Fin 4) (r : Fin 512)
    (hlt : t.val - 1 < cfg0.N)
    (e : (outsAt0 V c (t.val - 1) hlt).2 (ix3 b r 0)
      = runMin (rowTerm0 V c b (rowOf0 ⟨t.val - 1, hlt⟩ r)) ((t.val - 1) % 16)) :
    (outsAt0 V c (t.val - 1) hlt).2 (ix3 b r 0) = runMin (rowTerm0 V c b (rowOf0 t r)) (t.val % 16 - 1) := by
  have er : rowOf0 ⟨t.val - 1, hlt⟩ r = rowOf0 t r :=
    Fin.ext (by show 512 * ((t.val - 1) / 16) + r.val = 512 * (t.val / 16) + r.val; omega)
  have ek : (t.val - 1) % 16 = t.val % 16 - 1 := by omega
  rw [er] at e
  exact e.trans (congrArg _ ek)

/-- After the body at point t the scratch holds, at row r of batch entry b, the running minimum of that row's terms
    over key blocks 0 .. t % 16. -/
theorem scratch_inv0 (c : Dev nD) (n : ℕ) : ∀ (t : Fin cfg0.N), t.val = n → ∀ (b : Fin 4) (r : Fin 512),
    (outsAt0 V c t.val t.isLt).2 (ix3 b r 0) = runMin (rowTerm0 V c b (rowOf0 t r)) (t.val % 16) := by
  induction n using Nat.strong_induction_on with
  | _ n ih =>
    intro t ht b r
    have hk : t.val % 16 < 16 := Nat.mod_lt _ (by decide)
    by_cases h0 : t.val % 16 = 0
    · have h1 : ¬t.val % 16 = 15 := by omega
      rw [outsAt0_A V c t h0 h1]
      dsimp only
      refine (sout0_A_apply c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (qBlk0 V c t) (qnBlk0 V c t) (kBlk0 V c t) (knBlk0 V c t) b r).trans ?_
      refine (congrArg (min infW) (fold_blk0 V c t b r)).trans ?_
      exact runMin_first _ _ hk h0
    · have hlt : t.val - 1 < cfg0.N := Nat.lt_of_le_of_lt (Nat.sub_le _ _) t.isLt
      have hprev := prev_eq0 V c t h0 b r hlt (ih (t.val - 1) (by omega) ⟨t.val - 1, hlt⟩ rfl b r)
      by_cases h1 : t.val % 16 = 15
      · rw [outsAt0_C V c t h0 h1]
        dsimp only
        refine (sout0_C_apply c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (qBlk0 V c t) (qnBlk0 V c t) (kBlk0 V c t) (knBlk0 V c t) (outsAt0 V c (t.val - 1) (Nat.lt_of_le_of_lt (Nat.sub_le _ _) t.isLt)).2 b r).trans ?_
        refine (congrArg₂ min hprev (fold_blk0 V c t b r)).trans ?_
        exact runMin_next _ _ hk h0
      · rw [outsAt0_B V c t h0 h1]
        dsimp only
        refine (sout0_B_apply c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (qBlk0 V c t) (qnBlk0 V c t) (kBlk0 V c t) (knBlk0 V c t) (outsAt0 V c (t.val - 1) (Nat.lt_of_le_of_lt (Nat.sub_le _ _) t.isLt)).2 b r).trans ?_
        refine (congrArg₂ min hprev (fold_blk0 V c t b r)).trans ?_
        exact runMin_next _ _ hk h0

/-! ## From the blocks written back to the array -/

/-- The specification's row minimum of the four arrays the region is entered with. -/
abbrev rowMin0 (c : Dev nD) : Vec Ideal S4x8192x1 .f32 := rowMin (qArr0 V c) (qnArr0 V c) (kArr0 V c) (knArr0 V c)

/-- At a last key block the output window's buffer receives the running minimum over all sixteen key blocks: the
    row's minimum over all 8192 keys. -/
theorem out_last0 (c : Dev nD) (t : Fin cfg0.N) (h15 : t.val % 16 = 15) (b : Fin 4) (r : Fin 512) :
    (outsAt0 V c t.val t.isLt).1 (ix3 b r 0) = rowMin0 V c (ix3 b (rowOf0 t r) 0) := by
  have hk : t.val % 16 < 16 := Nat.mod_lt _ (by decide)
  have h0 : ¬t.val % 16 = 0 := by omega
  have hlt : t.val - 1 < cfg0.N := Nat.lt_of_le_of_lt (Nat.sub_le _ _) t.isLt
  have hprev := prev_eq0 V c t h0 b r hlt (scratch_inv0 V c (t.val - 1) ⟨t.val - 1, hlt⟩ rfl b r)
  rw [outsAt0_C V c t h0 h15]
  dsimp only
  refine (out0_C_apply c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h15) (qBlk0 V c t) (qnBlk0 V c t) (kBlk0 V c t) (knBlk0 V c t) (outsAt0 V c (t.val - 1) (Nat.lt_of_le_of_lt (Nat.sub_le _ _) t.isLt)).2 b r).trans ?_
  refine (congrArg₂ min hprev (fold_blk0 V c t b r)).trans ?_
  refine (runMin_next _ _ hk h0).trans ?_
  rw [h15, runMin_last]
  rfl

/-- What a last key block writes back is its block of the row minimum. -/
theorem flushed_eq0 (c : Dev nD) (t : Fin cfg0.N) (hf : (cfg0.win 4).flush t = true) :
    (dat0 V c).flushed 4 t = ((cfg0.win 4).blk t).view.read (Elt Ideal) (rowMin0 V c) := by
  have h15 : t.val % 16 = 15 := (flush0_4 t).mp hf
  obtain ⟨-, -, -, -, -, -, -, -, -, -, -, -, e0, e1, e2⟩ := idx_facts0 t
  show (cfg0.win 4).cut (grid0.coords t) ((dat0 V c).after 4 t) = _
  rw [after0_4]
  funext (j : S4x512x1.Idx)
  obtain ⟨b, r, z, rfl⟩ : ∃ (b : Fin 4) (r : Fin 512) (z : Fin 1), j = ix3 b r z := ⟨j 0, j 1, j 2, eq_ix3 j⟩
  obtain rfl : z = 0 := Subsingleton.elim _ _
  show (outsAt0 V c t.val t.isLt).1 ((cfg0.win 4).xinj (grid0.coords t) (ix3 b r 0))
    = rowMin0 V c (((cfg0.win 4).blk t).view.emb (ix3 b r 0))
  have ei : (cfg0.win 4).xinj (grid0.coords t) (ix3 b r 0) = (ix3 b r 0 : S4x512x1.Idx) :=
    funext fun a => Fin.ext (by match a with | ⟨0, _⟩ => rfl | ⟨1, _⟩ => rfl | ⟨2, _⟩ => rfl)
  have ee : ((cfg0.win 4).blk t).view.emb (ix3 b r 0) = (ix3 b (rowOf0 t r) 0 : S4x8192x1.Idx) := by
    refine funext fun a => Fin.ext ?_
    match a with
    | ⟨0, _⟩ => show win0_4.index t (0 : Fin 3) * 4 + 1 * b.val = b.val; omega
    | ⟨1, _⟩ => show win0_4.index t (1 : Fin 3) * 512 + 1 * r.val = 512 * (t.val / 16) + r.val; omega
    | ⟨2, _⟩ => show win0_4.index t (2 : Fin 3) * 1 + 1 * 0 = 0; omega
  rw [ei, ee]
  exact out_last0 V c t h15 b r

/-- An index of the array lies in point t's block iff each coordinate lies in the block's range on its axis. -/
theorem mem_blk0 (t : Fin cfg0.N) (i : S4x8192x1.Idx) :
    i ∈ ((cfg0.win 4).blk t).view.set ↔ ∀ a : Fin 3, win0_4.index t a * S4x512x1.size a ≤ (i a).val ∧ (i a).val < win0_4.index t a * S4x512x1.size a + S4x512x1.size a := by
  show i ∈ ((View.whole main_v7).slice (win0_4.rect t)).set ↔ _
  rw [View.set_slice_whole, Rect.mem_set_unit]
  exact Iff.rfl

/-- Every row n of the array lies in the block written back at the last key block of row block n / 512. -/
theorem cover0 (i : S4x8192x1.Idx) :
    ∃ t : Fin cfg0.N, (cfg0.win 4).flush t = true ∧ i ∈ ((cfg0.win 4).blk t).view.set := by
  have hN : cfg0.N = 256 := N_0
  have hi0 : (i 0).val < 4 := (i 0).isLt
  have hi1 : (i 1).val < 8192 := (i 1).isLt
  have hi2 : (i 2).val < 1 := (i 2).isLt
  let t : Fin cfg0.N := ⟨16 * ((i 1).val / 512) + 15, by omega⟩
  have htv : t.val = 16 * ((i 1).val / 512) + 15 := rfl
  obtain ⟨-, -, -, -, -, -, -, -, -, -, -, -, e0, e1, e2⟩ := idx_facts0 t
  refine ⟨t, (flush0_4 t).mpr (by omega), ?_⟩
  rw [mem_blk0]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 512 ≤ (i 1).val ∧ (i 1).val < win0_4.index t (1 : Fin 3) * 512 + 512; omega
  | ⟨2, _⟩ => show win0_4.index t (2 : Fin 3) * 1 ≤ (i 2).val ∧ (i 2).val < win0_4.index t (2 : Fin 3) * 1 + 1; omega

/-- After the whole grid the output array is the specification's row minimum of the four arrays the region was
    entered with. -/
theorem final0 (c : Dev nD) :
    (dat0 (F := Ideal) V c).arrAt 4 cfg0.N = Cert.Chamfer.rowMin (V c main_arg0) (V c main_v2) (V c main_v6) (V c main_v5) :=
  (dat0 V c).arrAt_eq_of_cover 4 (rowMin0 V c) (flushed_eq0 V c) cover0

end

end Cert.KernelIdeal.Hand

end
-- ==== Proof.StepMin1.lean ====
/-
  What one grid point of the tiled kernel computes, read entry by entry over the extended reals.

  A grid point holds a tile of 512 query rows and 512 key lanes per batch entry (4 entries). From the queries' three
  coordinate columns [4,512,1], the keys' three coordinate rows [4,1,512], the queries' squared norms (a column) and the
  keys' squared norms (a row) it forms, at (b, r, l), the term
      (|q_r|² + |k_l|²) − 2·((q_r0·k_l0 + q_r1·k_l1) + q_r2·k_l2),
  takes its minimum over the 512 lanes `l` starting from the +∞ word, and replaces the stored running minimum at (b, r)
  by the lesser of the two. Before the first tile the running minimum is the +∞ word in every entry.

  The minimum over one axis is a fold of `min` over that axis's coordinates, in any order, since `min` commutes and
  associates; a column broadcast along the lanes reads the column's entry of the same row, a row broadcast down the rows
  reads the row's entry of the same lane, and a [4,512] array recast as a column [4,512,1] keeps its entries.
-/
import proofs.«121401_j2044404433131_1_alg».proof.Proof.Gen.KernelIdeal.Skeleton
import proofs.«121401_j2044404433131_1_alg».proof.Proof.Spec
import Idealize.ShloMosaic.PureOps.Reduce
import Idealize.ShloMosaic.PureOps.Ideal.Laws
import Idealize.ShloMosaic.Lib.ValueIdx
import Idealize.ShloMosaic.Lib.Pipeline.Value
import Mathlib.Data.Finset.Fold

noncomputable section

namespace Cert.Chamfer.Step1

open Idealize.ShloMosaic Idealize.ShloMosaic.ValueIdx
open Cert.KernelIdeal Cert.KernelIdeal.Gen

/-- A minimum reduction over one axis, read at the ideal values: the fold of `min` from the accumulator's value over
    that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The index of the [4,512,512] tile over (b, r) of the [4,512] result with lane `l` inserted is (b, r, l). -/
theorem lift_ix2 (h : S4x512x512.Reduces [2] S4x512) (b : Fin 4) (r l : Fin 512) :
    h.lift (ix2 b r) l = ix3 b r l := by
  funext c
  match c with
  | ⟨0, _⟩ => exact Fin.ext rfl
  | ⟨1, _⟩ => exact Fin.ext rfl
  | ⟨2, _⟩ => exact Fin.ext rfl

/-- A column [4,512,1] broadcast along the lanes reads, at (b, r, l), the column at (b, r, 0). -/
theorem broadcastCol_apply {α : Type} (v : S4x512x1.Idx → α) (h : S4x512x1.Broadcasts S4x512x512) (b : Fin 4)
    (r l : Fin 512) : broadcastTo S4x512x512 v h (ix3 b r l) = v (ix3 b r 0) :=
  broadcastTo_apply v h _ _ (by
    intro a
    match a with
    | ⟨0, _⟩ => rfl
    | ⟨1, _⟩ => rfl
    | ⟨2, _⟩ => rfl)

/-- A row [4,1,512] broadcast down the rows reads, at (b, r, l), the row at (b, 0, l). -/
theorem broadcastRow_apply {α : Type} (v : S4x1x512.Idx → α) (h : S4x1x512.Broadcasts S4x512x512) (b : Fin 4)
    (r l : Fin 512) : broadcastTo S4x512x512 v h (ix3 b r l) = v (ix3 b 0 l) :=
  broadcastTo_apply v h _ _ (by
    intro a
    match a with
    | ⟨0, _⟩ => rfl
    | ⟨1, _⟩ => rfl
    | ⟨2, _⟩ => rfl)

/-- A [4,512] array cast to a column [4,512,1] reads, at (b, r, 0), the array at (b, r). -/
theorem castCol_apply {α : Type} (v : S4x512.Idx → α) (h : S4x512.ShapeCasts S4x512x1) (b : Fin 4) (r : Fin 512) :
    shapeCast S4x512x1 v h (ix3 b r 0) = v (ix2 b r) :=
  shapeCast_apply v h _ _ (by
    rw [Shape.rowMajor_val_three, Shape.rowMajor_val_two]
    show b.val * 512 + r.val = (b.val * 512 + r.val) * 1 + 0
    omega)

/-- The +∞ column: every entry is the +∞ word. -/
theorem pay2_apply (b : Fin 4) (r : Fin 512) :
    Cert.KernelIdeal.Gen.k1_pay2 (F := Ideal) (ix3 b r 0) = Cert.Chamfer.infW := by
  unfold k1_pay2
  rw [shapeCast_self]
  rfl

/-- The three coordinate products summed left to right, at (b, r, l). -/
theorem pay3_apply (v3 v9 v15 : Vec Ideal S4x512x1 .f32) (v4 v10 v16 : Vec Ideal S4x1x512 .f32) (b : Fin 4)
    (r l : Fin 512) :
    Cert.KernelIdeal.Gen.k1_pay3 v3 v4 v9 v10 v15 v16 (ix3 b r l)
      = (v3 (ix3 b r 0) * v4 (ix3 b 0 l) + v9 (ix3 b r 0) * v10 (ix3 b 0 l)) + v15 (ix3 b r 0) * v16 (ix3 b 0 l) := by
  unfold k1_pay3
  simp only [shapeCast_self, addf_apply, mulf_apply, broadcastCol_apply, broadcastRow_apply]

/-- The sum of the two squared norms, at (b, r, l). -/
theorem pay4_apply (v23 : Vec Ideal S4x512x1 .f32) (v25 : Vec Ideal S4x1x512 .f32) (b : Fin 4) (r l : Fin 512) :
    Cert.KernelIdeal.Gen.k1_pay4 v23 v25 (ix3 b r l) = v23 (ix3 b r 0) + v25 (ix3 b 0 l) := by
  unfold k1_pay4
  simp only [shapeCast_self, addf_apply, broadcastCol_apply, broadcastRow_apply]

/-- One grid point's update of the running minimum, at row (b, r): the stored minimum against the least tile term
    over the 512 lanes (from +∞). -/
theorem step_apply (v3 v9 v15 v23 s : Vec Ideal S4x512x1 .f32) (v4 v10 v16 v25 : Vec Ideal S4x1x512 .f32) (b : Fin 4)
    (r : Fin 512) :
    Cert.KernelIdeal.Gen.k1_pay1 (F := Ideal) (Cert.KernelIdeal.Gen.k1_pay3 v3 v4 v9 v10 v15 v16)
        (Cert.KernelIdeal.Gen.k1_pay4 v23 v25) (Scalar.ofBits .f32 0x40000000#32) s (ix3 b r 0)
      = min (s (ix3 b r 0)) ((Finset.univ : Finset (Fin 512)).fold min Cert.Chamfer.infW fun l =>
          Cert.Chamfer.tileTerm (v23 (ix3 b r 0)) (v25 (ix3 b 0 l)) (v3 (ix3 b r 0)) (v4 (ix3 b 0 l)) (v9 (ix3 b r 0))
            (v10 (ix3 b 0 l)) (v15 (ix3 b r 0)) (v16 (ix3 b 0 l))) := by
  unfold k1_pay1
  rw [shapeCast_self, minimumf_apply, castCol_apply]
  refine congrArg (min (s (ix3 b r 0))) ?_
  refine (multiReduction_minimumf_single _ _ reduces_S4x512x512_S4x512 _ _ (ix2 b r)).trans ?_
  refine congrArg (fun f => (Finset.univ : Finset (Fin 512)).fold min Cert.Chamfer.infW f) ?_
  refine funext fun (l : Fin 512) => ?_
  refine (congrArg (subf (F := Ideal) _ _) (lift_ix2 reduces_S4x512x512_S4x512 b r l)).trans ?_
  rw [subf_apply, mulf_apply, broadcast_apply, pay3_apply, pay4_apply]
  rfl

end Cert.Chamfer.Step1

end
-- ==== Proof.KernelIdeal.R1Pieces.lean ====
/-
  Region 1: what each case of the body leaves, read entry by entry.

  At a grid point the body holds four input blocks: 512 query points [4,512,3], their squared norms as a column
  [4,512,1], 512 key points transposed [4,3,512], and their squared norms as a row [4,1,512]. Whatever the case, the
  scratch ends holding, at row (b, r), the lesser of a held value and the least over the block's 512 keys `l` of
      (|q_r|² + |k_l|²) − 2·((q_r0·k_l0 + q_r1·k_l1) + q_r2·k_l2);
  the held value is the +∞ word at a first key block (the scratch is reset before the update) and what the point before
  left otherwise. At a last key block the output block is stored with the scratch's new contents, so it holds the same.

  First each case's contents are identified, at any float instance, with one term over the blocks' three coordinate
  columns and rows; then that term is read at (b, r, 0) over the extended reals.
-/
import proofs.«121401_j2044404433131_1_alg».proof.Proof.KernelIdeal.R1Dat
import proofs.«121401_j2044404433131_1_alg».proof.Proof.StepMin1
import proofs.«121401_j2044404433131_1_alg».proof.Proof.Spec
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

namespace R1Pieces

/-- The zero offsets of a rank-3 block, however spelt. -/
theorem hz3 : (![0, 0, 0] : Fin 3 → Nat) = fun _ => 0 := funext fun a => by fin_cases a <;> rfl

/-- The three coordinate columns of a query block [4,512,3]: column `d` as a [4,512,1] rectangle. -/
abbrev qcolA : Rect S4x512x3 := Rect.unit (s := S4x512x3) ![0, 0, 0] S4x512x1.size inb_S4x512x3_S4x512x1_0_0_0
abbrev qcolB : Rect S4x512x3 := Rect.unit (s := S4x512x3) ![0, 0, 1] S4x512x1.size inb_S4x512x3_S4x512x1_0_0_1
abbrev qcolC : Rect S4x512x3 := Rect.unit (s := S4x512x3) ![0, 0, 2] S4x512x1.size inb_S4x512x3_S4x512x1_0_0_2
/-- The three coordinate rows of a transposed key block [4,3,512]: row `d` as a [4,1,512] rectangle. -/
abbrev krowA : Rect S4x3x512 := Rect.unit (s := S4x3x512) ![0, 0, 0] S4x1x512.size inb_S4x3x512_S4x1x512_0_0_0
abbrev krowB : Rect S4x3x512 := Rect.unit (s := S4x3x512) ![0, 1, 0] S4x1x512.size inb_S4x3x512_S4x1x512_0_1_0
abbrev krowC : Rect S4x3x512 := Rect.unit (s := S4x3x512) ![0, 2, 0] S4x1x512.size inb_S4x3x512_S4x1x512_0_2_0

/-- What a grid point leaves in the running minimum held at `acc`, from its four input blocks: the payload over the
    blocks' columns and rows. -/
abbrev stepOf (x0 : Vec F S4x512x3 .f32) (x1 : Vec F S4x512x1 .f32) (x2 : Vec F S4x3x512 .f32) (x3 : Vec F S4x1x512 .f32)
    (acc : Vec F S4x512x1 .f32) : FVec F S4x512x1 .f32 :=
  k1_pay1 (k1_pay3 (View.ld x0 qcolA) (View.ld x2 krowA) (View.ld x0 qcolB) (View.ld x2 krowB) (View.ld x0 qcolC) (View.ld x2 krowC))
    (k1_pay4 x1 x3) (Scalar.ofBits .f32 0x40000000#32) acc

end R1Pieces

open R1Pieces

/-! ## Each case's contents are the payload over the loaded blocks -/

/-- After a first key block: the update of the +∞ column. -/
theorem sout1_A_eq (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond1_0 i) (hc1 : ¬cond1_1 i) (x0 : Vec F S4x512x3 .f32) (x1 : Vec F S4x512x1 .f32) (x2 : Vec F S4x3x512 .f32) (x3 : Vec F S4x1x512 .f32) :
    sout1_A c i arg2 harg2 arg3 harg3 arg4 harg4 arg5 harg5 arg6 harg6 arg7 harg7 hc0 hc1 x0 x1 x2 x3 = stepOf x0 x1 x2 x3 (k1_pay2 (F := F)) := by
  unfold sout1_A
  rw [View.read_writes_eq_canon _ _ _ (scover1_A c i arg2 harg2 arg3 harg3 arg4 harg4 arg5 harg5 arg6 harg6 arg7 harg7 hc0 hc1 x0 x1 x2 x3)]
  unfold kernelRun1_A
  dsimp only
  sl_unfold_words
  rw [View.canon_cons_unit_zero (S := S4x512x1) hz3, View.readCov_unit_zero (S := S4x512x1) _ hz3]
  simp only [View.readAt_eq_ld, harg2.read_unread, harg3.read_unread, harg4.read_unread, harg5.read_unread, harg7.read_unread, View.ld_unit_zero (S := S4x512x1) hz3, View.ld_unit_zero (S := S4x1x512) hz3]

/-- After a middle key block: the update of what the point before left. -/
theorem sout1_B_eq (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : ¬cond1_1 i) (x0 : Vec F S4x512x3 .f32) (x1 : Vec F S4x512x1 .f32) (x2 : Vec F S4x3x512 .f32) (x3 : Vec F S4x1x512 .f32) (xs0 : Vec F S4x512x1 .f32) :
    sout1_B c i arg2 harg2 arg3 harg3 arg4 harg4 arg5 harg5 arg6 harg6 arg7 harg7 hc0 hc1 x0 x1 x2 x3 xs0 = stepOf x0 x1 x2 x3 xs0 := by
  unfold sout1_B
  rw [View.read_writes_eq_canon _ _ _ (scover1_B c i arg2 harg2 arg3 harg3 arg4 harg4 arg5 harg5 arg6 harg6 arg7 harg7 hc0 hc1 x0 x1 x2 x3 xs0)]
  unfold kernelRun1_B
  dsimp only
  sl_unfold_words
  rw [View.canon_unit_zero hz3]
  simp only [View.readAt_eq_ld, harg2.read_unread, harg3.read_unread, harg4.read_unread, harg5.read_unread, harg7.read_unread, View.ld_unit_zero (S := S4x512x1) hz3, View.ld_unit_zero (S := S4x1x512) hz3]

/-- After a last key block the scratch holds the same update … -/
theorem sout1_C_eq (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : cond1_1 i) (x0 : Vec F S4x512x3 .f32) (x1 : Vec F S4x512x1 .f32) (x2 : Vec F S4x3x512 .f32) (x3 : Vec F S4x1x512 .f32) (xs0 : Vec F S4x512x1 .f32) :
    sout1_C c i arg2 harg2 arg3 harg3 arg4 harg4 arg5 harg5 arg6 harg6 arg7 harg7 hc0 hc1 x0 x1 x2 x3 xs0 = stepOf x0 x1 x2 x3 xs0 := by
  unfold sout1_C
  rw [View.read_writes_eq_canon _ _ _ (scover1_C c i arg2 harg2 arg3 harg3 arg4 harg4 arg5 harg5 arg6 harg6 arg7 harg7 hc0 hc1 x0 x1 x2 x3 xs0)]
  unfold kernelRun1_C
  dsimp only
  sl_unfold_words
  rw [View.canon_unit_zero hz3]
  simp only [View.readAt_eq_ld, harg2.read_unread, harg3.read_unread, harg4.read_unread, harg5.read_unread, harg7.read_unread, View.ld_unit_zero (S := S4x512x1) hz3, View.ld_unit_zero (S := S4x1x512) hz3]

/-- … and the output block is stored with the scratch's new contents. -/
theorem out1_C_eq (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : cond1_1 i) (x0 : Vec F S4x512x3 .f32) (x1 : Vec F S4x512x1 .f32) (x2 : Vec F S4x3x512 .f32) (x3 : Vec F S4x1x512 .f32) (xs0 : Vec F S4x512x1 .f32) :
    out1_C c i arg2 harg2 arg3 harg3 arg4 harg4 arg5 harg5 arg6 harg6 arg7 harg7 hc0 hc1 x0 x1 x2 x3 xs0 = stepOf x0 x1 x2 x3 xs0 := by
  unfold out1_C
  rw [View.read_writes_eq_canon _ _ _ (cover1_C c i arg2 harg2 arg3 harg3 arg4 harg4 arg5 harg5 arg6 harg6 arg7 harg7 hc0 hc1 x0 x1 x2 x3 xs0)]
  unfold kernelRun1_C
  dsimp only
  sl_unfold_words
  rw [View.canon_unit_zero hz3, View.readCov_unit_zero (S := S4x512x1) _ hz3]
  simp only [View.readAt_eq_ld, harg2.read_unread, harg3.read_unread, harg4.read_unread, harg5.read_unread, harg7.read_unread, View.ld_unit_zero (S := S4x512x1) hz3, View.ld_unit_zero (S := S4x1x512) hz3]

/-! ## Read at an index, over the extended reals -/

namespace R1Pieces

/-- Column `d` of a query block read at (b, r, 0) is the block at (b, r, d). -/
theorem ld_qcolA {α : Type} (x : S4x512x3.Idx → α) (b : Fin 4) (r : Fin 512) :
    x (qcolA.idx (ix3 b r 0)) = x (ix3 b r 0) := by
  refine congrArg x (funext fun a => Fin.ext ?_)
  match a with
  | ⟨0, _⟩ => show 0 + 1 * b.val = b.val; omega
  | ⟨1, _⟩ => show 0 + 1 * r.val = r.val; omega
  | ⟨2, _⟩ => rfl
theorem ld_qcolB {α : Type} (x : S4x512x3.Idx → α) (b : Fin 4) (r : Fin 512) :
    x (qcolB.idx (ix3 b r 0)) = x (ix3 b r 1) := by
  refine congrArg x (funext fun a => Fin.ext ?_)
  match a with
  | ⟨0, _⟩ => show 0 + 1 * b.val = b.val; omega
  | ⟨1, _⟩ => show 0 + 1 * r.val = r.val; omega
  | ⟨2, _⟩ => rfl
theorem ld_qcolC {α : Type} (x : S4x512x3.Idx → α) (b : Fin 4) (r : Fin 512) :
    x (qcolC.idx (ix3 b r 0)) = x (ix3 b r 2) := by
  refine congrArg x (funext fun a => Fin.ext ?_)
  match a with
  | ⟨0, _⟩ => show 0 + 1 * b.val = b.val; omega
  | ⟨1, _⟩ => show 0 + 1 * r.val = r.val; omega
  | ⟨2, _⟩ => rfl
/-- Row `d` of a transposed key block read at (b, 0, l) is the block at (b, d, l). -/
theorem ld_krowA {α : Type} (x : S4x3x512.Idx → α) (b : Fin 4) (l : Fin 512) :
    x (krowA.idx (ix3 b 0 l)) = x (ix3 b 0 l) := by
  refine congrArg x (funext fun a => Fin.ext ?_)
  match a with
  | ⟨0, _⟩ => show 0 + 1 * b.val = b.val; omega
  | ⟨1, _⟩ => rfl
  | ⟨2, _⟩ => show 0 + 1 * l.val = l.val; omega
theorem ld_krowB {α : Type} (x : S4x3x512.Idx → α) (b : Fin 4) (l : Fin 512) :
    x (krowB.idx (ix3 b 0 l)) = x (ix3 b 1 l) := by
  refine congrArg x (funext fun a => Fin.ext ?_)
  match a with
  | ⟨0, _⟩ => show 0 + 1 * b.val = b.val; omega
  | ⟨1, _⟩ => rfl
  | ⟨2, _⟩ => show 0 + 1 * l.val = l.val; omega
theorem ld_krowC {α : Type} (x : S4x3x512.Idx → α) (b : Fin 4) (l : Fin 512) :
    x (krowC.idx (ix3 b 0 l)) = x (ix3 b 2 l) := by
  refine congrArg x (funext fun a => Fin.ext ?_)
  match a with
  | ⟨0, _⟩ => show 0 + 1 * b.val = b.val; omega
  | ⟨1, _⟩ => rfl
  | ⟨2, _⟩ => show 0 + 1 * l.val = l.val; omega

/-- The update read at row (b, r): the held minimum against the least tile term over the 512 lanes, the terms read off
    the four blocks. -/
theorem stepOf_apply (x0 : Vec Ideal S4x512x3 .f32) (x1 : Vec Ideal S4x512x1 .f32) (x2 : Vec Ideal S4x3x512 .f32)
    (x3 : Vec Ideal S4x1x512 .f32) (acc : Vec Ideal S4x512x1 .f32) (b : Fin 4) (r : Fin 512) :
    stepOf (F := Ideal) x0 x1 x2 x3 acc (ix3 b r 0)
      = min (acc (ix3 b r 0)) ((Finset.univ : Finset (Fin 512)).fold min Cert.Chamfer.infW fun l =>
          Cert.Chamfer.tileTerm (x1 (ix3 b r 0)) (x3 (ix3 b 0 l)) (x0 (ix3 b r 0)) (x2 (ix3 b 0 l)) (x0 (ix3 b r 1))
            (x2 (ix3 b 1 l)) (x0 (ix3 b r 2)) (x2 (ix3 b 2 l))) := by
  refine (Cert.Chamfer.Step1.step_apply (View.ld x0 qcolA) (View.ld x0 qcolB) (View.ld x0 qcolC) x1 acc (View.ld x2 krowA)
    (View.ld x2 krowB) (View.ld x2 krowC) x3 b r).trans ?_
  refine congrArg (min (acc (ix3 b r 0))) ?_
  refine congrArg (fun f => (Finset.univ : Finset (Fin 512)).fold min Cert.Chamfer.infW f) ?_
  funext l
  show Cert.Chamfer.tileTerm (x1 (ix3 b r 0)) (x3 (ix3 b 0 l)) (x0 (qcolA.idx (ix3 b r 0))) (x2 (krowA.idx (ix3 b 0 l)))
    (x0 (qcolB.idx (ix3 b r 0))) (x2 (krowB.idx (ix3 b 0 l))) (x0 (qcolC.idx (ix3 b r 0))) (x2 (krowC.idx (ix3 b 0 l))) = _
  rw [ld_qcolA x0 b r, ld_qcolB x0 b r, ld_qcolC x0 b r, ld_krowA x2 b l, ld_krowB x2 b l, ld_krowC x2 b l]

end R1Pieces

/-- After a first key block, row (b, r) holds the +∞ word against the least tile term over the block's 512 keys. -/
theorem sout1_A_apply (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : cond1_0 i) (hc1 : ¬cond1_1 i) (x0 : Vec Ideal S4x512x3 .f32) (x1 : Vec Ideal S4x512x1 .f32) (x2 : Vec Ideal S4x3x512 .f32) (x3 : Vec Ideal S4x1x512 .f32) (b : Fin 4) (r : Fin 512) :
    sout1_A (F := Ideal) c i arg2 harg2 arg3 harg3 arg4 harg4 arg5 harg5 arg6 harg6 arg7 harg7 hc0 hc1 x0 x1 x2 x3 (ix3 b r 0)
      = min Cert.Chamfer.infW ((Finset.univ : Finset (Fin 512)).fold min Cert.Chamfer.infW fun l =>
          Cert.Chamfer.tileTerm (x1 (ix3 b r 0)) (x3 (ix3 b 0 l)) (x0 (ix3 b r 0)) (x2 (ix3 b 0 l)) (x0 (ix3 b r 1))
            (x2 (ix3 b 1 l)) (x0 (ix3 b r 2)) (x2 (ix3 b 2 l))) := by
  refine (congrFun (sout1_A_eq (F := Ideal) c i arg2 harg2 arg3 harg3 arg4 harg4 arg5 harg5 arg6 harg6 arg7 harg7 hc0 hc1 x0 x1 x2 x3) (ix3 b r 0)).trans ?_
  refine (stepOf_apply x0 x1 x2 x3 (k1_pay2 (F := Ideal)) b r).trans ?_
  rw [Cert.Chamfer.Step1.pay2_apply]

/-- After a middle key block, row (b, r) holds what the point before left against the least tile term over the block's
    512 keys. -/
theorem sout1_B_apply (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : ¬cond1_1 i) (x0 : Vec Ideal S4x512x3 .f32) (x1 : Vec Ideal S4x512x1 .f32) (x2 : Vec Ideal S4x3x512 .f32) (x3 : Vec Ideal S4x1x512 .f32) (xs0 : Vec Ideal S4x512x1 .f32) (b : Fin 4) (r : Fin 512) :
    sout1_B (F := Ideal) c i arg2 harg2 arg3 harg3 arg4 harg4 arg5 harg5 arg6 harg6 arg7 harg7 hc0 hc1 x0 x1 x2 x3 xs0 (ix3 b r 0)
      = min (xs0 (ix3 b r 0)) ((Finset.univ : Finset (Fin 512)).fold min Cert.Chamfer.infW fun l =>
          Cert.Chamfer.tileTerm (x1 (ix3 b r 0)) (x3 (ix3 b 0 l)) (x0 (ix3 b r 0)) (x2 (ix3 b 0 l)) (x0 (ix3 b r 1))
            (x2 (ix3 b 1 l)) (x0 (ix3 b r 2)) (x2 (ix3 b 2 l))) :=
  (congrFun (sout1_B_eq (F := Ideal) c i arg2 harg2 arg3 harg3 arg4 harg4 arg5 harg5 arg6 harg6 arg7 harg7 hc0 hc1 x0 x1 x2 x3 xs0) (ix3 b r 0)).trans (stepOf_apply x0 x1 x2 x3 xs0 b r)

/-- After a last key block the scratch's row (b, r) holds the same … -/
theorem sout1_C_apply (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : cond1_1 i) (x0 : Vec Ideal S4x512x3 .f32) (x1 : Vec Ideal S4x512x1 .f32) (x2 : Vec Ideal S4x3x512 .f32) (x3 : Vec Ideal S4x1x512 .f32) (xs0 : Vec Ideal S4x512x1 .f32) (b : Fin 4) (r : Fin 512) :
    sout1_C (F := Ideal) c i arg2 harg2 arg3 harg3 arg4 harg4 arg5 harg5 arg6 harg6 arg7 harg7 hc0 hc1 x0 x1 x2 x3 xs0 (ix3 b r 0)
      = min (xs0 (ix3 b r 0)) ((Finset.univ : Finset (Fin 512)).fold min Cert.Chamfer.infW fun l =>
          Cert.Chamfer.tileTerm (x1 (ix3 b r 0)) (x3 (ix3 b 0 l)) (x0 (ix3 b r 0)) (x2 (ix3 b 0 l)) (x0 (ix3 b r 1))
            (x2 (ix3 b 1 l)) (x0 (ix3 b r 2)) (x2 (ix3 b 2 l))) :=
  (congrFun (sout1_C_eq (F := Ideal) c i arg2 harg2 arg3 harg3 arg4 harg4 arg5 harg5 arg6 harg6 arg7 harg7 hc0 hc1 x0 x1 x2 x3 xs0) (ix3 b r 0)).trans (stepOf_apply x0 x1 x2 x3 xs0 b r)

/-- … and so does the output block's. -/
theorem out1_C_apply (c : Dev nD) (i : grid1.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S4x512x1 .f32) (harg7 : arg7.IsWhole) (hc0 : ¬cond1_0 i) (hc1 : cond1_1 i) (x0 : Vec Ideal S4x512x3 .f32) (x1 : Vec Ideal S4x512x1 .f32) (x2 : Vec Ideal S4x3x512 .f32) (x3 : Vec Ideal S4x1x512 .f32) (xs0 : Vec Ideal S4x512x1 .f32) (b : Fin 4) (r : Fin 512) :
    out1_C (F := Ideal) c i arg2 harg2 arg3 harg3 arg4 harg4 arg5 harg5 arg6 harg6 arg7 harg7 hc0 hc1 x0 x1 x2 x3 xs0 (ix3 b r 0)
      = min (xs0 (ix3 b r 0)) ((Finset.univ : Finset (Fin 512)).fold min Cert.Chamfer.infW fun l =>
          Cert.Chamfer.tileTerm (x1 (ix3 b r 0)) (x3 (ix3 b 0 l)) (x0 (ix3 b r 0)) (x2 (ix3 b 0 l)) (x0 (ix3 b r 1))
            (x2 (ix3 b 1 l)) (x0 (ix3 b r 2)) (x2 (ix3 b 2 l))) :=
  (congrFun (out1_C_eq (F := Ideal) c i arg2 harg2 arg3 harg3 arg4 harg4 arg5 harg5 arg6 harg6 arg7 harg7 hc0 hc1 x0 x1 x2 x3 xs0) (ix3 b r 0)).trans (stepOf_apply x0 x1 x2 x3 xs0 b r)

end Cert.KernelIdeal.Hand

end
-- ==== Proof.KernelIdeal.R1Final.lean ====
/-
  Region 1 at the extended reals: after the whole grid its output array is the specification's row minimum of the
  four arrays the region is entered with.

  The grid is 16 × 16. Point t works on row block t / 16 (512 query rows) and key block t % 16 (512 keys): row r of
  its query blocks is row 512·(t / 16) + r of the arrays, lane l of its key blocks is key 512·(t % 16) + l. At every
  point the body forms, for each query row of the block, the least tile term over the 512 keys of the key block (from
  +∞); at the first key block of a row of blocks it stores the minimum of +∞ and that, afterwards the minimum of what
  the point before left and that. So after point t the scratch holds, row by row, the running minimum of the row's
  terms over key blocks 0 .. t % 16 (by induction on the point: away from a first key block the point before has the
  same row block and the key block before). At the last key block the output window's buffer receives the same value,
  which is then the minimum over all 8192 keys: the specification's row minimum at row 512·(t / 16) + r. That block is
  written back there, and the blocks written back at the points 16·i + 15 tile the output array.
-/
import proofs.«121401_j2044404433131_1_alg».proof.Proof.KernelIdeal.R1Pieces
import proofs.«121401_j2044404433131_1_alg».proof.Proof.Bridge
import proofs.«121401_j2044404433131_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Chamfer Cert.Chamfer.Bridge

section
variable (V : (c : Dev nD) → (b : Ref sig .tc) → Buf (Elt Ideal) ((c : Thread nD τ).loc b))

/-! ## The arrays and the blocks, at their literal types -/

/-- The four arrays the region is entered with: queries, their squared norms (a column), keys transposed, the keys'
    squared norms (a row). -/
abbrev qArr1 (c : Dev nD) : Vec Ideal S4x8192x3 .f32 := V c main_arg1
abbrev qnArr1 (c : Dev nD) : Vec Ideal S4x8192x1 .f32 := V c main_v11
abbrev kArr1 (c : Dev nD) : Vec Ideal S4x3x8192 .f32 := V c main_v15
abbrev knArr1 (c : Dev nD) : Vec Ideal S4x1x8192 .f32 := V c main_v14
/-- Their blocks at a grid point. -/
abbrev qBlk1 (c : Dev nD) (t : Fin cfg1.N) : Vec Ideal S4x512x3 .f32 := iblk1 V c 0 t
abbrev qnBlk1 (c : Dev nD) (t : Fin cfg1.N) : Vec Ideal S4x512x1 .f32 := iblk1 V c 1 t
abbrev kBlk1 (c : Dev nD) (t : Fin cfg1.N) : Vec Ideal S4x3x512 .f32 := iblk1 V c 2 t
abbrev knBlk1 (c : Dev nD) (t : Fin cfg1.N) : Vec Ideal S4x1x512 .f32 := iblk1 V c 3 t

/-- Point t works on row block t / 16 and key block t % 16: the windows' block indices, decided over the grid. -/
theorem idx_facts1 : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val / 16 ∧ win1_1.index t (2 : Fin 3) = 0
    ∧ win1_2.index t (0 : Fin 3) = 0 ∧ win1_2.index t (1 : Fin 3) = 0 ∧ win1_2.index t (2 : Fin 3) = t.val % 16
    ∧ win1_3.index t (0 : Fin 3) = 0 ∧ win1_3.index t (1 : Fin 3) = 0 ∧ win1_3.index t (2 : Fin 3) = t.val % 16
    ∧ win1_4.index t (0 : Fin 3) = 0 ∧ win1_4.index t (1 : Fin 3) = t.val / 16 ∧ win1_4.index t (2 : Fin 3) = 0 :=
  (by decide +kernel : ∀ t : Fin grid1.N, _)

/-- Row r of point t's row block is row 512·(t / 16) + r of the array. -/
theorem row_lt1 (t : Fin cfg1.N) (r : Fin 512) : 512 * (t.val / 16) + r.val < 8192 := by
  have hN : cfg1.N = 256 := N_1
  have := t.isLt; have := r.isLt; omega
/-- Lane l of point t's key block is key 512·(t % 16) + l of the array. -/
theorem key_lt1 (t : Fin cfg1.N) (l : Fin 512) : 512 * (t.val % 16) + l.val < 8192 := by
  have := l.isLt; omega
abbrev rowOf1 (t : Fin cfg1.N) (r : Fin 512) : Fin 8192 := ⟨512 * (t.val / 16) + r.val, row_lt1 t r⟩
abbrev keyOf1 (t : Fin cfg1.N) (l : Fin 512) : Fin 8192 := ⟨512 * (t.val % 16) + l.val, key_lt1 t l⟩

/-- The query block read at (b, r, d) is the query array at row 512·(t / 16) + r. -/
theorem qBlk1_apply (c : Dev nD) (t : Fin cfg1.N) (b : Fin 4) (r : Fin 512) (d : Fin 3) :
    qBlk1 V c t (ix3 b r d) = qArr1 V c (ix3 b (rowOf1 t r) d) := by
  obtain ⟨e0, e1, e2, -⟩ := idx_facts1 t
  show V c main_arg1 (((cfg1.win 0).blk t).view.emb (ix3 b r d)) = V c main_arg1 _
  refine congrArg (V c main_arg1) (funext fun a => Fin.ext ?_)
  match a with
  | ⟨0, _⟩ => show win1_0.index t (0 : Fin 3) * 4 + 1 * b.val = b.val; omega
  | ⟨1, _⟩ => show win1_0.index t (1 : Fin 3) * 512 + 1 * r.val = 512 * (t.val / 16) + r.val; omega
  | ⟨2, _⟩ => show win1_0.index t (2 : Fin 3) * 3 + 1 * d.val = d.val; omega

/-- The block of the queries' squared norms read at (b, r, 0) is the column at row 512·(t / 16) + r. -/
theorem qnBlk1_apply (c : Dev nD) (t : Fin cfg1.N) (b : Fin 4) (r : Fin 512) :
    qnBlk1 V c t (ix3 b r 0) = qnArr1 V c (ix3 b (rowOf1 t r) 0) := by
  obtain ⟨-, -, -, e0, e1, e2, -⟩ := idx_facts1 t
  show V c main_v11 (((cfg1.win 1).blk t).view.emb (ix3 b r 0)) = V c main_v11 _
  refine congrArg (V c main_v11) (funext fun a => Fin.ext ?_)
  match a with
  | ⟨0, _⟩ => show win1_1.index t (0 : Fin 3) * 4 + 1 * b.val = b.val; omega
  | ⟨1, _⟩ => show win1_1.index t (1 : Fin 3) * 512 + 1 * r.val = 512 * (t.val / 16) + r.val; omega
  | ⟨2, _⟩ => show win1_1.index t (2 : Fin 3) * 1 + 1 * 0 = 0; omega

/-- The key block read at (b, d, l) is the transposed key array at key 512·(t % 16) + l. -/
theorem kBlk1_apply (c : Dev nD) (t : Fin cfg1.N) (b : Fin 4) (d : Fin 3) (l : Fin 512) :
    kBlk1 V c t (ix3 b d l) = kArr1 V c (ix3 b d (keyOf1 t l)) := by
  obtain ⟨-, -, -, -, -, -, e0, e1, e2, -⟩ := idx_facts1 t
  show V c main_v15 (((cfg1.win 2).blk t).view.emb (ix3 b d l)) = V c main_v15 _
  refine congrArg (V c main_v15) (funext fun a => Fin.ext ?_)
  match a with
  | ⟨0, _⟩ => show win1_2.index t (0 : Fin 3) * 4 + 1 * b.val = b.val; omega
  | ⟨1, _⟩ => show win1_2.index t (1 : Fin 3) * 3 + 1 * d.val = d.val; omega
  | ⟨2, _⟩ => show win1_2.index t (2 : Fin 3) * 512 + 1 * l.val = 512 * (t.val % 16) + l.val; omega

/-- The block of the keys' squared norms read at (b, 0, l) is the row at key 512·(t % 16) + l. -/
theorem knBlk1_apply (c : Dev nD) (t : Fin cfg1.N) (b : Fin 4) (l : Fin 512) :
    knBlk1 V c t (ix3 b 0 l) = knArr1 V c (ix3 b 0 (keyOf1 t l)) := by
  obtain ⟨-, -, -, -, -, -, -, -, -, e0, e1, e2, -⟩ := idx_facts1 t
  show V c main_v14 (((cfg1.win 3).blk t).view.emb (ix3 b 0 l)) = V c main_v14 _
  refine congrArg (V c main_v14) (funext fun a => Fin.ext ?_)
  match a with
  | ⟨0, _⟩ => show win1_3.index t (0 : Fin 3) * 4 + 1 * b.val = b.val; omega
  | ⟨1, _⟩ => show win1_3.index t (1 : Fin 3) * 1 + 1 * 0 = 0; omega
  | ⟨2, _⟩ => show win1_3.index t (2 : Fin 3) * 512 + 1 * l.val = 512 * (t.val % 16) + l.val; omega

end

/-! ## The running minimum, one step -/

/-- At the first key block the running minimum is the block's minimum from +∞. -/
private theorem runMin_first (f : Fin 8192 → EReal) (k : ℕ) (hk : k < 16) (h0 : k = 0) :
    min infW (blockMin f ⟨k, hk⟩) = runMin f k := by
  subst h0; rw [runMin]

/-- At a later key block it is the minimum of the one before and the block's. -/
private theorem runMin_next (f : Fin 8192 → EReal) (k : ℕ) (hk : k < 16) (h0 : k ≠ 0) :
    min (runMin f (k - 1)) (blockMin f ⟨k, hk⟩) = runMin f k := by
  obtain ⟨k', rfl⟩ := Nat.exists_eq_succ_of_ne_zero h0
  rw [runMin, dif_pos hk]
  rfl

section
variable (V : (c : Dev nD) → (b : Ref sig .tc) → Buf (Elt Ideal) ((c : Thread nD τ).loc b))

/-! ## The scratch holds the running minimum -/

/-- The tile term of query row n of batch entry b against every key m, read off the four arrays. -/
def rowTerm1 (c : Dev nD) (b : Fin 4) (n : Fin 8192) : Fin 8192 → EReal := fun m =>
  tileTerm (qnArr1 V c (ix3 b n 0)) (knArr1 V c (ix3 b 0 m)) (qArr1 V c (ix3 b n 0)) (kArr1 V c (ix3 b 0 m))
    (qArr1 V c (ix3 b n 1)) (kArr1 V c (ix3 b 1 m)) (qArr1 V c (ix3 b n 2)) (kArr1 V c (ix3 b 2 m))

/-- The least tile term over a point's key block, formed from the point's blocks, is the block minimum of the row's
    terms: lane l of key block t % 16 is key 512·(t % 16) + l. -/
theorem fold_blk1 (c : Dev nD) (t : Fin cfg1.N) (b : Fin 4) (r : Fin 512) :
    ((Finset.univ : Finset (Fin 512)).fold min infW fun l =>
        tileTerm (qnBlk1 V c t (ix3 b r 0)) (knBlk1 V c t (ix3 b 0 l)) (qBlk1 V c t (ix3 b r 0)) (kBlk1 V c t (ix3 b 0 l))
          (qBlk1 V c t (ix3 b r 1)) (kBlk1 V c t (ix3 b 1 l)) (qBlk1 V c t (ix3 b r 2)) (kBlk1 V c t (ix3 b 2 l)))
      = blockMin (rowTerm1 V c b (rowOf1 t r)) ⟨t.val % 16, Nat.mod_lt _ (by decide)⟩ := by
  unfold blockMin
  refine Finset.fold_congr fun l _ => ?_
  show tileTerm (qnBlk1 V c t (ix3 b r 0)) (knBlk1 V c t (ix3 b 0 l)) (qBlk1 V c t (ix3 b r 0)) (kBlk1 V c t (ix3 b 0 l))
      (qBlk1 V c t (ix3 b r 1)) (kBlk1 V c t (ix3 b 1 l)) (qBlk1 V c t (ix3 b r 2)) (kBlk1 V c t (ix3 b 2 l))
    = rowTerm1 V c b (rowOf1 t r) (keyOf1 t l)
  rw [qnBlk1_apply V c t b r, knBlk1_apply V c t b l, qBlk1_apply V c t b r 0, qBlk1_apply V c t b r 1,
    qBlk1_apply V c t b r 2, kBlk1_apply V c t b 0 l, kBlk1_apply V c t b 1 l, kBlk1_apply V c t b 2 l]
  rfl

/-- Away from a first key block the point before has the same row block and the key block before: what it left in
    the scratch, once known to be its running minimum, is the running minimum of this point's row up to the key
    block before. -/
private theorem prev_eq1 (c : Dev nD) (t : Fin cfg1.N) (h0 : ¬t.val % 16 = 0) (b : Fin 4) (r : Fin 512)
    (hlt : t.val - 1 < cfg1.N)
    (e : (outsAt1 V c (t.val - 1) hlt).2 (ix3 b r 0)
      = runMin (rowTerm1 V c b (rowOf1 ⟨t.val - 1, hlt⟩ r)) ((t.val - 1) % 16)) :
    (outsAt1 V c (t.val - 1) hlt).2 (ix3 b r 0) = runMin (rowTerm1 V c b (rowOf1 t r)) (t.val % 16 - 1) := by
  have er : rowOf1 ⟨t.val - 1, hlt⟩ r = rowOf1 t r :=
    Fin.ext (by show 512 * ((t.val - 1) / 16) + r.val = 512 * (t.val / 16) + r.val; omega)
  have ek : (t.val - 1) % 16 = t.val % 16 - 1 := by omega
  rw [er] at e
  exact e.trans (congrArg _ ek)

/-- After the body at point t the scratch holds, at row r of batch entry b, the running minimum of that row's terms
    over key blocks 0 .. t % 16. -/
theorem scratch_inv1 (c : Dev nD) (n : ℕ) : ∀ (t : Fin cfg1.N), t.val = n → ∀ (b : Fin 4) (r : Fin 512),
    (outsAt1 V c t.val t.isLt).2 (ix3 b r 0) = runMin (rowTerm1 V c b (rowOf1 t r)) (t.val % 16) := by
  induction n using Nat.strong_induction_on with
  | _ n ih =>
    intro t ht b r
    have hk : t.val % 16 < 16 := Nat.mod_lt _ (by decide)
    by_cases h0 : t.val % 16 = 0
    · have h1 : ¬t.val % 16 = 15 := by omega
      rw [outsAt1_A V c t h0 h1]
      dsimp only
      refine (sout1_A_apply c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (qBlk1 V c t) (qnBlk1 V c t) (kBlk1 V c t) (knBlk1 V c t) b r).trans ?_
      refine (congrArg (min infW) (fold_blk1 V c t b r)).trans ?_
      exact runMin_first _ _ hk h0
    · have hlt : t.val - 1 < cfg1.N := Nat.lt_of_le_of_lt (Nat.sub_le _ _) t.isLt
      have hprev := prev_eq1 V c t h0 b r hlt (ih (t.val - 1) (by omega) ⟨t.val - 1, hlt⟩ rfl b r)
      by_cases h1 : t.val % 16 = 15
      · rw [outsAt1_C V c t h0 h1]
        dsimp only
        refine (sout1_C_apply c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (qBlk1 V c t) (qnBlk1 V c t) (kBlk1 V c t) (knBlk1 V c t) (outsAt1 V c (t.val - 1) (Nat.lt_of_le_of_lt (Nat.sub_le _ _) t.isLt)).2 b r).trans ?_
        refine (congrArg₂ min hprev (fold_blk1 V c t b r)).trans ?_
        exact runMin_next _ _ hk h0
      · rw [outsAt1_B V c t h0 h1]
        dsimp only
        refine (sout1_B_apply c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (qBlk1 V c t) (qnBlk1 V c t) (kBlk1 V c t) (knBlk1 V c t) (outsAt1 V c (t.val - 1) (Nat.lt_of_le_of_lt (Nat.sub_le _ _) t.isLt)).2 b r).trans ?_
        refine (congrArg₂ min hprev (fold_blk1 V c t b r)).trans ?_
        exact runMin_next _ _ hk h0

/-! ## From the blocks written back to the array -/

/-- The specification's row minimum of the four arrays the region is entered with. -/
abbrev rowMin1 (c : Dev nD) : Vec Ideal S4x8192x1 .f32 := rowMin (qArr1 V c) (qnArr1 V c) (kArr1 V c) (knArr1 V c)

/-- At a last key block the output window's buffer receives the running minimum over all sixteen key blocks: the
    row's minimum over all 8192 keys. -/
theorem out_last1 (c : Dev nD) (t : Fin cfg1.N) (h15 : t.val % 16 = 15) (b : Fin 4) (r : Fin 512) :
    (outsAt1 V c t.val t.isLt).1 (ix3 b r 0) = rowMin1 V c (ix3 b (rowOf1 t r) 0) := by
  have hk : t.val % 16 < 16 := Nat.mod_lt _ (by decide)
  have h0 : ¬t.val % 16 = 0 := by omega
  have hlt : t.val - 1 < cfg1.N := Nat.lt_of_le_of_lt (Nat.sub_le _ _) t.isLt
  have hprev := prev_eq1 V c t h0 b r hlt (scratch_inv1 V c (t.val - 1) ⟨t.val - 1, hlt⟩ rfl b r)
  rw [outsAt1_C V c t h0 h15]
  dsimp only
  refine (out1_C_apply c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h15) (qBlk1 V c t) (qnBlk1 V c t) (kBlk1 V c t) (knBlk1 V c t) (outsAt1 V c (t.val - 1) (Nat.lt_of_le_of_lt (Nat.sub_le _ _) t.isLt)).2 b r).trans ?_
  refine (congrArg₂ min hprev (fold_blk1 V c t b r)).trans ?_
  refine (runMin_next _ _ hk h0).trans ?_
  rw [h15, runMin_last]
  rfl

/-- What a last key block writes back is its block of the row minimum. -/
theorem flushed_eq1 (c : Dev nD) (t : Fin cfg1.N) (hf : (cfg1.win 4).flush t = true) :
    (dat1 V c).flushed 4 t = ((cfg1.win 4).blk t).view.read (Elt Ideal) (rowMin1 V c) := by
  have h15 : t.val % 16 = 15 := (flush1_4 t).mp hf
  obtain ⟨-, -, -, -, -, -, -, -, -, -, -, -, e0, e1, e2⟩ := idx_facts1 t
  show (cfg1.win 4).cut (grid1.coords t) ((dat1 V c).after 4 t) = _
  rw [after1_4]
  funext (j : S4x512x1.Idx)
  obtain ⟨b, r, z, rfl⟩ : ∃ (b : Fin 4) (r : Fin 512) (z : Fin 1), j = ix3 b r z := ⟨j 0, j 1, j 2, eq_ix3 j⟩
  obtain rfl : z = 0 := Subsingleton.elim _ _
  show (outsAt1 V c t.val t.isLt).1 ((cfg1.win 4).xinj (grid1.coords t) (ix3 b r 0))
    = rowMin1 V c (((cfg1.win 4).blk t).view.emb (ix3 b r 0))
  have ei : (cfg1.win 4).xinj (grid1.coords t) (ix3 b r 0) = (ix3 b r 0 : S4x512x1.Idx) :=
    funext fun a => Fin.ext (by match a with | ⟨0, _⟩ => rfl | ⟨1, _⟩ => rfl | ⟨2, _⟩ => rfl)
  have ee : ((cfg1.win 4).blk t).view.emb (ix3 b r 0) = (ix3 b (rowOf1 t r) 0 : S4x8192x1.Idx) := by
    refine funext fun a => Fin.ext ?_
    match a with
    | ⟨0, _⟩ => show win1_4.index t (0 : Fin 3) * 4 + 1 * b.val = b.val; omega
    | ⟨1, _⟩ => show win1_4.index t (1 : Fin 3) * 512 + 1 * r.val = 512 * (t.val / 16) + r.val; omega
    | ⟨2, _⟩ => show win1_4.index t (2 : Fin 3) * 1 + 1 * 0 = 0; omega
  rw [ei, ee]
  exact out_last1 V c t h15 b r

/-- An index of the array lies in point t's block iff each coordinate lies in the block's range on its axis. -/
theorem mem_blk1 (t : Fin cfg1.N) (i : S4x8192x1.Idx) :
    i ∈ ((cfg1.win 4).blk t).view.set ↔ ∀ a : Fin 3, win1_4.index t a * S4x512x1.size a ≤ (i a).val ∧ (i a).val < win1_4.index t a * S4x512x1.size a + S4x512x1.size a := by
  show i ∈ ((View.whole main_v16).slice (win1_4.rect t)).set ↔ _
  rw [View.set_slice_whole, Rect.mem_set_unit]
  exact Iff.rfl

/-- Every row n of the array lies in the block written back at the last key block of row block n / 512. -/
theorem cover1 (i : S4x8192x1.Idx) :
    ∃ t : Fin cfg1.N, (cfg1.win 4).flush t = true ∧ i ∈ ((cfg1.win 4).blk t).view.set := by
  have hN : cfg1.N = 256 := N_1
  have hi0 : (i 0).val < 4 := (i 0).isLt
  have hi1 : (i 1).val < 8192 := (i 1).isLt
  have hi2 : (i 2).val < 1 := (i 2).isLt
  let t : Fin cfg1.N := ⟨16 * ((i 1).val / 512) + 15, by omega⟩
  have htv : t.val = 16 * ((i 1).val / 512) + 15 := rfl
  obtain ⟨-, -, -, -, -, -, -, -, -, -, -, -, e0, e1, e2⟩ := idx_facts1 t
  refine ⟨t, (flush1_4 t).mpr (by omega), ?_⟩
  rw [mem_blk1]
  intro a
  match a with
  | ⟨0, _⟩ => show win1_4.index t (0 : Fin 3) * 4 ≤ (i 0).val ∧ (i 0).val < win1_4.index t (0 : Fin 3) * 4 + 4; omega
  | ⟨1, _⟩ => show win1_4.index t (1 : Fin 3) * 512 ≤ (i 1).val ∧ (i 1).val < win1_4.index t (1 : Fin 3) * 512 + 512; omega
  | ⟨2, _⟩ => show win1_4.index t (2 : Fin 3) * 1 ≤ (i 2).val ∧ (i 2).val < win1_4.index t (2 : Fin 3) * 1 + 1; omega

/-- After the whole grid the output array is the specification's row minimum of the four arrays the region was
    entered with. -/
theorem final1 (c : Dev nD) :
    (dat1 (F := Ideal) V c).arrAt 4 cfg1.N = Cert.Chamfer.rowMin (V c main_arg1) (V c main_v11) (V c main_v15) (V c main_v14) :=
  (dat1 V c).arrAt_eq_of_cover 4 (rowMin1 V c) (flushed_eq1 V c) cover1

end

end Cert.KernelIdeal.Hand

end
-- ==== Proof.RefMin.lean ====
/-
  The reference program's two one-sided minima are the specification's.

  The reference forms, for every batch entry b and every pair (n, m), the term
  (|x_n|² + |y_m|²) − 2·⟨x_n, y_m⟩ as an array of shape [4, 8192, 8192], each squared norm being the zero word plus
  the three squares and the inner product the sum of the three coordinate products. It then takes the minimum of
  that array from the +∞ word along its last axis (over m, for every n) and along its middle axis (over n, for
  every m). A minimum along one axis is the fold of `min` over that axis's coordinates, the remaining coordinates
  being held fixed; so the two reductions are `nearFirst` and `nearSecond`. The program's result is the sum of the
  two means (each the total of one of the minima, from the zero word, divided by 32768).
-/
import proofs.«121401_j2044404433131_1_alg».proof.Proof.Gen.ReferenceIdeal.Read
import proofs.«121401_j2044404433131_1_alg».proof.Proof.Spec
import Idealize.ShloMosaic.PureOps.Reduce
import Idealize.ShloMosaic.PureOps.Ideal
import Idealize.ShloMosaic.PureOps.Ideal.Laws
import Idealize.ShloMosaic.Lib.ValueIdx

noncomputable section

namespace Cert.Chamfer

open Cert.ReferenceIdeal Cert.ReferenceIdeal.Gen Idealize.ShloMosaic Idealize.ShloMosaic.StableHlo

/-- The sum of the two means: each array of 4·8192 one-sided distances is totalled from the zero word and divided
    by 32768, and the two quotients are added. -/
def meanSum (u v : (⟨S4x8192, .f32⟩ : BufTy).Contents (Elt Ideal)) : (⟨S_, .f32⟩ : BufTy).Contents (Elt Ideal) :=
  addf
    (Host.divf (Host.reduceAdd u (constant (F := Ideal) S_ .f32 0x00000000#32) reducesTo_S4x8192_S_d0_1 h_S_)
      (constant (F := Ideal) S_ .f32 0x47000000#32))
    (Host.divf (Host.reduceAdd v (constant (F := Ideal) S_ .f32 0x00000000#32) reducesTo_S4x8192_S_d0_1 h_S_)
      (constant (F := Ideal) S_ .f32 0x47000000#32))

end Cert.Chamfer

namespace Cert.Chamfer.Ref

open Cert.ReferenceIdeal Cert.ReferenceIdeal.Gen Cert.ReferenceIdeal.Read Idealize.ShloMosaic
  Idealize.ShloMosaic.StableHlo Idealize.ShloMosaic.ValueIdx

/-- The first cloud's squared norms, as the reference sums them. -/
theorem v1_apply (x0 : (⟨S4x8192x3, .f32⟩ : BufTy).Contents (Elt Ideal)) (b : Fin 4) (n : Fin 8192) :
    val_main_v1 (F := Ideal) x0 (ix2 b n) = sq x0 b n := by
  rw [val_main_v1_apply]
  unfold sq
  refine congrArg₂ (· + ·) rfl (Finset.sum_congr rfl fun k _ => ?_)
  have e : idx_main_v1 (ix2 b n) k = ix3 b n k :=
    funext fun a => by match a with | ⟨0, _⟩ => rfl | ⟨1, _⟩ => rfl | ⟨2, _⟩ => rfl
  rw [e]; rfl

/-- The second cloud's squared norms, as the reference sums them. -/
theorem v3_apply (x1 : (⟨S4x8192x3, .f32⟩ : BufTy).Contents (Elt Ideal)) (b : Fin 4) (m : Fin 8192) :
    val_main_v3 (F := Ideal) x1 (ix2 b m) = sq x1 b m := by
  rw [val_main_v3_apply]
  unfold sq
  refine congrArg₂ (· + ·) rfl (Finset.sum_congr rfl fun k _ => ?_)
  have e : idx_main_v3 (ix2 b m) k = ix3 b m k :=
    funext fun a => by match a with | ⟨0, _⟩ => rfl | ⟨1, _⟩ => rfl | ⟨2, _⟩ => rfl
  rw [e]; rfl

/-- The inner products, as the reference's contraction forms them. -/
theorem v4_apply (x0 x1 : (⟨S4x8192x3, .f32⟩ : BufTy).Contents (Elt Ideal)) (b : Fin 4) (n m : Fin 8192) :
    val_main_v4 (F := Ideal) x0 x1 (ix3 b n m) = dot x0 x1 b n m := by
  rw [val_main_v4_apply]
  unfold dot
  refine Finset.sum_congr rfl fun k _ => ?_
  have el : lidx_main_v4 (ix3 b n m) k = ix3 b n k :=
    funext fun a => by match a with | ⟨0, _⟩ => rfl | ⟨1, _⟩ => rfl | ⟨2, _⟩ => rfl
  have er : ridx_main_v4 (ix3 b n m) k = ix3 b m k :=
    funext fun a => by match a with | ⟨0, _⟩ => rfl | ⟨1, _⟩ => rfl | ⟨2, _⟩ => rfl
  rw [el, er]

/-- The array the reference reduces holds the pairwise term at (b, n, m). -/
theorem v12_apply (x0 x1 : (⟨S4x8192x3, .f32⟩ : BufTy).Contents (Elt Ideal)) (b : Fin 4) (n m : Fin 8192) :
    val_main_v12 (F := Ideal) x0 x1 (ix3 b n m) = pair x0 x1 b n m := by
  have e5 : idx_main_v5 (idx_main_v7 (ix3 b n m)) = ix2 b n :=
    funext fun a => by match a with | ⟨0, _⟩ => rfl | ⟨1, _⟩ => rfl
  have e6 : idx_main_v6 (idx_main_v8 (ix3 b n m)) = ix2 b m :=
    funext fun a => by match a with | ⟨0, _⟩ => rfl | ⟨1, _⟩ => rfl
  rw [val_main_v12_apply, val_main_v9_apply, val_main_v11_apply, val_main_v7_apply, val_main_v5_apply,
    val_main_v8_apply, val_main_v6_apply, val_main_v10_apply, val_main_cst_1_apply, e5, e6, v1_apply, v3_apply,
    v4_apply]
  rfl

/-- One-axis reductions of the [4, 8192, 8192] array: along the last axis and along the middle one. -/
theorem reduces_d2 : S4x8192x8192.Reduces [2] S4x8192 := by decide
theorem reduces_d1 : S4x8192x8192.Reduces [1] S4x8192 := by decide

/-- Inserting the coordinate m on the last axis over (b, n). -/
theorem lift_d2 (b : Fin 4) (n m : Fin 8192) : reduces_d2.lift (ix2 b n) m = ix3 b n m :=
  funext fun a => Fin.ext (by match a with | ⟨0, _⟩ => rfl | ⟨1, _⟩ => rfl | ⟨2, _⟩ => rfl)

/-- Inserting the coordinate n on the middle axis over (b, m). -/
theorem lift_d1 (b : Fin 4) (m n : Fin 8192) : reduces_d1.lift (ix2 b m) n = ix3 b n m :=
  funext fun a => Fin.ext (by match a with | ⟨0, _⟩ => rfl | ⟨1, _⟩ => rfl | ⟨2, _⟩ => rfl)

/-- The minimum along the last axis: for each point of the first cloud, the least term over the second cloud. -/
theorem v13_eq (x0 x1 : (⟨S4x8192x3, .f32⟩ : BufTy).Contents (Elt Ideal)) :
    val_main_v13 (F := Ideal) x0 x1 = nearFirst x0 x1 := by
  funext j
  obtain ⟨b, n, rfl⟩ : ∃ (b : Fin 4) (n : Fin 8192), j = ix2 b n := ⟨j 0, j 1, eq_ix2 j⟩
  unfold val_main_v13
  refine (Host.reduce_eq_fold_single (FloatOps.minimumf (F := Ideal) (φ := .f32)) (val_main_v12 (F := Ideal) x0 x1)
    (val_main_cst_2 (F := Ideal)) reducesTo_S4x8192x8192_S4x8192_d2 reduces_d2 h_S_ (ix2 b n)).trans ?_
  show (Finset.univ : Finset (Fin 8192)).fold min infW
      (fun m => val_main_v12 (F := Ideal) x0 x1 (reduces_d2.lift (ix2 b n) m)) = _
  unfold nearFirst
  refine Finset.fold_congr fun (m : Fin 8192) _ => ?_
  exact (congrArg (val_main_v12 (F := Ideal) x0 x1) (lift_d2 b n m)).trans (v12_apply x0 x1 b n m)

/-- The minimum along the middle axis: for each point of the second cloud, the least term over the first cloud. -/
theorem v14_eq (x0 x1 : (⟨S4x8192x3, .f32⟩ : BufTy).Contents (Elt Ideal)) :
    val_main_v14 (F := Ideal) x0 x1 = nearSecond x0 x1 := by
  funext j
  obtain ⟨b, m, rfl⟩ : ∃ (b : Fin 4) (m : Fin 8192), j = ix2 b m := ⟨j 0, j 1, eq_ix2 j⟩
  unfold val_main_v14
  refine (Host.reduce_eq_fold_single (FloatOps.minimumf (F := Ideal) (φ := .f32)) (val_main_v12 (F := Ideal) x0 x1)
    (val_main_cst_3 (F := Ideal)) reducesTo_S4x8192x8192_S4x8192_d1 reduces_d1 h_S_ (ix2 b m)).trans ?_
  show (Finset.univ : Finset (Fin 8192)).fold min infW
      (fun n => val_main_v12 (F := Ideal) x0 x1 (reduces_d1.lift (ix2 b m) n)) = _
  unfold nearSecond
  refine Finset.fold_congr fun (n : Fin 8192) _ => ?_
  exact (congrArg (val_main_v12 (F := Ideal) x0 x1) (lift_d1 b m n)).trans (v12_apply x0 x1 b n m)

/-- The reference's result is the sum of the two means of the specification's one-sided distances. -/
theorem v19_eq (x0 x1 : (⟨S4x8192x3, .f32⟩ : BufTy).Contents (Elt Ideal)) :
    val_main_v19 (F := Ideal) x0 x1 = meanSum (nearFirst x0 x1) (nearSecond x0 x1) := by
  unfold val_main_v19 val_main_v16 val_main_v18 val_main_v15 val_main_v17
  rw [v13_eq, v14_eq]
  rfl

end Cert.Chamfer.Ref

end
-- ==== Proof.HostSide.lean ====
/-
  What the tiled program's three stretches of host operations compute, over an arbitrary contents of the buffers.

  Before the first tiled call the host forms, from the two clouds x (first argument) and y (second argument): the
  squared norms of x as a column [4,8192,1] (the zero word plus the three squares, summed along the last axis, then
  given a unit last axis), the squared norms of y as a row [4,1,8192] (the same sum given a unit middle axis), and
  y with coordinates before points [4,3,8192]. Between the calls it reads the first call's column of row minima as
  a [4,8192] array and forms the same three operands with the clouds' roles exchanged. After the second call it
  reads that call's column the same way and returns the sum of the two means. No stretch writes an argument.

  A column [4,8192,1] and the array [4,8192] list their entries in the same row-major order
  ((b·8192 + n)·1 + 0 = b·8192 + n), so the reshape between them reads entry (b, n, 0) at (b, n).
-/
import proofs.«121401_j2044404433131_1_alg».proof.Proof.Gen.KernelIdeal.Launch
import proofs.«121401_j2044404433131_1_alg».proof.Proof.Spec
import proofs.«121401_j2044404433131_1_alg».proof.Proof.Bridge
import proofs.«121401_j2044404433131_1_alg».proof.Proof.RefMin
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.Chamfer.Host

open Idealize.ShloMosaic Idealize.ShloMosaic.StableHlo Idealize.ShloMosaic.ValueIdx
open Cert.KernelIdeal Cert.KernelIdeal.Gen Cert.Chamfer Cert.Chamfer.Bridge

/-- A [4,8192,1] column read as a [4,8192] array. -/
def colToVec (x : (⟨3, ![4, 8192, 1]⟩ : Shape).Idx → EReal) : (⟨2, ![4, 8192]⟩ : Shape).Idx → EReal :=
  fun i => x (ix3 ⟨(i 0).val, (i 0).isLt⟩ ⟨(i 1).val, (i 1).isLt⟩ 0)

/-- The last axis of a [4,8192,3] array summed away. -/
theorem reduces_d2 : S4x8192x3.Reduces [2] S4x8192 := by decide

/-- Inserting the coordinate d on the last axis over (b, n). -/
theorem lift_d2 (b : Fin 4) (n : Fin 8192) (d : Fin 3) : reduces_d2.lift (ix2 b n) d = ix3 b n d :=
  funext fun a => Fin.ext (by match a with | ⟨0, _⟩ => rfl | ⟨1, _⟩ => rfl | ⟨2, _⟩ => rfl)

/-- The host's sum of the squares along the last axis, from the zero word, is the squared norm. -/
theorem reduceSq_apply (x : (⟨S4x8192x3, .f32⟩ : BufTy).Contents (Elt Ideal)) (b : Fin 4) (n : Fin 8192) :
    Host.reduceAdd (F := Ideal) (mulf x x) (constant (F := Ideal) S_ .f32 0x00000000#32)
      reducesTo_S4x8192x3_S4x8192_d2 h_S_ (ix2 b n) = sq x b n := by
  simp only [Host.reduceAdd, Ideal.hostReduceAdd_def]
  rw [Ideal.hostReduceAdd_single reducesTo_S4x8192x3_S4x8192_d2 reduces_d2]
  unfold sq
  refine congrArg₂ (· + ·) rfl (Finset.sum_congr rfl fun k _ => ?_)
  rw [lift_d2 b n k]; rfl

/-- The squared norms given a unit last axis are the column of squared norms. -/
theorem normCol_eq (x : (⟨S4x8192x3, .f32⟩ : BufTy).Contents (Elt Ideal)) :
    broadcastInDim S4x8192x1 ![0, 1] bcast_S4x8192_S4x8192x1_0_1
      (Host.reduceAdd (F := Ideal) (mulf x x) (constant (F := Ideal) S_ .f32 0x00000000#32)
        reducesTo_S4x8192x3_S4x8192_d2 h_S_) = normCol x := by
  funext i
  rw [broadcastInDim_apply _ bcast_S4x8192_S4x8192x1_0_1 _ i (ix2 ⟨(i 0).val, (i 0).isLt⟩ ⟨(i 1).val, (i 1).isLt⟩)
    (fun a => match a with
      | ⟨0, _⟩ => by show (i 0).val = if (4 : Nat) = 1 then 0 else (i 0).val; rw [if_neg (by decide)]
      | ⟨1, _⟩ => by show (i 1).val = if (8192 : Nat) = 1 then 0 else (i 1).val; rw [if_neg (by decide)])]
  exact reduceSq_apply x _ _

/-- The squared norms given a unit middle axis are the row of squared norms. -/
theorem normRow_eq (x : (⟨S4x8192x3, .f32⟩ : BufTy).Contents (Elt Ideal)) :
    broadcastInDim S4x1x8192 ![0, 2] bcast_S4x8192_S4x1x8192_0_2
      (Host.reduceAdd (F := Ideal) (mulf x x) (constant (F := Ideal) S_ .f32 0x00000000#32)
        reducesTo_S4x8192x3_S4x8192_d2 h_S_) = normRow x := by
  funext i
  rw [broadcastInDim_apply _ bcast_S4x8192_S4x1x8192_0_2 _ i (ix2 ⟨(i 0).val, (i 0).isLt⟩ ⟨(i 2).val, (i 2).isLt⟩)
    (fun a => match a with
      | ⟨0, _⟩ => by show (i 0).val = if (4 : Nat) = 1 then 0 else (i 0).val; rw [if_neg (by decide)]
      | ⟨1, _⟩ => by show (i 2).val = if (8192 : Nat) = 1 then 0 else (i 2).val; rw [if_neg (by decide)])]
  exact reduceSq_apply x _ _

/-- Exchanging the last two axes puts coordinates before points. -/
theorem transposed_eq (x : (⟨S4x8192x3, .f32⟩ : BufTy).Contents (Elt Ideal)) :
    transpose S4x3x8192 [0, 2, 1] x transposes_S4x8192x3_S4x3x8192_0_2_1 = transposed x := by
  funext i
  obtain ⟨b, d, m, rfl⟩ : ∃ (b : Fin 4) (d : Fin 3) (m : Fin 8192), i = ix3 b d m := ⟨i 0, i 1, i 2, eq_ix3 i⟩
  exact transpose_ix3_021_apply x transposes_S4x8192x3_S4x3x8192_0_2_1 b d m

/-- The reshape of a column [4,8192,1] to [4,8192] reads entry (b, n, 0) at (b, n). -/
theorem colToVec_eq (x : (⟨S4x8192x1, .f32⟩ : BufTy).Contents (Elt Ideal)) :
    shapeCast S4x8192 x shapeCasts_S4x8192x1_S4x8192 = colToVec x := by
  funext i
  obtain ⟨b, n, rfl⟩ : ∃ (b : Fin 4) (n : Fin 8192), i = ix2 b n := ⟨i 0, i 1, eq_ix2 i⟩
  refine shapeCast_apply x shapeCasts_S4x8192x1_S4x8192 (ix2 b n) (ix3 b n 0) ?_
  rw [Shape.rowMajor_val_three, Shape.rowMajor_val_two]
  show (b.val * 8192 + n.val) * 1 + 0 = b.val * 8192 + n.val
  omega

/-- The tiled row minimum with the first cloud as queries, read as a [4,8192] array, is the first one-sided minimum. -/
theorem colToVec_rowMin_first (x y : Cloud) :
    colToVec (rowMin x (normCol x) (transposed y) (normRow y)) = nearFirst x y := by
  funext i
  obtain ⟨b, n, rfl⟩ : ∃ (b : Fin 4) (n : Fin 8192), i = ix2 b n := ⟨i 0, i 1, eq_ix2 i⟩
  exact rowMin_first x y b n

/-- The tiled row minimum with the second cloud as queries, read as a [4,8192] array, is the second one-sided minimum. -/
theorem colToVec_rowMin_second (x y : Cloud) :
    colToVec (rowMin y (normCol y) (transposed x) (normRow x)) = nearSecond x y := by
  funext i
  obtain ⟨b, m, rfl⟩ : ∃ (b : Fin 4) (m : Fin 8192), i = ix2 b m := ⟨i 0, i 1, eq_ix2 i⟩
  exact rowMin_second x y b m

/-! ## The three stretches of host operations over an arbitrary valuation -/

section Stretches

variable (W : Valuation τ sig (Elt Ideal))

/-- Before the first tiled call: the first cloud's squared norms as a column. -/
theorem pre0_v2 :
    StableHlo.after (hostOps0 (F := Ideal)) W (Proc.devRef .tc main_v2) = normCol (W (Proc.devRef .tc main_arg0)) := by
  after_results
  exact normCol_eq _

/-- Before the first tiled call: the second cloud transposed. -/
theorem pre0_v6 :
    StableHlo.after (hostOps0 (F := Ideal)) W (Proc.devRef .tc main_v6) = transposed (W (Proc.devRef .tc main_arg1)) := by
  after_results
  exact transposed_eq _

/-- Before the first tiled call: the second cloud's squared norms as a row. -/
theorem pre0_v5 :
    StableHlo.after (hostOps0 (F := Ideal)) W (Proc.devRef .tc main_v5) = normRow (W (Proc.devRef .tc main_arg1)) := by
  after_results
  exact normRow_eq _

/-- The first stretch leaves the first cloud as it was. -/
theorem pre0_arg0 :
    StableHlo.after (hostOps0 (F := Ideal)) W (Proc.devRef .tc main_arg0) = W (Proc.devRef .tc main_arg0) := by
  after_results

/-- The first stretch leaves the second cloud as it was. -/
theorem pre0_arg1 :
    StableHlo.after (hostOps0 (F := Ideal)) W (Proc.devRef .tc main_arg1) = W (Proc.devRef .tc main_arg1) := by
  after_results

/-- Between the calls: the second cloud's squared norms as a column. -/
theorem pre1_v11 :
    StableHlo.after (hostOps1 (F := Ideal)) W (Proc.devRef .tc main_v11) = normCol (W (Proc.devRef .tc main_arg1)) := by
  after_results
  exact normCol_eq _

/-- Between the calls: the first cloud transposed. -/
theorem pre1_v15 :
    StableHlo.after (hostOps1 (F := Ideal)) W (Proc.devRef .tc main_v15) = transposed (W (Proc.devRef .tc main_arg0)) := by
  after_results
  exact transposed_eq _

/-- Between the calls: the first cloud's squared norms as a row. -/
theorem pre1_v14 :
    StableHlo.after (hostOps1 (F := Ideal)) W (Proc.devRef .tc main_v14) = normRow (W (Proc.devRef .tc main_arg0)) := by
  after_results
  exact normRow_eq _

/-- The second stretch leaves the first cloud as it was. -/
theorem pre1_arg0 :
    StableHlo.after (hostOps1 (F := Ideal)) W (Proc.devRef .tc main_arg0) = W (Proc.devRef .tc main_arg0) := by
  after_results

/-- The second stretch leaves the second cloud as it was. -/
theorem pre1_arg1 :
    StableHlo.after (hostOps1 (F := Ideal)) W (Proc.devRef .tc main_arg1) = W (Proc.devRef .tc main_arg1) := by
  after_results

/-- Between the calls: the first call's column of row minima read as a [4,8192] array. -/
theorem pre1_v8 :
    StableHlo.after (hostOps1 (F := Ideal)) W (Proc.devRef .tc main_v8) = colToVec (W (Proc.devRef .tc main_v7)) := by
  after_results
  exact colToVec_eq _

/-- After the second call: the sum of the two means, of the first call's minima and of the second call's column read
    as a [4,8192] array. -/
theorem post2_v22 :
    StableHlo.after (hostOps2 (F := Ideal)) W (Proc.devRef .tc main_v22)
      = meanSum (W (Proc.devRef .tc main_v8)) (colToVec (W (Proc.devRef .tc main_v16))) := by
  after_results
  rw [← colToVec_eq]
  rfl

/-- The last stretch leaves the first cloud as it was. -/
theorem post2_arg0 :
    StableHlo.after (hostOps2 (F := Ideal)) W (Proc.devRef .tc main_arg0) = W (Proc.devRef .tc main_arg0) := by
  after_results

/-- The last stretch leaves the second cloud as it was. -/
theorem post2_arg1 :
    StableHlo.after (hostOps2 (F := Ideal)) W (Proc.devRef .tc main_arg1) = W (Proc.devRef .tc main_arg1) := by
  after_results

end Stretches

end Cert.Chamfer.Host

end
-- ==== Proof.KernelIdeal.Value.lean ====
/-
  The idealized program's result, as the specification states it.

  Read through the run's boundaries at the extended reals: the first call's output array is the row minimum of the
  first cloud against the second (its four operands are the first cloud, its squared norms as a column, the second
  cloud transposed, and the second cloud's squared norms as a row), the second call's is the row minimum of the second
  cloud against the first; read as [4,8192] arrays these are the two one-sided minima of the specification, and the
  last host stretch takes the mean of each and adds them.
-/
import proofs.«121401_j2044404433131_1_alg».proof.Proof.KernelIdeal.Run
import proofs.«121401_j2044404433131_1_alg».proof.Proof.KernelIdeal.R0Final
import proofs.«121401_j2044404433131_1_alg».proof.Proof.KernelIdeal.R1Final
import proofs.«121401_j2044404433131_1_alg».proof.Proof.HostSide

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Chamfer Cert.Chamfer.Bridge Cert.Chamfer.Host

variable (m : (ℓ : Loc nD τ sig) → Buf (Elt Ideal) ℓ) (ρ : Dev nD → PrngReg)

/-- The two clouds as launched. -/
abbrev cloudA (c : Dev nD) : Cloud := m ((c : Thread nD τ).loc main_arg0)
abbrev cloudB (c : Dev nD) : Cloud := m ((c : Thread nD τ).loc main_arg1)

/-! ## The first call's operands and output -/

theorem V1_arg0 (c : Dev nD) : V1 (F := Ideal) m ρ c main_arg0 = cloudA m c := pre0_arg0 (W0 m ρ c)
theorem V1_arg1 (c : Dev nD) : W1 (F := Ideal) m ρ c (Proc.devRef .tc main_arg1) = cloudB m c := pre0_arg1 (W0 m ρ c)
theorem V1_v2 (c : Dev nD) : V1 (F := Ideal) m ρ c main_v2 = normCol (cloudA m c) := pre0_v2 (W0 m ρ c)
theorem V1_v6 (c : Dev nD) : V1 (F := Ideal) m ρ c main_v6 = transposed (cloudB m c) := pre0_v6 (W0 m ρ c)
theorem V1_v5 (c : Dev nD) : V1 (F := Ideal) m ρ c main_v5 = normRow (cloudB m c) := pre0_v5 (W0 m ρ c)

/-- The first call leaves the row minimum of the first cloud against the second. -/
theorem W2_v7 (c : Dev nD) :
    W2 (F := Ideal) m ρ c (Proc.devRef .tc main_v7)
      = rowMin (cloudA m c) (normCol (cloudA m c)) (transposed (cloudB m c)) (normRow (cloudB m c)) := by
  refine (W2_arr m ρ c 4).trans ?_
  rw [final0 (V1 m ρ) c, V1_arg0, V1_v2, V1_v6, V1_v5]

/-- Both clouds pass the first call unchanged. -/
theorem W2_arg0 (c : Dev nD) : W2 (F := Ideal) m ρ c (Proc.devRef .tc main_arg0) = cloudA m c :=
  (W2_arr m ρ c 0).trans ((((dat0 (V1 m ρ) c).arrAt_in 0 rfl _).trans (A_eq0 (V1 m ρ) c 0)).trans (V1_arg0 m ρ c))
theorem W2_arg1 (c : Dev nD) : W2 (F := Ideal) m ρ c (Proc.devRef .tc main_arg1) = cloudB m c :=
  (W2_of_ne m ρ c main_arg1 (by decide)).trans (V1_arg1 m ρ c)

/-! ## The second call's operands and output -/

theorem V3_arg1 (c : Dev nD) : V3 (F := Ideal) m ρ c main_arg1 = cloudB m c := (pre1_arg1 (W2 m ρ c)).trans (W2_arg1 m ρ c)
theorem V3_v11 (c : Dev nD) : V3 (F := Ideal) m ρ c main_v11 = normCol (cloudB m c) := by
  refine (pre1_v11 (W2 m ρ c)).trans ?_; rw [W2_arg1]
theorem V3_v15 (c : Dev nD) : V3 (F := Ideal) m ρ c main_v15 = transposed (cloudA m c) := by
  refine (pre1_v15 (W2 m ρ c)).trans ?_; rw [W2_arg0]
theorem V3_v14 (c : Dev nD) : V3 (F := Ideal) m ρ c main_v14 = normRow (cloudA m c) := by
  refine (pre1_v14 (W2 m ρ c)).trans ?_; rw [W2_arg0]

/-- The second call leaves the row minimum of the second cloud against the first. -/
theorem W4_v16 (c : Dev nD) :
    W4 (F := Ideal) m ρ c (Proc.devRef .tc main_v16)
      = rowMin (cloudB m c) (normCol (cloudB m c)) (transposed (cloudA m c)) (normRow (cloudA m c)) := by
  refine (W4_arr m ρ c 4).trans ?_
  rw [final1 (V3 m ρ) c, V3_arg1, V3_v11, V3_v15, V3_v14]

/-- The first call's output, read as a [4,8192] array between the calls, passes the second call unchanged. -/
theorem W4_v8 (c : Dev nD) : W4 (F := Ideal) m ρ c (Proc.devRef .tc main_v8) = nearFirst (cloudA m c) (cloudB m c) := by
  refine (W4_of_ne m ρ c main_v8 (by decide)).trans ?_
  refine (pre1_v8 (W2 m ρ c)).trans ?_
  rw [W2_v7, colToVec_rowMin_first]

/-! ## The result -/

/-- The result buffer at the last boundary: the mean of the first one-sided minima plus the mean of the second. -/
theorem result_eq (c : Dev nD) :
    W5 (F := Ideal) m ρ c (Proc.devRef .tc main_v22)
      = meanSum (nearFirst (cloudA m c) (cloudB m c)) (nearSecond (cloudA m c) (cloudB m c)) := by
  refine (post2_v22 (W4 m ρ c)).trans ?_
  rw [W4_v8, W4_v16, colToVec_rowMin_second]

end Cert.KernelIdeal.Hand

end
-- ==== Proof.lean ====
/-
  The certificate of a Chamfer-distance kernel against its reference.

  Both programs take two clouds of 8192 points in 3-space per batch entry and return the mean over the first cloud of
  each point's least pairwise term (|x|² + |y|²) − 2⟨x, y⟩ against the second cloud, plus the same mean with the clouds
  exchanged. The reference forms all 8192 × 8192 terms per batch entry and reduces them along either axis. The kernel
  makes two tiled calls, each keeping a running minimum over 16 blocks of 512 keys for a block of 512 queries; its
  second call has the clouds exchanged. On the extended reals the running minimum over blocks is the minimum over all
  keys, the three-term sum of coordinate products is the contraction, and exchanging the clouds commutes a sum and
  three products; so the two results are one function of the arguments. No rewrite was applied to the kernel's text
  when it was read at the extended reals, so that reading is the kernel's own.
-/
import proofs.«121401_j2044404433131_1_alg».proof.Defs
import proofs.«121401_j2044404433131_1_alg».proof.Proof.Gen.Kernel
import proofs.«121401_j2044404433131_1_alg».proof.Proof.Gen.KernelIdeal
import proofs.«121401_j2044404433131_1_alg».proof.Proof.Gen.ReferenceIdeal
import proofs.«121401_j2044404433131_1_alg».proof.Proof.Gen.Pre_finite_inputs
import proofs.«121401_j2044404433131_1_alg».proof.Proof.Gen.ReferenceIdeal.Run
import proofs.«121401_j2044404433131_1_alg».proof.Proof.Gen.ReferenceIdeal.Read
import proofs.«121401_j2044404433131_1_alg».proof.Proof.Kernel.Run
import proofs.«121401_j2044404433131_1_alg».proof.Proof.KernelIdeal.Value
import proofs.«121401_j2044404433131_1_alg».proof.Proof.RefMin
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves both clouds as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does the kernel read at the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the two clouds both programs end at the mean of the first cloud's one-sided minima plus
    the mean of the second's. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Chamfer.meanSum
      (Cert.Chamfer.nearFirst (Cert.KernelIdeal.Hand.cloudA m c) (Cert.KernelIdeal.Hand.cloudB m c))
      (Cert.Chamfer.nearSecond (Cert.KernelIdeal.Hand.cloudA m c) (Cert.KernelIdeal.Hand.cloudB m c)), ?_, ?_⟩
  · exact (θ_run Cert.KernelIdeal.defs _ _).mono
      (fun _ h c => ⟨(h c).1.trans (Cert.KernelIdeal.Hand.result_eq m ρ c), (h c).2⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, Cert.Chamfer.Ref.v19_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
